-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S2048x8192 .f32) (main_arg5 : FVec F S8192 .f32) (main_arg6 : FVec F S2048x8192 .f32) (main_arg7 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S2048x8192 .f32 := Host.absf main_arg6
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x8192 .f32) (main_arg5 : FVec F S8192 .f32) (main_arg6 : FVec F S2048x8192 .f32) (main_arg7 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S1024x128 : Shape := ⟨2, ![1024, 128]⟩
abbrev S128x512 : Shape := ⟨2, ![128, 512]⟩
abbrev S512 : Shape := ⟨1, ![512]⟩
abbrev S1024x512 : Shape := ⟨2, ![1024, 512]⟩
abbrev S1x512 : Shape := ⟨2, ![1, 512]⟩

abbrev nBuf : Space → Nat
  | .hbm => 10
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S8192, .f32⟩
  | .hbm, ⟨6, _⟩ => ⟨S2048x8192, .f32⟩
  | .hbm, ⟨7, _⟩ => ⟨S8192, .f32⟩
  | .hbm, ⟨8, _⟩ => ⟨S4096x2048, .f32⟩
  | .hbm, ⟨9, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S512, .f32⟩
  | .local _ .vmem, ⟨31, _⟩ => ⟨S512, .f32⟩
  | .local _ .vmem, ⟨32, _⟩ => ⟨S512, .f32⟩
  | .local _ .vmem, ⟨33, _⟩ => ⟨S512, .f32⟩
  | .local _ .vmem, ⟨34, _⟩ => ⟨S512, .f32⟩
  | .local _ .vmem, ⟨35, _⟩ => ⟨S512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v55 : BitVec 1 := Scalar.cmpi .eq arg2 c15_i32
  let v56 : BitVec 32 := Scalar.extui v55
  let c0_i32_43 : BitVec 32 := 0#32
  let v57 : BitVec 1 := Scalar.cmpi .ne v56 c0_i32_43
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg2.toNat, v0.toNat]

def cc0_transform_10 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat]

def cc0_transform_11 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![v0.toNat]

def cc0_transform_12 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![v0.toNat]

def cc0_transform_13 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![v0.toNat]

def cc0_transform_14 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat]

def cc0_transform_15 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![v0.toNat]

def cc0_transform_16 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![v0.toNat]

def cc0_transform_17 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![v0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]

abbrev stage0_20 : Fin 2 → Memref sig .tc .vmem S1024x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]

abbrev stage0_21 : Fin 2 → Memref sig .tc .vmem S1024x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x2048.size a
  hwx0_0 : ∀ i : grid0.Coords, EltTy.bits .f32 = 32 ∨ (Rect.block (s := S4096x2048) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x2048.size a
  hwx0_1 : ∀ i : grid0.Coords, EltTy.bits .f32 = 32 ∨ (Rect.block (s := S4096x2048) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x8192.size a
  hwx0_2 : ∀ i : grid0.Coords, EltTy.bits .f32 = 32 ∨ (Rect.block (s := S2048x8192) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S2048x8192.size a
  hwx0_3 : ∀ i : grid0.Coords, EltTy.bits .f32 = 32 ∨ (Rect.block (s := S2048x8192) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S2048x8192.size a
  hwx0_4 : ∀ i : grid0.Coords, EltTy.bits .f32 = 32 ∨ (Rect.block (s := S2048x8192) S128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S2048x8192.size a
  hwx0_5 : ∀ i : grid0.Coords, EltTy.bits .f32 = 32 ∨ (Rect.block (s := S2048x8192) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S2048x8192.size a
  hwx0_6 : ∀ i : grid0.Coords, EltTy.bits .f32 = 32 ∨ (Rect.block (s := S2048x8192) S128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S2048x8192.size a
  hwx0_7 : ∀ i : grid0.Coords, EltTy.bits .f32 = 32 ∨ (Rect.block (s := S2048x8192) S128x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S2048x8192.size a
  hwx0_8 : ∀ i : grid0.Coords, EltTy.bits .f32 = 32 ∨ (Rect.block (s := S2048x8192) S128x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S2048x8192.size a
  hwx0_9 : ∀ i : grid0.Coords, EltTy.bits .f32 = 32 ∨ (Rect.block (s := S2048x8192) S128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S8192.size a
  hwx0_10 : ∀ i : grid0.Coords, EltTy.bits .f32 = 32 ∨ (Rect.block (s := S8192) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S8192.size a
  hwx0_11 : ∀ i : grid0.Coords, EltTy.bits .f32 = 32 ∨ (Rect.block (s := S8192) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S8192.size a
  hwx0_12 : ∀ i : grid0.Coords, EltTy.bits .f32 = 32 ∨ (Rect.block (s := S8192) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S8192.size a
  hwx0_13 : ∀ i : grid0.Coords, EltTy.bits .f32 = 32 ∨ (Rect.block (s := S8192) S512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S8192.size a
  hwx0_14 : ∀ i : grid0.Coords, EltTy.bits .f32 = 32 ∨ (Rect.block (s := S8192) S512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S8192.size a
  hwx0_15 : ∀ i : grid0.Coords, EltTy.bits .f32 = 32 ∨ (Rect.block (s := S8192) S512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S8192.size a
  hwx0_16 : ∀ i : grid0.Coords, EltTy.bits .f32 = 32 ∨ (Rect.block (s := S8192) S512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S8192.size a
  hwx0_17 : ∀ i : grid0.Coords, EltTy.bits .f32 = 32 ∨ (Rect.block (s := S8192) S512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x512.size a ≤ S4096x2048.size a
  hwx0_18 : ∀ i : grid0.Coords, EltTy.bits .f32 = 32 ∨ (Rect.block (s := S4096x2048) S1024x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x512.size a ≤ S4096x2048.size a
  hwx0_19 : ∀ i : grid0.Coords, EltTy.bits .f32 = 32 ∨ (Rect.block (s := S4096x2048) S1024x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x512.size a ≤ S4096x2048.size a
  hwx0_20 : ∀ i : grid0.Coords, EltTy.bits .f32 = 32 ∨ (Rect.block (s := S4096x2048) S1024x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x512.size a ≤ S4096x2048.size a
  hwx0_21 : ∀ i : grid0.Coords, EltTy.bits .f32 = 32 ∨ (Rect.block (s := S4096x2048) S1024x512.size (cc0_transform_21 i) (hinb0_21 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg5) S512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg7) S512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg7) S512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg7) S512.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg7) S512.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg0) S1024x512.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_arg2) S1024x512.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v0_0) S1024x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v0_1) S1024x512.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev idle0 : Fin 22 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun i => !(k0_cond2 i == 1#1) | 21 => fun i => !(k0_cond2 i == 1#1) | ⟨_ + 22, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S8192, .f32⟩
  | .hbm, ⟨6, _⟩ => ⟨S2048x8192, .f32⟩
  | .hbm, ⟨7, _⟩ => ⟨S8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.K.Setup.lean ====
/-
  What the frame of `Kernel`'s one pallas_call is stated over.

  The call runs on a 4 × 4 × 16 grid (256 points; the last axis is the contraction's sixteen chunks). Its body takes
  twenty input blocks (the two children's hidden-state chunks, four column blocks of each weight matrix, four
  blocks of each bias vector, the two children's cell-state blocks), two output blocks and four accumulators kept
  across points. Three cases by the chunk number k: at k = 0 the accumulators are first reset to zero; at every k
  each accumulator gains the two products of this chunk; at k = 15 the gates are formed and both outputs stored.
  At the other points the outputs' buffers are left as they were found and are not written back.

  Here: the body's memory references bundled (`Bufs`), the blocks it reads and the accumulators' contents bundled
  (`Ins`, `Scr`), the two branch conditions in closed form over the grid, and where the output windows are idle.
-/
import proofs.«122265_j12180527251605_1_alg».proof.Proof.Gen.Kernel.Launch
import proofs.«122265_j12180527251605_1_alg».proof.Proof.Gen.Kernel.Skeleton
import proofs.«122265_j12180527251605_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's operands, bundled -/

/-- The twenty-six whole memory references the body is called with: inputs `a3 … a22`, outputs `a23`, `a24`,
    accumulators `a25 … a28`. -/
structure Bufs where
  a3 : Memref sig .tc .vmem S1024x128 .f32
  h3 : a3.IsWhole
  a4 : Memref sig .tc .vmem S1024x128 .f32
  h4 : a4.IsWhole
  a5 : Memref sig .tc .vmem S128x512 .f32
  h5 : a5.IsWhole
  a6 : Memref sig .tc .vmem S128x512 .f32
  h6 : a6.IsWhole
  a7 : Memref sig .tc .vmem S128x512 .f32
  h7 : a7.IsWhole
  a8 : Memref sig .tc .vmem S128x512 .f32
  h8 : a8.IsWhole
  a9 : Memref sig .tc .vmem S128x512 .f32
  h9 : a9.IsWhole
  a10 : Memref sig .tc .vmem S128x512 .f32
  h10 : a10.IsWhole
  a11 : Memref sig .tc .vmem S128x512 .f32
  h11 : a11.IsWhole
  a12 : Memref sig .tc .vmem S128x512 .f32
  h12 : a12.IsWhole
  a13 : Memref sig .tc .vmem S512 .f32
  h13 : a13.IsWhole
  a14 : Memref sig .tc .vmem S512 .f32
  h14 : a14.IsWhole
  a15 : Memref sig .tc .vmem S512 .f32
  h15 : a15.IsWhole
  a16 : Memref sig .tc .vmem S512 .f32
  h16 : a16.IsWhole
  a17 : Memref sig .tc .vmem S512 .f32
  h17 : a17.IsWhole
  a18 : Memref sig .tc .vmem S512 .f32
  h18 : a18.IsWhole
  a19 : Memref sig .tc .vmem S512 .f32
  h19 : a19.IsWhole
  a20 : Memref sig .tc .vmem S512 .f32
  h20 : a20.IsWhole
  a21 : Memref sig .tc .vmem S1024x512 .f32
  h21 : a21.IsWhole
  a22 : Memref sig .tc .vmem S1024x512 .f32
  h22 : a22.IsWhole
  a23 : Memref sig .tc .vmem S1024x512 .f32
  h23 : a23.IsWhole
  a24 : Memref sig .tc .vmem S1024x512 .f32
  h24 : a24.IsWhole
  a25 : Memref sig .tc .vmem S1024x512 .f32
  h25 : a25.IsWhole
  a26 : Memref sig .tc .vmem S1024x512 .f32
  h26 : a26.IsWhole
  a27 : Memref sig .tc .vmem S1024x512 .f32
  h27 : a27.IsWhole
  a28 : Memref sig .tc .vmem S1024x512 .f32
  h28 : a28.IsWhole

/-- The body on a bundle. -/
abbrev kbody (i : grid0.Coords) (B : Bufs) : Prog (TpuEff nD τ sig (Elt F) Λ₀ .tc) PUnit :=
  cc0__kernel (F := F) i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28

/-- The bundle the pipeline calls the body with at point `t`: each window's current staging buffer, and the four
    accumulators' own buffers. -/
abbrev bufsAt (t : Fin cfg0.N) : Bufs :=
  ⟨win0_0.stage (cfg0.slots t 0), hstage0_0 ((cfg0.slots t 0).cast nbuf0_0),
   win0_1.stage (cfg0.slots t 1), hstage0_1 ((cfg0.slots t 1).cast nbuf0_1),
   win0_2.stage (cfg0.slots t 2), hstage0_2 ((cfg0.slots t 2).cast nbuf0_2),
   win0_3.stage (cfg0.slots t 3), hstage0_3 ((cfg0.slots t 3).cast nbuf0_3),
   win0_4.stage (cfg0.slots t 4), hstage0_4 ((cfg0.slots t 4).cast nbuf0_4),
   win0_5.stage (cfg0.slots t 5), hstage0_5 ((cfg0.slots t 5).cast nbuf0_5),
   win0_6.stage (cfg0.slots t 6), hstage0_6 ((cfg0.slots t 6).cast nbuf0_6),
   win0_7.stage (cfg0.slots t 7), hstage0_7 ((cfg0.slots t 7).cast nbuf0_7),
   win0_8.stage (cfg0.slots t 8), hstage0_8 ((cfg0.slots t 8).cast nbuf0_8),
   win0_9.stage (cfg0.slots t 9), hstage0_9 ((cfg0.slots t 9).cast nbuf0_9),
   win0_10.stage (cfg0.slots t 10), hstage0_10 ((cfg0.slots t 10).cast nbuf0_10),
   win0_11.stage (cfg0.slots t 11), hstage0_11 ((cfg0.slots t 11).cast nbuf0_11),
   win0_12.stage (cfg0.slots t 12), hstage0_12 ((cfg0.slots t 12).cast nbuf0_12),
   win0_13.stage (cfg0.slots t 13), hstage0_13 ((cfg0.slots t 13).cast nbuf0_13),
   win0_14.stage (cfg0.slots t 14), hstage0_14 ((cfg0.slots t 14).cast nbuf0_14),
   win0_15.stage (cfg0.slots t 15), hstage0_15 ((cfg0.slots t 15).cast nbuf0_15),
   win0_16.stage (cfg0.slots t 16), hstage0_16 ((cfg0.slots t 16).cast nbuf0_16),
   win0_17.stage (cfg0.slots t 17), hstage0_17 ((cfg0.slots t 17).cast nbuf0_17),
   win0_18.stage (cfg0.slots t 18), hstage0_18 ((cfg0.slots t 18).cast nbuf0_18),
   win0_19.stage (cfg0.slots t 19), hstage0_19 ((cfg0.slots t 19).cast nbuf0_19),
   win0_20.stage (cfg0.slots t 20), hstage0_20 ((cfg0.slots t 20).cast nbuf0_20),
   win0_21.stage (cfg0.slots t 21), hstage0_21 ((cfg0.slots t 21).cast nbuf0_21),
   Memref.whole cc0_scratch0, Memref.isWhole_whole _, Memref.whole cc0_scratch1, Memref.isWhole_whole _,
   Memref.whole cc0_scratch2, Memref.isWhole_whole _, Memref.whole cc0_scratch3, Memref.isWhole_whole _⟩

/-- The body as the pipeline calls it at point `t` is the body on that bundle. -/
theorem bodyAt0_eq (t : Fin cfg0.N) : bodyAt0 (F := F) t = kbody (grid0.coords t) (bufsAt t) := rfl

/-- The contents of the twenty input blocks. -/
structure Ins (F : FTy → Type) [FloatOps F] where
  x3 : Vec F S1024x128 .f32
  x4 : Vec F S1024x128 .f32
  x5 : Vec F S128x512 .f32
  x6 : Vec F S128x512 .f32
  x7 : Vec F S128x512 .f32
  x8 : Vec F S128x512 .f32
  x9 : Vec F S128x512 .f32
  x10 : Vec F S128x512 .f32
  x11 : Vec F S128x512 .f32
  x12 : Vec F S128x512 .f32
  x13 : Vec F S512 .f32
  x14 : Vec F S512 .f32
  x15 : Vec F S512 .f32
  x16 : Vec F S512 .f32
  x17 : Vec F S512 .f32
  x18 : Vec F S512 .f32
  x19 : Vec F S512 .f32
  x20 : Vec F S512 .f32
  x21 : Vec F S1024x512 .f32
  x22 : Vec F S1024x512 .f32

/-- The contents of the four accumulators. -/
structure Scr (F : FTy → Type) [FloatOps F] where
  s0 : Vec F S1024x512 .f32
  s1 : Vec F S1024x512 .f32
  s2 : Vec F S1024x512 .f32
  s3 : Vec F S1024x512 .f32

/-- The twenty input buffers of a bundle, each whole at its block. -/
def insOwn (c : Dev nD) (B : Bufs) (X : Ins F) : sProp 𝕄 :=
  iprop(owns (c : Thread nD τ) B.a3 fullShare X.x3
    ∗ owns (c : Thread nD τ) B.a4 fullShare X.x4
    ∗ owns (c : Thread nD τ) B.a5 fullShare X.x5
    ∗ owns (c : Thread nD τ) B.a6 fullShare X.x6
    ∗ owns (c : Thread nD τ) B.a7 fullShare X.x7
    ∗ owns (c : Thread nD τ) B.a8 fullShare X.x8
    ∗ owns (c : Thread nD τ) B.a9 fullShare X.x9
    ∗ owns (c : Thread nD τ) B.a10 fullShare X.x10
    ∗ owns (c : Thread nD τ) B.a11 fullShare X.x11
    ∗ owns (c : Thread nD τ) B.a12 fullShare X.x12
    ∗ owns (c : Thread nD τ) B.a13 fullShare X.x13
    ∗ owns (c : Thread nD τ) B.a14 fullShare X.x14
    ∗ owns (c : Thread nD τ) B.a15 fullShare X.x15
    ∗ owns (c : Thread nD τ) B.a16 fullShare X.x16
    ∗ owns (c : Thread nD τ) B.a17 fullShare X.x17
    ∗ owns (c : Thread nD τ) B.a18 fullShare X.x18
    ∗ owns (c : Thread nD τ) B.a19 fullShare X.x19
    ∗ owns (c : Thread nD τ) B.a20 fullShare X.x20
    ∗ owns (c : Thread nD τ) B.a21 fullShare X.x21
    ∗ owns (c : Thread nD τ) B.a22 fullShare X.x22)

/-! ## The two branch conditions, in closed form over the grid -/

/-- "This is the first chunk" (the accumulators are reset), as the body computes it from the grid coordinates. -/
abbrev condR (i : grid0.Coords) : Prop :=
  (Scalar.cmpi .ne (Scalar.extui (Scalar.cmpi .eq (BitVec.ofNat 32 (i 2).val) 0#32)) 0#32) = 1#1
/-- It holds at the points ≡ 0 (mod 16). -/
theorem hcondR : ∀ t : Fin cfg0.N, condR (grid0.coords t) ↔ t.val % 16 = 0 :=
  (by decide +kernel : ∀ t : Fin grid0.N, condR (grid0.coords t) ↔ t.val % 16 = 0)

/-- "This is the last chunk" (the gates are formed and the outputs stored). -/
abbrev condF (i : grid0.Coords) : Prop := k0_cond2 i = 1#1
/-- It holds at the points ≡ 15 (mod 16). -/
theorem hcondF : ∀ t : Fin cfg0.N, condF (grid0.coords t) ↔ t.val % 16 = 15 :=
  (by decide +kernel : ∀ t : Fin grid0.N, condF (grid0.coords t) ↔ t.val % 16 = 15)

/-! ## Where the output windows are idle -/

/-- Away from the last chunk both output windows are idle and are not written back. -/
theorem idle20 : ∀ t : Fin cfg0.N, ¬condF (grid0.coords t) → cfg0.idle 20 (grid0.coords t) = true := by decide +kernel
theorem idle21 : ∀ t : Fin cfg0.N, ¬condF (grid0.coords t) → cfg0.idle 21 (grid0.coords t) = true := by decide +kernel
theorem noFlush20 : ∀ t : Fin cfg0.N, ¬condF (grid0.coords t) → (cfg0.win 20).flush t = false := by decide +kernel
theorem noFlush21 : ∀ t : Fin cfg0.N, ¬condF (grid0.coords t) → (cfg0.win 21).flush t = false := by decide +kernel
/-- At the last chunk both are live. -/
theorem live20 : ∀ t : Fin cfg0.N, condF (grid0.coords t) → cfg0.idle 20 (grid0.coords t) = false := by decide +kernel
theorem live21 : ∀ t : Fin cfg0.N, condF (grid0.coords t) → cfg0.idle 21 (grid0.coords t) = false := by decide +kernel

end Cert.Kernel.Fr

end
-- ==== Proof.K.RunA.lean ====
/-
  The body at the first chunk (k = 0): the accumulators are first stored zero, whatever they held; then each is
  loaded, gains this chunk's two products, and is stored back whole. The inputs and both output buffers are left
  as found.
-/
import proofs.«122265_j12180527251605_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where the reset condition holds and the finalize condition does not: from the inputs at their
    blocks, the outputs' buffers at `xo0`, `xo1` and the accumulators at anything, the body runs to the inputs and
    outputs unchanged and each accumulator with its pieces written (`L0 … L3`, last first: found by the run). -/
noncomputable def runA (c : Dev nD) (i : grid0.Coords) (B : Bufs) (hR : condR i) (hF : ¬condF i) (X : Ins F) :
    Σ' (L0 L1 L2 : List (View.Piece (Elt F) S1024x512 .f32)), { L3 : List (View.Piece (Elt F) S1024x512 .f32) //
      ∀ (xo0 xo1 : Vec F S1024x512 .f32) (E : Set ℕ) (K : PUnit → sProp 𝕄),
        iprop(insOwn c B X ∗ owns (c : Thread nD τ) B.a23 fullShare xo0 ∗ owns (c : Thread nD τ) B.a24 fullShare xo1
            ∗ (∃ d, owns (c : Thread nD τ) B.a25 fullShare d) ∗ (∃ d, owns (c : Thread nD τ) B.a26 fullShare d)
            ∗ (∃ d, owns (c : Thread nD τ) B.a27 fullShare d) ∗ (∃ d, owns (c : Thread nD τ) B.a28 fullShare d)
            ∗ (iprop(insOwn c B X ∗ owns (c : Thread nD τ) B.a23 fullShare xo0 ∗ owns (c : Thread nD τ) B.a24 fullShare xo1
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, fun xo0 xo1 E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%f23, %hf23, H23⟩, ⟨%f24, %hf24, H24⟩, ⟨%d25, %f25, -, H25⟩, ⟨%d26, %f26, -, H26⟩, ⟨%d27, %f27, -, H27⟩, ⟨%d28, %f28, -, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h23.eq_unread hf23
    obtain rfl := B.h24.eq_unread hf24
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]
    · iexists _; isplitr; · ipureintro; exact B.h23.read_unread _
      iexact H23
    isplitl [H24]
    · iexists _; isplitr; · ipureintro; exact B.h24.read_unread _
      iexact H24
    isplitl [H25]; · iexists _; iexact H25
    isplitl [H26]; · iexists _; iexact H26
    isplitl [H27]; · iexists _; iexact H27
    iexists _; iexact H28

end Cert.Kernel.Fr

end
-- ==== Proof.K.RunB.lean ====
/-
  The body at a middle chunk (0 < k < 15): neither branch is taken. Each accumulator is loaded, gains this chunk's
  two products, and is stored back whole; the inputs and both output buffers are left as found.
-/
import proofs.«122265_j12180527251605_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where neither condition holds: from the inputs at their blocks, the outputs' buffers at `xo0`, `xo1`
    and the accumulators at `S`, the body runs to the inputs and outputs unchanged and each accumulator with its
    pieces written (`L0 … L3`: found by the run). -/
noncomputable def runB (c : Dev nD) (i : grid0.Coords) (B : Bufs) (hR : ¬condR i) (hF : ¬condF i) (X : Ins F) (S : Scr F) :
    Σ' (L0 L1 L2 : List (View.Piece (Elt F) S1024x512 .f32)), { L3 : List (View.Piece (Elt F) S1024x512 .f32) //
      ∀ (xo0 xo1 : Vec F S1024x512 .f32) (E : Set ℕ) (K : PUnit → sProp 𝕄),
        iprop(insOwn c B X ∗ owns (c : Thread nD τ) B.a23 fullShare xo0 ∗ owns (c : Thread nD τ) B.a24 fullShare xo1
            ∗ owns (c : Thread nD τ) B.a25 fullShare S.s0 ∗ owns (c : Thread nD τ) B.a26 fullShare S.s1
            ∗ owns (c : Thread nD τ) B.a27 fullShare S.s2 ∗ owns (c : Thread nD τ) B.a28 fullShare S.s3
            ∗ (iprop(insOwn c B X ∗ owns (c : Thread nD τ) B.a23 fullShare xo0 ∗ owns (c : Thread nD τ) B.a24 fullShare xo1
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, fun xo0 xo1 E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h23.eq_unread hf23
    obtain rfl := B.h24.eq_unread hf24
    obtain rfl := B.h25.eq_unread hf25
    obtain rfl := B.h26.eq_unread hf26
    obtain rfl := B.h27.eq_unread hf27
    obtain rfl := B.h28.eq_unread hf28
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]
    · iexists _; isplitr; · ipureintro; exact B.h23.read_unread _
      iexact H23
    isplitl [H24]
    · iexists _; isplitr; · ipureintro; exact B.h24.read_unread _
      iexact H24
    isplitl [H25]; · iexists _; iexact H25
    isplitl [H26]; · iexists _; iexact H26
    isplitl [H27]; · iexists _; iexact H27
    iexists _; iexact H28

end Cert.Kernel.Fr

end
-- ==== Proof.K.RunC.lean ====
/-
  The body at the last chunk (k = 15): each accumulator is loaded, gains this chunk's two products, and is stored
  back whole; then the four gate pre-activations are read back, the two bias blocks of each added, the gates
  formed, and the new cell state and its hyperbolic tangent stored whole into the two output buffers. The inputs
  are left as found.
-/
import proofs.«122265_j12180527251605_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where the finalize condition holds and the reset condition does not: from the inputs at their
    blocks, the outputs' buffers at anything and the accumulators at `S`, the body runs to the inputs unchanged, each
    output buffer with its pieces written (`O0`, `O1`) and each accumulator with its pieces written (`L0 … L3`). -/
noncomputable def runC (c : Dev nD) (i : grid0.Coords) (B : Bufs) (hR : ¬condR i) (hF : condF i) (X : Ins F) (S : Scr F) :
    Σ' (O0 O1 L0 L1 L2 : List (View.Piece (Elt F) S1024x512 .f32)), { L3 : List (View.Piece (Elt F) S1024x512 .f32) //
      ∀ (E : Set ℕ) (K : PUnit → sProp 𝕄),
        iprop(insOwn c B X ∗ (∃ d, owns (c : Thread nD τ) B.a23 fullShare d) ∗ (∃ d, owns (c : Thread nD τ) B.a24 fullShare d)
            ∗ owns (c : Thread nD τ) B.a25 fullShare S.s0 ∗ owns (c : Thread nD τ) B.a26 fullShare S.s1
            ∗ owns (c : Thread nD τ) B.a27 fullShare S.s2 ∗ owns (c : Thread nD τ) B.a28 fullShare S.s3
            ∗ (iprop(insOwn c B X
                ∗ (∃ f, B.a23.view.loc (c : Thread nD τ) ↦[B.a23.view.set]{fullShare} B.a23.view.writes (Elt F) f O0)
                ∗ (∃ f, B.a24.view.loc (c : Thread nD τ) ↦[B.a24.view.set]{fullShare} B.a24.view.writes (Elt F) f O1)
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, ?_, ?_, fun E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%d23, %f23, -, H23⟩, ⟨%d24, %f24, -, H24⟩, ⟨%f25, %hf25, H25⟩, ⟨%f26, %hf26, H26⟩, ⟨%f27, %hf27, H27⟩, ⟨%f28, %hf28, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h25.eq_unread hf25
    obtain rfl := B.h26.eq_unread hf26
    obtain rfl := B.h27.eq_unread hf27
    obtain rfl := B.h28.eq_unread hf28
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.Kernel.Fr

end
-- ==== Proof.K.Data.lean ====
/-
  The proof data of `Kernel`'s pipeline.

  Each input window's staging buffer holds, when the body runs at a point, that point's block of its array; the
  four weight windows of one weight matrix (and the four bias windows of one bias vector) read ONE array at four
  different column blocks, so each holds a quarter of that array's read permission. What the two outputs' buffers
  and the four accumulators hold after each point is defined by recursion on the point: the case the point's
  chunk number selects (first / middle / last), run on the point's blocks and on what the point before left in
  the accumulators. Before the first point the accumulators hold anything; after point n they hold that point's
  contents, which is the invariant carried from point to point.
-/
import proofs.«122265_j12180527251605_1_alg».proof.Proof.K.RunA
import proofs.«122265_j12180527251605_1_alg».proof.Proof.K.RunB
import proofs.«122265_j12180527251605_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The arrays as the region finds them: their launch contents (no host operation precedes the call). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The twenty input blocks at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-! ## The pieces each case leaves cover the buffers -/

theorem coverA0 (c : Dev nD) (i : grid0.Coords) (B : Bufs) (hR : condR i) (hF : ¬condF i) (X : Ins F) (y : S1024x512.Idx) :
    ∃ pc ∈ (runA (F := F) c i B hR hF X).1, y ∈ pc.1.set :=
  View.cover_of_tiledL _ S1024x512.size (by sl_kernel_rfl) y
theorem coverA1 (c : Dev nD) (i : grid0.Coords) (B : Bufs) (hR : condR i) (hF : ¬condF i) (X : Ins F) (y : S1024x512.Idx) :
    ∃ pc ∈ (runA (F := F) c i B hR hF X).2.1, y ∈ pc.1.set :=
  View.cover_of_tiledL _ S1024x512.size (by sl_kernel_rfl) y
theorem coverA2 (c : Dev nD) (i : grid0.Coords) (B : Bufs) (hR : condR i) (hF : ¬condF i) (X : Ins F) (y : S1024x512.Idx) :
    ∃ pc ∈ (runA (F := F) c i B hR hF X).2.2.1, y ∈ pc.1.set :=
  View.cover_of_tiledL _ S1024x512.size (by sl_kernel_rfl) y
theorem coverA3 (c : Dev nD) (i : grid0.Coords) (B : Bufs) (hR : condR i) (hF : ¬condF i) (X : Ins F) (y : S1024x512.Idx) :
    ∃ pc ∈ (runA (F := F) c i B hR hF X).2.2.2.1, y ∈ pc.1.set :=
  View.cover_of_tiledL _ S1024x512.size (by sl_kernel_rfl) y
theorem coverB0 (c : Dev nD) (i : grid0.Coords) (B : Bufs) (hR : ¬condR i) (hF : ¬condF i) (X : Ins F) (S : Scr F) (y : S1024x512.Idx) :
    ∃ pc ∈ (runB (F := F) c i B hR hF X S).1, y ∈ pc.1.set :=
  View.cover_of_tiledL _ S1024x512.size (by sl_kernel_rfl) y
theorem coverB1 (c : Dev nD) (i : grid0.Coords) (B : Bufs) (hR : ¬condR i) (hF : ¬condF i) (X : Ins F) (S : Scr F) (y : S1024x512.Idx) :
    ∃ pc ∈ (runB (F := F) c i B hR hF X S).2.1, y ∈ pc.1.set :=
  View.cover_of_tiledL _ S1024x512.size (by sl_kernel_rfl) y
theorem coverB2 (c : Dev nD) (i : grid0.Coords) (B : Bufs) (hR : ¬condR i) (hF : ¬condF i) (X : Ins F) (S : Scr F) (y : S1024x512.Idx) :
    ∃ pc ∈ (runB (F := F) c i B hR hF X S).2.2.1, y ∈ pc.1.set :=
  View.cover_of_tiledL _ S1024x512.size (by sl_kernel_rfl) y
theorem coverB3 (c : Dev nD) (i : grid0.Coords) (B : Bufs) (hR : ¬condR i) (hF : ¬condF i) (X : Ins F) (S : Scr F) (y : S1024x512.Idx) :
    ∃ pc ∈ (runB (F := F) c i B hR hF X S).2.2.2.1, y ∈ pc.1.set :=
  View.cover_of_tiledL _ S1024x512.size (by sl_kernel_rfl) y
theorem coverC0 (c : Dev nD) (i : grid0.Coords) (B : Bufs) (hR : ¬condR i) (hF : condF i) (X : Ins F) (S : Scr F) (y : S1024x512.Idx) :
    ∃ pc ∈ (runC (F := F) c i B hR hF X S).1, y ∈ pc.1.set :=
  View.cover_of_tiledL _ S1024x512.size (by sl_kernel_rfl) y
theorem coverC1 (c : Dev nD) (i : grid0.Coords) (B : Bufs) (hR : ¬condR i) (hF : condF i) (X : Ins F) (S : Scr F) (y : S1024x512.Idx) :
    ∃ pc ∈ (runC (F := F) c i B hR hF X S).2.1, y ∈ pc.1.set :=
  View.cover_of_tiledL _ S1024x512.size (by sl_kernel_rfl) y
theorem coverC2 (c : Dev nD) (i : grid0.Coords) (B : Bufs) (hR : ¬condR i) (hF : condF i) (X : Ins F) (S : Scr F) (y : S1024x512.Idx) :
    ∃ pc ∈ (runC (F := F) c i B hR hF X S).2.2.1, y ∈ pc.1.set :=
  View.cover_of_tiledL _ S1024x512.size (by sl_kernel_rfl) y
theorem coverC3 (c : Dev nD) (i : grid0.Coords) (B : Bufs) (hR : ¬condR i) (hF : condF i) (X : Ins F) (S : Scr F) (y : S1024x512.Idx) :
    ∃ pc ∈ (runC (F := F) c i B hR hF X S).2.2.2.1, y ∈ pc.1.set :=
  View.cover_of_tiledL _ S1024x512.size (by sl_kernel_rfl) y
theorem coverC4 (c : Dev nD) (i : grid0.Coords) (B : Bufs) (hR : ¬condR i) (hF : condF i) (X : Ins F) (S : Scr F) (y : S1024x512.Idx) :
    ∃ pc ∈ (runC (F := F) c i B hR hF X S).2.2.2.2.1, y ∈ pc.1.set :=
  View.cover_of_tiledL _ S1024x512.size (by sl_kernel_rfl) y
theorem coverC5 (c : Dev nD) (i : grid0.Coords) (B : Bufs) (hR : ¬condR i) (hF : condF i) (X : Ins F) (S : Scr F) (y : S1024x512.Idx) :
    ∃ pc ∈ (runC (F := F) c i B hR hF X S).2.2.2.2.2.1, y ∈ pc.1.set :=
  View.cover_of_tiledL _ S1024x512.size (by sl_kernel_rfl) y

/-! ## What the outputs' buffers and the accumulators hold after each point -/

/-- The two outputs' buffers and the four accumulators. -/
structure Outs (F : FTy → Type) [FloatOps F] where
  o0 : Vec F S1024x512 .f32
  o1 : Vec F S1024x512 .f32
  s : Scr F

theorem not_condF_of_first (t : Fin cfg0.N) (h0 : t.val % 16 = 0) : ¬condF (grid0.coords t) :=
  fun h => by have := (hcondF t).mp h; omega
theorem not_condR_of_pos (t : Fin cfg0.N) (h0 : ¬t.val % 16 = 0) : ¬condR (grid0.coords t) :=
  fun h => h0 ((hcondR t).mp h)
theorem not_condF_of_mid (t : Fin cfg0.N) (h15 : ¬t.val % 16 = 15) : ¬condF (grid0.coords t) :=
  fun h => h15 ((hcondF t).mp h)

/-- One point: the case its chunk number selects, on the point's blocks and on `prev`, what the point before left in
    the accumulators (unused at a first chunk, which resets them). At a point that stores nothing into the outputs
    their components are placeholders nothing consults: the windows are idle there and not written back. -/
def stepOuts (c : Dev nD) (t : Fin cfg0.N) (prev : Scr F) : Outs F :=
  if h0 : t.val % 16 = 0 then
    ⟨View.canon [], View.canon [],
     ⟨View.canon (runA c (grid0.coords t) (bufsAt t) ((hcondR t).mpr h0) (not_condF_of_first t h0) (insAt m c t)).1,
      View.canon (runA c (grid0.coords t) (bufsAt t) ((hcondR t).mpr h0) (not_condF_of_first t h0) (insAt m c t)).2.1,
      View.canon (runA c (grid0.coords t) (bufsAt t) ((hcondR t).mpr h0) (not_condF_of_first t h0) (insAt m c t)).2.2.1,
      View.canon (runA c (grid0.coords t) (bufsAt t) ((hcondR t).mpr h0) (not_condF_of_first t h0) (insAt m c t)).2.2.2.1⟩⟩
  else if h15 : t.val % 16 = 15 then
    ⟨View.canon (runC c (grid0.coords t) (bufsAt t) (not_condR_of_pos t h0) ((hcondF t).mpr h15) (insAt m c t) prev).1,
     View.canon (runC c (grid0.coords t) (bufsAt t) (not_condR_of_pos t h0) ((hcondF t).mpr h15) (insAt m c t) prev).2.1,
     ⟨View.canon (runC c (grid0.coords t) (bufsAt t) (not_condR_of_pos t h0) ((hcondF t).mpr h15) (insAt m c t) prev).2.2.1,
      View.canon (runC c (grid0.coords t) (bufsAt t) (not_condR_of_pos t h0) ((hcondF t).mpr h15) (insAt m c t) prev).2.2.2.1,
      View.canon (runC c (grid0.coords t) (bufsAt t) (not_condR_of_pos t h0) ((hcondF t).mpr h15) (insAt m c t) prev).2.2.2.2.1,
      View.canon (runC c (grid0.coords t) (bufsAt t) (not_condR_of_pos t h0) ((hcondF t).mpr h15) (insAt m c t) prev).2.2.2.2.2.1⟩⟩
  else
    ⟨View.canon [], View.canon [],
     ⟨View.canon (runB c (grid0.coords t) (bufsAt t) (not_condR_of_pos t h0) (not_condF_of_mid t h15) (insAt m c t) prev).1,
      View.canon (runB c (grid0.coords t) (bufsAt t) (not_condR_of_pos t h0) (not_condF_of_mid t h15) (insAt m c t) prev).2.1,
      View.canon (runB c (grid0.coords t) (bufsAt t) (not_condR_of_pos t h0) (not_condF_of_mid t h15) (insAt m c t) prev).2.2.1,
      View.canon (runB c (grid0.coords t) (bufsAt t) (not_condR_of_pos t h0) (not_condF_of_mid t h15) (insAt m c t) prev).2.2.2.1⟩⟩

/-- Accumulator contents nothing names: what "anything" is read as before the first point. -/
def scr0 : Scr F := ⟨View.canon [], View.canon [], View.canon [], View.canon []⟩

/-- THE ACCUMULATION: what the outputs' buffers and the accumulators hold after the body at position `n`. -/
def outsAt (c : Dev nD) : (n : ℕ) → n < cfg0.N → Outs F
  | 0, hn => stepOuts m c ⟨0, hn⟩ scr0
  | n + 1, hn => stepOuts m c ⟨n + 1, hn⟩ (outsAt c n (Nat.lt_of_succ_lt hn)).s

/-- After a point that is not the first: one step over what the point before left. -/
theorem outsAt_pos (c : Dev nD) (t : Fin cfg0.N) (ht : t.val ≠ 0) :
    outsAt m c t.val t.isLt = stepOuts m c t (outsAt m c (t.val - 1) (Nat.lt_of_le_of_lt (Nat.sub_le _ _) t.isLt)).s := by
  obtain ⟨n, hn⟩ := t
  cases n with
  | zero => exact absurd rfl ht
  | succ n => rfl

/-- At the very first point. -/
theorem outsAt_zero (c : Dev nD) (t : Fin cfg0.N) (ht : t.val = 0) :
    outsAt m c t.val t.isLt = stepOuts m c t scr0 := by
  obtain ⟨n, hn⟩ := t
  cases n with
  | zero => rfl
  | succ n => exact absurd ht (Nat.succ_ne_zero n)

/-! ## The invariant -/

/-- The four accumulators' own buffers. -/
abbrev scM0 : Memref sig .tc .vmem S1024x512 .f32 := Memref.whole cc0_scratch0
abbrev scM1 : Memref sig .tc .vmem S1024x512 .f32 := Memref.whole cc0_scratch1
abbrev scM2 : Memref sig .tc .vmem S1024x512 .f32 := Memref.whole cc0_scratch2
abbrev scM3 : Memref sig .tc .vmem S1024x512 .f32 := Memref.whole cc0_scratch3

/-- Before the first point the accumulators' buffers at anything; before point `n + 1` at what point `n` left. -/
def PhiS (c : Dev nD) : (n : ℕ) → n ≤ cfg0.N → sProp 𝕄
  | 0, _ => Pipeline.scopedRest spec0 c
  | n + 1, hn => iprop(owns (c : Thread nD τ) scM0 fullShare (outsAt m c n hn).s.s0
      ∗ owns (c : Thread nD τ) scM1 fullShare (outsAt m c n hn).s.s1
      ∗ owns (c : Thread nD τ) scM2 fullShare (outsAt m c n hn).s.s2
      ∗ owns (c : Thread nD τ) scM3 fullShare (outsAt m c n hn).s.s3)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare (outsAt m c n hn).s.s0
      ∗ owns (c : Thread nD τ) scM1 fullShare (outsAt m c n hn).s.s1
      ∗ owns (c : Thread nD τ) scM2 fullShare (outsAt m c n hn).s.s2
      ∗ owns (c : Thread nD τ) scM3 fullShare (outsAt m c n hn).s.s3) := rfl

theorem PhiS_pos (c : Dev nD) (n : ℕ) (h : n ≤ cfg0.N) (hz : n ≠ 0) :
    PhiS m c n h = iprop(owns (c : Thread nD τ) scM0 fullShare (outsAt m c (n - 1) (by omega)).s.s0
      ∗ owns (c : Thread nD τ) scM1 fullShare (outsAt m c (n - 1) (by omega)).s.s1
      ∗ owns (c : Thread nD τ) scM2 fullShare (outsAt m c (n - 1) (by omega)).s.s2
      ∗ owns (c : Thread nD τ) scM3 fullShare (outsAt m c (n - 1) (by omega)).s.s3) := by
  cases n with
  | zero => exact absurd rfl hz
  | succ n => rfl

/-- The accumulators' buffers, each whole at some contents, as memory references owned at some contents. -/
theorem scopedRest_eq (c : Dev nD) :
    (Pipeline.scopedRest spec0 c : sProp 𝕄)
      = iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) := by
  rw [scopedRest0_eq]; simp only [scM0, scM1, scM2, scM3, owns_whole]; try rfl

/-! ## The proof data -/

/-- The arrays at their launch contents; after the body each input's buffer at its block and the outputs' at
    `outsAt`; the invariant `PhiS`; nothing owed; each of four windows on one array a quarter of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt m c t.val t.isLt).o0
    | ⟨21, _⟩ => (outsAt m c t.val t.isLt).o1
    | ⟨_ + 22, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right
    | ⟨6, _⟩ => fullShare.left.left
    | ⟨7, _⟩ => fullShare.left.right
    | ⟨8, _⟩ => fullShare.right.left
    | ⟨9, _⟩ => fullShare.right.right
    | ⟨10, _⟩ => fullShare.left.left
    | ⟨11, _⟩ => fullShare.left.right
    | ⟨12, _⟩ => fullShare.right.left
    | ⟨13, _⟩ => fullShare.right.right
    | ⟨14, _⟩ => fullShare.left.left
    | ⟨15, _⟩ => fullShare.left.right
    | ⟨16, _⟩ => fullShare.right.left
    | ⟨17, _⟩ => fullShare.right.right
    | ⟨18, _⟩ => fullShare
    | ⟨19, _⟩ => fullShare
    | ⟨20, _⟩ => fullShare
    | ⟨21, _⟩ => fullShare
    | ⟨_ + 22, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = (outsAt m c t.val t.isLt).o0 := by dsimp only [dats]
theorem after_21 (c : Dev nD) (t : Fin cfg0.N) : (dats m 0 c).after 21 t = (outsAt m c t.val t.isLt).o1 := by dsimp only [dats]

/-! ## What each input's buffer holds when the body runs: its block, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl)
    (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl)
    (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl)
    (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl)
    (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl)
    (fun t => by rw [after_19]; unfold Dat.blockOf iblk; rw [A_eq]; try rfl) t d).trans
    (by unfold Dat.fetched Dat.blockOf iblk; rw [A_eq]; try rfl)

end Cert.Kernel.Fr

end
-- ==== Proof.K.Body.lean ====
/-
  The body obligation of `Kernel`'s pipeline: at every point, from the invariant and each window's current buffer
  at what it then holds, the body runs to the invariant at the next point and each buffer at what the body leaves.

  The inputs' buffers hold their blocks and are handed back as found. By the point's chunk number: at a first
  chunk the accumulators are taken at anything (before the very first point) or at what the point before left
  (which is then forgotten: they are reset); at the other chunks they are taken at what the point before left. At a
  last chunk the outputs' buffers are taken at anything and left with the stored cell state and hidden state; at
  the other chunks they are idle: handed back exactly as found.
-/
import proofs.«122265_j12180527251605_1_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The obligation's two sides, the windows one by one -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bufsAt t).a3 fullShare ((dats m 0 c).before 0 t d))
    ∗ (∃ d, owns (c : Thread nD τ) (bufsAt t).a4 fullShare ((dats m 0 c).before 1 t d))
    ∗ (∃ d, owns (c : Thread nD τ) (bufsAt t).a5 fullShare ((dats m 0 c).before 2 t d))
    ∗ (∃ d, owns (c : Thread nD τ) (bufsAt t).a6 fullShare ((dats m 0 c).before 3 t d))
    ∗ (∃ d, owns (c : Thread nD τ) (bufsAt t).a7 fullShare ((dats m 0 c).before 4 t d))
    ∗ (∃ d, owns (c : Thread nD τ) (bufsAt t).a8 fullShare ((dats m 0 c).before 5 t d))
    ∗ (∃ d, owns (c : Thread nD τ) (bufsAt t).a9 fullShare ((dats m 0 c).before 6 t d))
    ∗ (∃ d, owns (c : Thread nD τ) (bufsAt t).a10 fullShare ((dats m 0 c).before 7 t d))
    ∗ (∃ d, owns (c : Thread nD τ) (bufsAt t).a11 fullShare ((dats m 0 c).before 8 t d))
    ∗ (∃ d, owns (c : Thread nD τ) (bufsAt t).a12 fullShare ((dats m 0 c).before 9 t d))
    ∗ (∃ d, owns (c : Thread nD τ) (bufsAt t).a13 fullShare ((dats m 0 c).before 10 t d))
    ∗ (∃ d, owns (c : Thread nD τ) (bufsAt t).a14 fullShare ((dats m 0 c).before 11 t d))
    ∗ (∃ d, owns (c : Thread nD τ) (bufsAt t).a15 fullShare ((dats m 0 c).before 12 t d))
    ∗ (∃ d, owns (c : Thread nD τ) (bufsAt t).a16 fullShare ((dats m 0 c).before 13 t d))
    ∗ (∃ d, owns (c : Thread nD τ) (bufsAt t).a17 fullShare ((dats m 0 c).before 14 t d))
    ∗ (∃ d, owns (c : Thread nD τ) (bufsAt t).a18 fullShare ((dats m 0 c).before 15 t d))
    ∗ (∃ d, owns (c : Thread nD τ) (bufsAt t).a19 fullShare ((dats m 0 c).before 16 t d))
    ∗ (∃ d, owns (c : Thread nD τ) (bufsAt t).a20 fullShare ((dats m 0 c).before 17 t d))
    ∗ (∃ d, owns (c : Thread nD τ) (bufsAt t).a21 fullShare ((dats m 0 c).before 18 t d))
    ∗ (∃ d, owns (c : Thread nD τ) (bufsAt t).a22 fullShare ((dats m 0 c).before 19 t d))
    ∗ (∃ d, owns (c : Thread nD τ) (bufsAt t).a23 fullShare ((dats m 0 c).before 20 t d))
    ∗ (∃ d, owns (c : Thread nD τ) (bufsAt t).a24 fullShare ((dats m 0 c).before 21 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

/-- No input window is ever idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
theorem live_12 : ∀ t : Fin cfg0.N, cfg0.idle 12 (grid0.coords t) = false := by decide +kernel
theorem live_13 : ∀ t : Fin cfg0.N, cfg0.idle 13 (grid0.coords t) = false := by decide +kernel
theorem live_14 : ∀ t : Fin cfg0.N, cfg0.idle 14 (grid0.coords t) = false := by decide +kernel
theorem live_15 : ∀ t : Fin cfg0.N, cfg0.idle 15 (grid0.coords t) = false := by decide +kernel
theorem live_16 : ∀ t : Fin cfg0.N, cfg0.idle 16 (grid0.coords t) = false := by decide +kernel
theorem live_17 : ∀ t : Fin cfg0.N, cfg0.idle 17 (grid0.coords t) = false := by decide +kernel
theorem live_18 : ∀ t : Fin cfg0.N, cfg0.idle 18 (grid0.coords t) = false := by decide +kernel
theorem live_19 : ∀ t : Fin cfg0.N, cfg0.idle 19 (grid0.coords t) = false := by decide +kernel

/-- An input's buffer is handed back at its block. -/
theorem leaves_0 (c : Dev nD) (t : Fin cfg0.N) :
    (dats m 0 c).leavesExact 0 t = owns (c : Thread nD τ) (bufsAt t).a3 fullShare (iblk m c 0 t) := by
  unfold Dat.leavesExact; rw [live_0 t, after_0]
theorem leaves_1 (c : Dev nD) (t : Fin cfg0.N) :
    (dats m 0 c).leavesExact 1 t = owns (c : Thread nD τ) (bufsAt t).a4 fullShare (iblk m c 1 t) := by
  unfold Dat.leavesExact; rw [live_1 t, after_1]
theorem leaves_2 (c : Dev nD) (t : Fin cfg0.N) :
    (dats m 0 c).leavesExact 2 t = owns (c : Thread nD τ) (bufsAt t).a5 fullShare (iblk m c 2 t) := by
  unfold Dat.leavesExact; rw [live_2 t, after_2]
theorem leaves_3 (c : Dev nD) (t : Fin cfg0.N) :
    (dats m 0 c).leavesExact 3 t = owns (c : Thread nD τ) (bufsAt t).a6 fullShare (iblk m c 3 t) := by
  unfold Dat.leavesExact; rw [live_3 t, after_3]
theorem leaves_4 (c : Dev nD) (t : Fin cfg0.N) :
    (dats m 0 c).leavesExact 4 t = owns (c : Thread nD τ) (bufsAt t).a7 fullShare (iblk m c 4 t) := by
  unfold Dat.leavesExact; rw [live_4 t, after_4]
theorem leaves_5 (c : Dev nD) (t : Fin cfg0.N) :
    (dats m 0 c).leavesExact 5 t = owns (c : Thread nD τ) (bufsAt t).a8 fullShare (iblk m c 5 t) := by
  unfold Dat.leavesExact; rw [live_5 t, after_5]
theorem leaves_6 (c : Dev nD) (t : Fin cfg0.N) :
    (dats m 0 c).leavesExact 6 t = owns (c : Thread nD τ) (bufsAt t).a9 fullShare (iblk m c 6 t) := by
  unfold Dat.leavesExact; rw [live_6 t, after_6]
theorem leaves_7 (c : Dev nD) (t : Fin cfg0.N) :
    (dats m 0 c).leavesExact 7 t = owns (c : Thread nD τ) (bufsAt t).a10 fullShare (iblk m c 7 t) := by
  unfold Dat.leavesExact; rw [live_7 t, after_7]
theorem leaves_8 (c : Dev nD) (t : Fin cfg0.N) :
    (dats m 0 c).leavesExact 8 t = owns (c : Thread nD τ) (bufsAt t).a11 fullShare (iblk m c 8 t) := by
  unfold Dat.leavesExact; rw [live_8 t, after_8]
theorem leaves_9 (c : Dev nD) (t : Fin cfg0.N) :
    (dats m 0 c).leavesExact 9 t = owns (c : Thread nD τ) (bufsAt t).a12 fullShare (iblk m c 9 t) := by
  unfold Dat.leavesExact; rw [live_9 t, after_9]
theorem leaves_10 (c : Dev nD) (t : Fin cfg0.N) :
    (dats m 0 c).leavesExact 10 t = owns (c : Thread nD τ) (bufsAt t).a13 fullShare (iblk m c 10 t) := by
  unfold Dat.leavesExact; rw [live_10 t, after_10]
theorem leaves_11 (c : Dev nD) (t : Fin cfg0.N) :
    (dats m 0 c).leavesExact 11 t = owns (c : Thread nD τ) (bufsAt t).a14 fullShare (iblk m c 11 t) := by
  unfold Dat.leavesExact; rw [live_11 t, after_11]
theorem leaves_12 (c : Dev nD) (t : Fin cfg0.N) :
    (dats m 0 c).leavesExact 12 t = owns (c : Thread nD τ) (bufsAt t).a15 fullShare (iblk m c 12 t) := by
  unfold Dat.leavesExact; rw [live_12 t, after_12]
theorem leaves_13 (c : Dev nD) (t : Fin cfg0.N) :
    (dats m 0 c).leavesExact 13 t = owns (c : Thread nD τ) (bufsAt t).a16 fullShare (iblk m c 13 t) := by
  unfold Dat.leavesExact; rw [live_13 t, after_13]
theorem leaves_14 (c : Dev nD) (t : Fin cfg0.N) :
    (dats m 0 c).leavesExact 14 t = owns (c : Thread nD τ) (bufsAt t).a17 fullShare (iblk m c 14 t) := by
  unfold Dat.leavesExact; rw [live_14 t, after_14]
theorem leaves_15 (c : Dev nD) (t : Fin cfg0.N) :
    (dats m 0 c).leavesExact 15 t = owns (c : Thread nD τ) (bufsAt t).a18 fullShare (iblk m c 15 t) := by
  unfold Dat.leavesExact; rw [live_15 t, after_15]
theorem leaves_16 (c : Dev nD) (t : Fin cfg0.N) :
    (dats m 0 c).leavesExact 16 t = owns (c : Thread nD τ) (bufsAt t).a19 fullShare (iblk m c 16 t) := by
  unfold Dat.leavesExact; rw [live_16 t, after_16]
theorem leaves_17 (c : Dev nD) (t : Fin cfg0.N) :
    (dats m 0 c).leavesExact 17 t = owns (c : Thread nD τ) (bufsAt t).a20 fullShare (iblk m c 17 t) := by
  unfold Dat.leavesExact; rw [live_17 t, after_17]
theorem leaves_18 (c : Dev nD) (t : Fin cfg0.N) :
    (dats m 0 c).leavesExact 18 t = owns (c : Thread nD τ) (bufsAt t).a21 fullShare (iblk m c 18 t) := by
  unfold Dat.leavesExact; rw [live_18 t, after_18]
theorem leaves_19 (c : Dev nD) (t : Fin cfg0.N) :
    (dats m 0 c).leavesExact 19 t = owns (c : Thread nD τ) (bufsAt t).a22 fullShare (iblk m c 19 t) := by
  unfold Dat.leavesExact; rw [live_19 t, after_19]

/-- At a last chunk the outputs' buffers are handed back at what the point stored. -/
theorem leaves_20 (c : Dev nD) (t : Fin cfg0.N) (hF : condF (grid0.coords t)) :
    (dats m 0 c).leavesExact 20 t = owns (c : Thread nD τ) (bufsAt t).a23 fullShare (outsAt m c t.val t.isLt).o0 := by
  unfold Dat.leavesExact; rw [live20 t hF, after_20]
theorem leaves_21 (c : Dev nD) (t : Fin cfg0.N) (hF : condF (grid0.coords t)) :
    (dats m 0 c).leavesExact 21 t = owns (c : Thread nD τ) (bufsAt t).a24 fullShare (outsAt m c t.val t.isLt).o1 := by
  unfold Dat.leavesExact; rw [live21 t hF, after_21]

/-! ## The inputs' buffers, taken and handed back together -/

theorem ins_intro (c : Dev nD) (t : Fin cfg0.N) :
    iprop((∃ d : (cfg0.win 0).block.Idx → Elt F (cfg0.win 0).elt, owns (c : Thread nD τ) (bufsAt t).a3 fullShare (iblk m c 0 t))
      ∗ (∃ d : (cfg0.win 1).block.Idx → Elt F (cfg0.win 1).elt, owns (c : Thread nD τ) (bufsAt t).a4 fullShare (iblk m c 1 t))
      ∗ (∃ d : (cfg0.win 2).block.Idx → Elt F (cfg0.win 2).elt, owns (c : Thread nD τ) (bufsAt t).a5 fullShare (iblk m c 2 t))
      ∗ (∃ d : (cfg0.win 3).block.Idx → Elt F (cfg0.win 3).elt, owns (c : Thread nD τ) (bufsAt t).a6 fullShare (iblk m c 3 t))
      ∗ (∃ d : (cfg0.win 4).block.Idx → Elt F (cfg0.win 4).elt, owns (c : Thread nD τ) (bufsAt t).a7 fullShare (iblk m c 4 t))
      ∗ (∃ d : (cfg0.win 5).block.Idx → Elt F (cfg0.win 5).elt, owns (c : Thread nD τ) (bufsAt t).a8 fullShare (iblk m c 5 t))
      ∗ (∃ d : (cfg0.win 6).block.Idx → Elt F (cfg0.win 6).elt, owns (c : Thread nD τ) (bufsAt t).a9 fullShare (iblk m c 6 t))
      ∗ (∃ d : (cfg0.win 7).block.Idx → Elt F (cfg0.win 7).elt, owns (c : Thread nD τ) (bufsAt t).a10 fullShare (iblk m c 7 t))
      ∗ (∃ d : (cfg0.win 8).block.Idx → Elt F (cfg0.win 8).elt, owns (c : Thread nD τ) (bufsAt t).a11 fullShare (iblk m c 8 t))
      ∗ (∃ d : (cfg0.win 9).block.Idx → Elt F (cfg0.win 9).elt, owns (c : Thread nD τ) (bufsAt t).a12 fullShare (iblk m c 9 t))
      ∗ (∃ d : (cfg0.win 10).block.Idx → Elt F (cfg0.win 10).elt, owns (c : Thread nD τ) (bufsAt t).a13 fullShare (iblk m c 10 t))
      ∗ (∃ d : (cfg0.win 11).block.Idx → Elt F (cfg0.win 11).elt, owns (c : Thread nD τ) (bufsAt t).a14 fullShare (iblk m c 11 t))
      ∗ (∃ d : (cfg0.win 12).block.Idx → Elt F (cfg0.win 12).elt, owns (c : Thread nD τ) (bufsAt t).a15 fullShare (iblk m c 12 t))
      ∗ (∃ d : (cfg0.win 13).block.Idx → Elt F (cfg0.win 13).elt, owns (c : Thread nD τ) (bufsAt t).a16 fullShare (iblk m c 13 t))
      ∗ (∃ d : (cfg0.win 14).block.Idx → Elt F (cfg0.win 14).elt, owns (c : Thread nD τ) (bufsAt t).a17 fullShare (iblk m c 14 t))
      ∗ (∃ d : (cfg0.win 15).block.Idx → Elt F (cfg0.win 15).elt, owns (c : Thread nD τ) (bufsAt t).a18 fullShare (iblk m c 15 t))
      ∗ (∃ d : (cfg0.win 16).block.Idx → Elt F (cfg0.win 16).elt, owns (c : Thread nD τ) (bufsAt t).a19 fullShare (iblk m c 16 t))
      ∗ (∃ d : (cfg0.win 17).block.Idx → Elt F (cfg0.win 17).elt, owns (c : Thread nD τ) (bufsAt t).a20 fullShare (iblk m c 17 t))
      ∗ (∃ d : (cfg0.win 18).block.Idx → Elt F (cfg0.win 18).elt, owns (c : Thread nD τ) (bufsAt t).a21 fullShare (iblk m c 18 t))
      ∗ (∃ d : (cfg0.win 19).block.Idx → Elt F (cfg0.win 19).elt, owns (c : Thread nD τ) (bufsAt t).a22 fullShare (iblk m c 19 t)))
      ⊢ (insOwn c (bufsAt t) (insAt m c t) : sProp 𝕄) := by
  unfold insOwn insAt
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem ins_elim (c : Dev nD) (t : Fin cfg0.N) :
    (insOwn c (bufsAt t) (insAt m c t) : sProp 𝕄)
      ⊢ iprop(owns (c : Thread nD τ) (bufsAt t).a3 fullShare (iblk m c 0 t)
      ∗ owns (c : Thread nD τ) (bufsAt t).a4 fullShare (iblk m c 1 t)
      ∗ owns (c : Thread nD τ) (bufsAt t).a5 fullShare (iblk m c 2 t)
      ∗ owns (c : Thread nD τ) (bufsAt t).a6 fullShare (iblk m c 3 t)
      ∗ owns (c : Thread nD τ) (bufsAt t).a7 fullShare (iblk m c 4 t)
      ∗ owns (c : Thread nD τ) (bufsAt t).a8 fullShare (iblk m c 5 t)
      ∗ owns (c : Thread nD τ) (bufsAt t).a9 fullShare (iblk m c 6 t)
      ∗ owns (c : Thread nD τ) (bufsAt t).a10 fullShare (iblk m c 7 t)
      ∗ owns (c : Thread nD τ) (bufsAt t).a11 fullShare (iblk m c 8 t)
      ∗ owns (c : Thread nD τ) (bufsAt t).a12 fullShare (iblk m c 9 t)
      ∗ owns (c : Thread nD τ) (bufsAt t).a13 fullShare (iblk m c 10 t)
      ∗ owns (c : Thread nD τ) (bufsAt t).a14 fullShare (iblk m c 11 t)
      ∗ owns (c : Thread nD τ) (bufsAt t).a15 fullShare (iblk m c 12 t)
      ∗ owns (c : Thread nD τ) (bufsAt t).a16 fullShare (iblk m c 13 t)
      ∗ owns (c : Thread nD τ) (bufsAt t).a17 fullShare (iblk m c 14 t)
      ∗ owns (c : Thread nD τ) (bufsAt t).a18 fullShare (iblk m c 15 t)
      ∗ owns (c : Thread nD τ) (bufsAt t).a19 fullShare (iblk m c 16 t)
      ∗ owns (c : Thread nD τ) (bufsAt t).a20 fullShare (iblk m c 17 t)
      ∗ owns (c : Thread nD τ) (bufsAt t).a21 fullShare (iblk m c 18 t)
      ∗ owns (c : Thread nD τ) (bufsAt t).a22 fullShare (iblk m c 19 t)) := by
  unfold insOwn insAt
  exact Idealize.SL.BI.Entails.refl _

/-! ## One step of the accumulation, case by case -/

theorem stepOuts_first (c : Dev nD) (t : Fin cfg0.N) (prev : Scr F) (h0 : t.val % 16 = 0) :
    (stepOuts m c t prev).s =
     ⟨View.canon (runA c (grid0.coords t) (bufsAt t) ((hcondR t).mpr h0) (not_condF_of_first t h0) (insAt m c t)).1,
      View.canon (runA c (grid0.coords t) (bufsAt t) ((hcondR t).mpr h0) (not_condF_of_first t h0) (insAt m c t)).2.1,
      View.canon (runA c (grid0.coords t) (bufsAt t) ((hcondR t).mpr h0) (not_condF_of_first t h0) (insAt m c t)).2.2.1,
      View.canon (runA c (grid0.coords t) (bufsAt t) ((hcondR t).mpr h0) (not_condF_of_first t h0) (insAt m c t)).2.2.2.1⟩ := by
  unfold stepOuts; rw [dif_pos h0]

theorem stepOuts_mid (c : Dev nD) (t : Fin cfg0.N) (prev : Scr F) (h0 : ¬t.val % 16 = 0) (h15 : ¬t.val % 16 = 15) :
    (stepOuts m c t prev).s =
     ⟨View.canon (runB c (grid0.coords t) (bufsAt t) (not_condR_of_pos t h0) (not_condF_of_mid t h15) (insAt m c t) prev).1,
      View.canon (runB c (grid0.coords t) (bufsAt t) (not_condR_of_pos t h0) (not_condF_of_mid t h15) (insAt m c t) prev).2.1,
      View.canon (runB c (grid0.coords t) (bufsAt t) (not_condR_of_pos t h0) (not_condF_of_mid t h15) (insAt m c t) prev).2.2.1,
      View.canon (runB c (grid0.coords t) (bufsAt t) (not_condR_of_pos t h0) (not_condF_of_mid t h15) (insAt m c t) prev).2.2.2.1⟩ := by
  unfold stepOuts; rw [dif_neg h0, dif_neg h15]

set_option maxHeartbeats 1000000 in
theorem stepOuts_last (c : Dev nD) (t : Fin cfg0.N) (prev : Scr F) (h0 : ¬t.val % 16 = 0) (h15 : t.val % 16 = 15) :
    stepOuts m c t prev =
    ⟨View.canon (runC c (grid0.coords t) (bufsAt t) (not_condR_of_pos t h0) ((hcondF t).mpr h15) (insAt m c t) prev).1,
     View.canon (runC c (grid0.coords t) (bufsAt t) (not_condR_of_pos t h0) ((hcondF t).mpr h15) (insAt m c t) prev).2.1,
     ⟨View.canon (runC c (grid0.coords t) (bufsAt t) (not_condR_of_pos t h0) ((hcondF t).mpr h15) (insAt m c t) prev).2.2.1,
      View.canon (runC c (grid0.coords t) (bufsAt t) (not_condR_of_pos t h0) ((hcondF t).mpr h15) (insAt m c t) prev).2.2.2.1,
      View.canon (runC c (grid0.coords t) (bufsAt t) (not_condR_of_pos t h0) ((hcondF t).mpr h15) (insAt m c t) prev).2.2.2.2.1,
      View.canon (runC c (grid0.coords t) (bufsAt t) (not_condR_of_pos t h0) ((hcondF t).mpr h15) (insAt m c t) prev).2.2.2.2.2.1⟩⟩ := by
  exact (dif_neg h0).trans (dif_pos h15)

/-- A whole buffer with covering pieces written holds the pieces' canonical reading. -/
theorem owns_of_writes (c : Dev nD) (M : Memref sig .tc .vmem S1024x512 .f32) (L : List (View.Piece (Elt F) S1024x512 .f32))
    (hcov : ∀ y : S1024x512.Idx, ∃ pc ∈ L, y ∈ pc.1.set) :
    iprop(∃ f, M.view.loc (c : Thread nD τ) ↦[M.view.set]{fullShare} M.view.writes (Elt F) f L)
      ⊢ (owns (c : Thread nD τ) M fullShare (View.canon L) : sProp 𝕄) := by
  iintro ⟨%f, H⟩
  unfold owns; iexists (M.view.writes (Elt F) f L); isplitr
  · ipureintro; exact View.read_writes_eq_canon _ _ _ hcov
  iexact H

/-! ## The body at any point -/

set_option maxHeartbeats 8000000 in
theorem sound_body (c : Dev nD) (t : Fin cfg0.N) :
    bodyPre m c t ⊢ wp frame (wpE (defs₀ (F := F)) Variants.none c none) Set.univ (kbody (grid0.coords t) (bufsAt t)) (fun _ => bodyPost m c t) := by
  unfold bodyPre bodyPost
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [Phi_castSucc]
  by_cases h0 : t.val % 16 = 0
  · -- a first chunk: the accumulators are reset
    have hR : condR (grid0.coords t) := (hcondR t).mpr h0
    have hF : ¬condF (grid0.coords t) := not_condF_of_first t h0
    rw [Dat.leavesExact_idle (dats m 0 c) 20 t (idle20 t hF) (noFlush20 t hF),
      Dat.leavesExact_idle (dats m 0 c) 21 t (idle21 t hF) (noFlush21 t hF)]
    by_cases hz : t.val = 0
    · rw [PhiS_zero m c _ _ hz, scopedRest_eq, outsAt_zero m c t hz, stepOuts_first m c t _ h0]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runA c (grid0.coords t) (bufsAt t) hR hF (insAt m c t)).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverA0 c _ _ hR hF _)); iexact HS0
        isplitl [HS1]; · iapply (owns_of_writes c scM1 _ (coverA1 c _ _ hR hF _)); iexact HS1
        isplitl [HS2]; · iapply (owns_of_writes c scM2 _ (coverA2 c _ _ hR hF _)); iexact HS2
        iapply (owns_of_writes c scM3 _ (coverA3 c _ _ hR hF _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21
    · rw [PhiS_pos m c _ _ hz, outsAt_pos m c t hz, stepOuts_first m c t _ h0]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runA c (grid0.coords t) (bufsAt t) hR hF (insAt m c t)).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexists _; iexact HS0
      isplitl [HS1]; · iexists _; iexact HS1
      isplitl [HS2]; · iexists _; iexact HS2
      isplitl [HS3]; · iexists _; iexact HS3
      iintro ⟨Hins, H20, H21, HS0, HS1, HS2, HS3⟩
      isplitl [HS0 HS1 HS2 HS3]
      · isplitl [HS0]; · iapply (owns_of_writes c scM0 _ (coverA0 c _ _ hR hF _)); iexact HS0
        isplitl [HS1]; · iapply (owns_of_writes c scM1 _ (coverA1 c _ _ hR hF _)); iexact HS1
        isplitl [HS2]; · iapply (owns_of_writes c scM2 _ (coverA2 c _ _ hR hF _)); iexact HS2
        iapply (owns_of_writes c scM3 _ (coverA3 c _ _ hR hF _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21
  · have hz : t.val ≠ 0 := fun e => h0 (by rw [e])
    have hR : ¬condR (grid0.coords t) := not_condR_of_pos t h0
    by_cases h15 : t.val % 16 = 15
    · -- a last chunk: the gates are formed and both outputs stored
      have hF : condF (grid0.coords t) := (hcondF t).mpr h15
      rw [leaves_20 m c t hF, leaves_21 m c t hF, PhiS_pos m c _ _ hz, outsAt_pos m c t hz, stepOuts_last m c t _ h0 h15]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runC c (grid0.coords t) (bufsAt t) hR hF (insAt m c t) (outsAt m c (t.val - 1) (Nat.lt_of_le_of_lt (Nat.sub_le _ _) t.isLt)).s).2.2.2.2.2.2 Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexists _; iexact H20
      isplitl [H21]; · iexists _; iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverC2 c _ _ hR hF _ _)); iexact HS0
        isplitl [HS1]; · iapply (owns_of_writes c scM1 _ (coverC3 c _ _ hR hF _ _)); iexact HS1
        isplitl [HS2]; · iapply (owns_of_writes c scM2 _ (coverC4 c _ _ hR hF _ _)); iexact HS2
        iapply (owns_of_writes c scM3 _ (coverC5 c _ _ hR hF _ _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iapply (owns_of_writes c (bufsAt t).a23 _ (coverC0 c _ _ hR hF _ _)); iexact H20
      iapply (owns_of_writes c (bufsAt t).a24 _ (coverC1 c _ _ hR hF _ _)); iexact H21
    · -- a middle chunk
      have hF : ¬condF (grid0.coords t) := not_condF_of_mid t h15
      rw [Dat.leavesExact_idle (dats m 0 c) 20 t (idle20 t hF) (noFlush20 t hF),
        Dat.leavesExact_idle (dats m 0 c) 21 t (idle21 t hF) (noFlush21 t hF)]
      rw [PhiS_pos m c _ _ hz, outsAt_pos m c t hz, stepOuts_mid m c t _ h0 h15]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runB c (grid0.coords t) (bufsAt t) hR hF (insAt m c t) (outsAt m c (t.val - 1) (Nat.lt_of_le_of_lt (Nat.sub_le _ _) t.isLt)).s).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverB0 c _ _ hR hF _ _)); iexact HS0
        isplitl [HS1]; · iapply (owns_of_writes c scM1 _ (coverB1 c _ _ hR hF _ _)); iexact HS1
        isplitl [HS2]; · iapply (owns_of_writes c scM2 _ (coverB2 c _ _ hR hF _ _)); iexact HS2
        iapply (owns_of_writes c scM3 _ (coverB3 c _ _ hR hF _ _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Launch.lean ====
/-
  The launch of `Kernel`'s one pallas_call and what it leaves in the arrays.

  The call's twenty input windows read eight arrays: the two weight matrices and the two bias vectors are each
  read by four windows, at four different column blocks. The launch hands the pipeline each array whole; a
  shared array's read permission is halved twice and a quarter given to each of its four windows. The
  accumulators' buffers are handed over at anything and taken back at anything. After the run every input array
  holds what it held (an input array is never written), and each output array holds what the write-backs made of it.
-/
import proofs.«122265_j12180527251605_1_alg».proof.Proof.K.Data
import Idealize.ShloMosaic.Lib.Pipeline.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- What the launch hands the region is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the accumulators' buffers back, their contents forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_eq]
  iintro ⟨H0, H1, H2, H3⟩
  isplitr; · iempintro
  isplitl [H0]; · iexists _; iexact H0
  isplitl [H1]; · iexists _; iexact H1
  isplitl [H2]; · iexists _; iexact H2
  iexists _; iexact H3

/-- The ten distinct buffers behind the windows' arrays, one by one. -/
theorem arrBufs_eq (c : Dev nD) :
    (Pipeline.arrBufs spec0 c (V m c) : sProp 𝕄)
      = iprop(((c : Thread nD τ).loc main_arg1 ↦{fullShare} V m c main_arg1)
          ∗ ((c : Thread nD τ).loc main_arg3 ↦{fullShare} V m c main_arg3)
          ∗ ((c : Thread nD τ).loc main_arg4 ↦{fullShare} V m c main_arg4)
          ∗ ((c : Thread nD τ).loc main_arg6 ↦{fullShare} V m c main_arg6)
          ∗ ((c : Thread nD τ).loc main_arg5 ↦{fullShare} V m c main_arg5)
          ∗ ((c : Thread nD τ).loc main_arg7 ↦{fullShare} V m c main_arg7)
          ∗ ((c : Thread nD τ).loc main_arg0 ↦{fullShare} V m c main_arg0)
          ∗ ((c : Thread nD τ).loc main_arg2 ↦{fullShare} V m c main_arg2)
          ∗ ((c : Thread nD τ).loc main_v0_0 ↦{fullShare} V m c main_v0_0)
          ∗ ((c : Thread nD τ).loc main_v0_1 ↦{fullShare} V m c main_v0_1)) := by
  unfold Pipeline.arrBufs
  exact Idealize.SL.BI.bigSep_eq_bigSepL_of_eq [main_arg1, main_arg3, main_arg4, main_arg6, main_arg5, main_arg7, main_arg0, main_arg2, main_v0_0, main_v0_1] (by decide) (by decide) _

/-- Window by window: the array's buffer at the window's share is the pipeline's holding of that window's array (a
    whole array's elements are all of the buffer's). -/
theorem arr_0 (c : Dev nD) :
    (((c : Thread nD τ).loc main_arg1 ↦{fullShare} V m c main_arg1) : sProp 𝕄)
      ⊢ ((cfg0.win 0).arr.view.loc (c : Thread nD τ) ↦[(cfg0.win 0).arr.view.set]{(dats m 0 c).share 0} (dats m 0 c).arrAt 0 0) := by
  rw [(arr_whole0 0).set_eq_univ]
  exact Entails.of_eq rfl
theorem arr_1 (c : Dev nD) :
    (((c : Thread nD τ).loc main_arg3 ↦{fullShare} V m c main_arg3) : sProp 𝕄)
      ⊢ ((cfg0.win 1).arr.view.loc (c : Thread nD τ) ↦[(cfg0.win 1).arr.view.set]{(dats m 0 c).share 1} (dats m 0 c).arrAt 1 0) := by
  rw [(arr_whole0 1).set_eq_univ]
  exact Entails.of_eq rfl
theorem arr_2 (c : Dev nD) :
    (((c : Thread nD τ).loc main_arg4 ↦{fullShare.left.left} V m c main_arg4) : sProp 𝕄)
      ⊢ ((cfg0.win 2).arr.view.loc (c : Thread nD τ) ↦[(cfg0.win 2).arr.view.set]{(dats m 0 c).share 2} (dats m 0 c).arrAt 2 0) := by
  rw [(arr_whole0 2).set_eq_univ]
  exact Entails.of_eq rfl
theorem arr_3 (c : Dev nD) :
    (((c : Thread nD τ).loc main_arg4 ↦{fullShare.left.right} V m c main_arg4) : sProp 𝕄)
      ⊢ ((cfg0.win 3).arr.view.loc (c : Thread nD τ) ↦[(cfg0.win 3).arr.view.set]{(dats m 0 c).share 3} (dats m 0 c).arrAt 3 0) := by
  rw [(arr_whole0 3).set_eq_univ]
  exact Entails.of_eq rfl
theorem arr_4 (c : Dev nD) :
    (((c : Thread nD τ).loc main_arg4 ↦{fullShare.right.left} V m c main_arg4) : sProp 𝕄)
      ⊢ ((cfg0.win 4).arr.view.loc (c : Thread nD τ) ↦[(cfg0.win 4).arr.view.set]{(dats m 0 c).share 4} (dats m 0 c).arrAt 4 0) := by
  rw [(arr_whole0 4).set_eq_univ]
  exact Entails.of_eq rfl
theorem arr_5 (c : Dev nD) :
    (((c : Thread nD τ).loc main_arg4 ↦{fullShare.right.right} V m c main_arg4) : sProp 𝕄)
      ⊢ ((cfg0.win 5).arr.view.loc (c : Thread nD τ) ↦[(cfg0.win 5).arr.view.set]{(dats m 0 c).share 5} (dats m 0 c).arrAt 5 0) := by
  rw [(arr_whole0 5).set_eq_univ]
  exact Entails.of_eq rfl
theorem arr_6 (c : Dev nD) :
    (((c : Thread nD τ).loc main_arg6 ↦{fullShare.left.left} V m c main_arg6) : sProp 𝕄)
      ⊢ ((cfg0.win 6).arr.view.loc (c : Thread nD τ) ↦[(cfg0.win 6).arr.view.set]{(dats m 0 c).share 6} (dats m 0 c).arrAt 6 0) := by
  rw [(arr_whole0 6).set_eq_univ]
  exact Entails.of_eq rfl
theorem arr_7 (c : Dev nD) :
    (((c : Thread nD τ).loc main_arg6 ↦{fullShare.left.right} V m c main_arg6) : sProp 𝕄)
      ⊢ ((cfg0.win 7).arr.view.loc (c : Thread nD τ) ↦[(cfg0.win 7).arr.view.set]{(dats m 0 c).share 7} (dats m 0 c).arrAt 7 0) := by
  rw [(arr_whole0 7).set_eq_univ]
  exact Entails.of_eq rfl
theorem arr_8 (c : Dev nD) :
    (((c : Thread nD τ).loc main_arg6 ↦{fullShare.right.left} V m c main_arg6) : sProp 𝕄)
      ⊢ ((cfg0.win 8).arr.view.loc (c : Thread nD τ) ↦[(cfg0.win 8).arr.view.set]{(dats m 0 c).share 8} (dats m 0 c).arrAt 8 0) := by
  rw [(arr_whole0 8).set_eq_univ]
  exact Entails.of_eq rfl
theorem arr_9 (c : Dev nD) :
    (((c : Thread nD τ).loc main_arg6 ↦{fullShare.right.right} V m c main_arg6) : sProp 𝕄)
      ⊢ ((cfg0.win 9).arr.view.loc (c : Thread nD τ) ↦[(cfg0.win 9).arr.view.set]{(dats m 0 c).share 9} (dats m 0 c).arrAt 9 0) := by
  rw [(arr_whole0 9).set_eq_univ]
  exact Entails.of_eq rfl
theorem arr_10 (c : Dev nD) :
    (((c : Thread nD τ).loc main_arg5 ↦{fullShare.left.left} V m c main_arg5) : sProp 𝕄)
      ⊢ ((cfg0.win 10).arr.view.loc (c : Thread nD τ) ↦[(cfg0.win 10).arr.view.set]{(dats m 0 c).share 10} (dats m 0 c).arrAt 10 0) := by
  rw [(arr_whole0 10).set_eq_univ]
  exact Entails.of_eq rfl
theorem arr_11 (c : Dev nD) :
    (((c : Thread nD τ).loc main_arg5 ↦{fullShare.left.right} V m c main_arg5) : sProp 𝕄)
      ⊢ ((cfg0.win 11).arr.view.loc (c : Thread nD τ) ↦[(cfg0.win 11).arr.view.set]{(dats m 0 c).share 11} (dats m 0 c).arrAt 11 0) := by
  rw [(arr_whole0 11).set_eq_univ]
  exact Entails.of_eq rfl
theorem arr_12 (c : Dev nD) :
    (((c : Thread nD τ).loc main_arg5 ↦{fullShare.right.left} V m c main_arg5) : sProp 𝕄)
      ⊢ ((cfg0.win 12).arr.view.loc (c : Thread nD τ) ↦[(cfg0.win 12).arr.view.set]{(dats m 0 c).share 12} (dats m 0 c).arrAt 12 0) := by
  rw [(arr_whole0 12).set_eq_univ]
  exact Entails.of_eq rfl
theorem arr_13 (c : Dev nD) :
    (((c : Thread nD τ).loc main_arg5 ↦{fullShare.right.right} V m c main_arg5) : sProp 𝕄)
      ⊢ ((cfg0.win 13).arr.view.loc (c : Thread nD τ) ↦[(cfg0.win 13).arr.view.set]{(dats m 0 c).share 13} (dats m 0 c).arrAt 13 0) := by
  rw [(arr_whole0 13).set_eq_univ]
  exact Entails.of_eq rfl
theorem arr_14 (c : Dev nD) :
    (((c : Thread nD τ).loc main_arg7 ↦{fullShare.left.left} V m c main_arg7) : sProp 𝕄)
      ⊢ ((cfg0.win 14).arr.view.loc (c : Thread nD τ) ↦[(cfg0.win 14).arr.view.set]{(dats m 0 c).share 14} (dats m 0 c).arrAt 14 0) := by
  rw [(arr_whole0 14).set_eq_univ]
  exact Entails.of_eq rfl
theorem arr_15 (c : Dev nD) :
    (((c : Thread nD τ).loc main_arg7 ↦{fullShare.left.right} V m c main_arg7) : sProp 𝕄)
      ⊢ ((cfg0.win 15).arr.view.loc (c : Thread nD τ) ↦[(cfg0.win 15).arr.view.set]{(dats m 0 c).share 15} (dats m 0 c).arrAt 15 0) := by
  rw [(arr_whole0 15).set_eq_univ]
  exact Entails.of_eq rfl
theorem arr_16 (c : Dev nD) :
    (((c : Thread nD τ).loc main_arg7 ↦{fullShare.right.left} V m c main_arg7) : sProp 𝕄)
      ⊢ ((cfg0.win 16).arr.view.loc (c : Thread nD τ) ↦[(cfg0.win 16).arr.view.set]{(dats m 0 c).share 16} (dats m 0 c).arrAt 16 0) := by
  rw [(arr_whole0 16).set_eq_univ]
  exact Entails.of_eq rfl
theorem arr_17 (c : Dev nD) :
    (((c : Thread nD τ).loc main_arg7 ↦{fullShare.right.right} V m c main_arg7) : sProp 𝕄)
      ⊢ ((cfg0.win 17).arr.view.loc (c : Thread nD τ) ↦[(cfg0.win 17).arr.view.set]{(dats m 0 c).share 17} (dats m 0 c).arrAt 17 0) := by
  rw [(arr_whole0 17).set_eq_univ]
  exact Entails.of_eq rfl
theorem arr_18 (c : Dev nD) :
    (((c : Thread nD τ).loc main_arg0 ↦{fullShare} V m c main_arg0) : sProp 𝕄)
      ⊢ ((cfg0.win 18).arr.view.loc (c : Thread nD τ) ↦[(cfg0.win 18).arr.view.set]{(dats m 0 c).share 18} (dats m 0 c).arrAt 18 0) := by
  rw [(arr_whole0 18).set_eq_univ]
  exact Entails.of_eq rfl
theorem arr_19 (c : Dev nD) :
    (((c : Thread nD τ).loc main_arg2 ↦{fullShare} V m c main_arg2) : sProp 𝕄)
      ⊢ ((cfg0.win 19).arr.view.loc (c : Thread nD τ) ↦[(cfg0.win 19).arr.view.set]{(dats m 0 c).share 19} (dats m 0 c).arrAt 19 0) := by
  rw [(arr_whole0 19).set_eq_univ]
  exact Entails.of_eq rfl
theorem arr_20 (c : Dev nD) :
    (((c : Thread nD τ).loc main_v0_0 ↦{fullShare} V m c main_v0_0) : sProp 𝕄)
      ⊢ ((cfg0.win 20).arr.view.loc (c : Thread nD τ) ↦[(cfg0.win 20).arr.view.set]{(dats m 0 c).share 20} (dats m 0 c).arrAt 20 0) := by
  rw [(arr_whole0 20).set_eq_univ]
  exact Entails.of_eq rfl
theorem arr_21 (c : Dev nD) :
    (((c : Thread nD τ).loc main_v0_1 ↦{fullShare} V m c main_v0_1) : sProp 𝕄)
      ⊢ ((cfg0.win 21).arr.view.loc (c : Thread nD τ) ↦[(cfg0.win 21).arr.view.set]{(dats m 0 c).share 21} (dats m 0 c).arrAt 21 0) := by
  rw [(arr_whole0 21).set_eq_univ]
  exact Entails.of_eq rfl

/-- The ten buffers behind the windows' arrays, each whole, make the pipeline's arrays at entry: an array four
    windows read is dealt to them in quarters. -/
theorem hsplit (c : Dev nD) : Pipeline.arrBufs spec0 c (V m c) ⊢ (dats m 0 c).arrays ((dats m 0 c).arrAt · 0) := by
  rw [arrBufs_eq]
  unfold Dat.arrays
  rw [bigSep_W0]
  iintro ⟨A1, A3, A4, A6, A5, A7, A0, A2, R0, R1⟩
  ihave S4 := (pointsTo_share (PosShare.mem_left_op_right fullShare)).1 $$ A4
  icases S4 with ⟨A4l, A4r⟩
  ihave S4l := (pointsTo_share (PosShare.mem_left_op_right fullShare.left)).1 $$ A4l
  icases S4l with ⟨A4ll, A4lr⟩
  ihave S4r := (pointsTo_share (PosShare.mem_left_op_right fullShare.right)).1 $$ A4r
  icases S4r with ⟨A4rl, A4rr⟩
  ihave S6 := (pointsTo_share (PosShare.mem_left_op_right fullShare)).1 $$ A6
  icases S6 with ⟨A6l, A6r⟩
  ihave S6l := (pointsTo_share (PosShare.mem_left_op_right fullShare.left)).1 $$ A6l
  icases S6l with ⟨A6ll, A6lr⟩
  ihave S6r := (pointsTo_share (PosShare.mem_left_op_right fullShare.right)).1 $$ A6r
  icases S6r with ⟨A6rl, A6rr⟩
  ihave S5 := (pointsTo_share (PosShare.mem_left_op_right fullShare)).1 $$ A5
  icases S5 with ⟨A5l, A5r⟩
  ihave S5l := (pointsTo_share (PosShare.mem_left_op_right fullShare.left)).1 $$ A5l
  icases S5l with ⟨A5ll, A5lr⟩
  ihave S5r := (pointsTo_share (PosShare.mem_left_op_right fullShare.right)).1 $$ A5r
  icases S5r with ⟨A5rl, A5rr⟩
  ihave S7 := (pointsTo_share (PosShare.mem_left_op_right fullShare)).1 $$ A7
  icases S7 with ⟨A7l, A7r⟩
  ihave S7l := (pointsTo_share (PosShare.mem_left_op_right fullShare.left)).1 $$ A7l
  icases S7l with ⟨A7ll, A7lr⟩
  ihave S7r := (pointsTo_share (PosShare.mem_left_op_right fullShare.right)).1 $$ A7r
  icases S7r with ⟨A7rl, A7rr⟩
  isplitl [A1]; · iapply (arr_0 m c); iexact A1
  isplitl [A3]; · iapply (arr_1 m c); iexact A3
  isplitl [A4ll]; · iapply (arr_2 m c); iexact A4ll
  isplitl [A4lr]; · iapply (arr_3 m c); iexact A4lr
  isplitl [A4rl]; · iapply (arr_4 m c); iexact A4rl
  isplitl [A4rr]; · iapply (arr_5 m c); iexact A4rr
  isplitl [A6ll]; · iapply (arr_6 m c); iexact A6ll
  isplitl [A6lr]; · iapply (arr_7 m c); iexact A6lr
  isplitl [A6rl]; · iapply (arr_8 m c); iexact A6rl
  isplitl [A6rr]; · iapply (arr_9 m c); iexact A6rr
  isplitl [A5ll]; · iapply (arr_10 m c); iexact A5ll
  isplitl [A5lr]; · iapply (arr_11 m c); iexact A5lr
  isplitl [A5rl]; · iapply (arr_12 m c); iexact A5rl
  isplitl [A5rr]; · iapply (arr_13 m c); iexact A5rr
  isplitl [A7ll]; · iapply (arr_14 m c); iexact A7ll
  isplitl [A7lr]; · iapply (arr_15 m c); iexact A7lr
  isplitl [A7rl]; · iapply (arr_16 m c); iexact A7rl
  isplitl [A7rr]; · iapply (arr_17 m c); iexact A7rr
  isplitl [A0]; · iapply (arr_18 m c); iexact A0
  isplitl [A2]; · iapply (arr_19 m c); iexact A2
  isplitl [R0]; · iapply (arr_20 m c); iexact R0
  iapply (arr_21 m c); iexact R1

/-- The physical post: every array of the call holds what the library computes it holds after the last write-back. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any values, from any memory with zero counters: given the body obligation, every weakly
    fair execution of @main terminates, and every final state has each array of the call at the computed contents. -/
theorem run_main (hbody : ∀ c, BodyObligationLoose (dats m 0 c) (defs₀ (F := F)) Variants.none () Set.univ) :
    θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := hbody) (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-! ## The input arrays after the run: what they held -/

theorem final_in_0 (c : Dev nD) : (dats m 0 c).arrAt 0 cfg0.N = m ((c : Thread nD τ).loc main_arg1) :=
  (dats (F := F) m 0 c).arrAt_in 0 rfl _
theorem final_in_1 (c : Dev nD) : (dats m 0 c).arrAt 1 cfg0.N = m ((c : Thread nD τ).loc main_arg3) :=
  (dats (F := F) m 0 c).arrAt_in 1 rfl _
theorem final_in_2 (c : Dev nD) : (dats m 0 c).arrAt 2 cfg0.N = m ((c : Thread nD τ).loc main_arg4) :=
  (dats (F := F) m 0 c).arrAt_in 2 rfl _
theorem final_in_3 (c : Dev nD) : (dats m 0 c).arrAt 3 cfg0.N = m ((c : Thread nD τ).loc main_arg4) :=
  (dats (F := F) m 0 c).arrAt_in 3 rfl _
theorem final_in_4 (c : Dev nD) : (dats m 0 c).arrAt 4 cfg0.N = m ((c : Thread nD τ).loc main_arg4) :=
  (dats (F := F) m 0 c).arrAt_in 4 rfl _
theorem final_in_5 (c : Dev nD) : (dats m 0 c).arrAt 5 cfg0.N = m ((c : Thread nD τ).loc main_arg4) :=
  (dats (F := F) m 0 c).arrAt_in 5 rfl _
theorem final_in_6 (c : Dev nD) : (dats m 0 c).arrAt 6 cfg0.N = m ((c : Thread nD τ).loc main_arg6) :=
  (dats (F := F) m 0 c).arrAt_in 6 rfl _
theorem final_in_7 (c : Dev nD) : (dats m 0 c).arrAt 7 cfg0.N = m ((c : Thread nD τ).loc main_arg6) :=
  (dats (F := F) m 0 c).arrAt_in 7 rfl _
theorem final_in_8 (c : Dev nD) : (dats m 0 c).arrAt 8 cfg0.N = m ((c : Thread nD τ).loc main_arg6) :=
  (dats (F := F) m 0 c).arrAt_in 8 rfl _
theorem final_in_9 (c : Dev nD) : (dats m 0 c).arrAt 9 cfg0.N = m ((c : Thread nD τ).loc main_arg6) :=
  (dats (F := F) m 0 c).arrAt_in 9 rfl _
theorem final_in_10 (c : Dev nD) : (dats m 0 c).arrAt 10 cfg0.N = m ((c : Thread nD τ).loc main_arg5) :=
  (dats (F := F) m 0 c).arrAt_in 10 rfl _
theorem final_in_11 (c : Dev nD) : (dats m 0 c).arrAt 11 cfg0.N = m ((c : Thread nD τ).loc main_arg5) :=
  (dats (F := F) m 0 c).arrAt_in 11 rfl _
theorem final_in_12 (c : Dev nD) : (dats m 0 c).arrAt 12 cfg0.N = m ((c : Thread nD τ).loc main_arg5) :=
  (dats (F := F) m 0 c).arrAt_in 12 rfl _
theorem final_in_13 (c : Dev nD) : (dats m 0 c).arrAt 13 cfg0.N = m ((c : Thread nD τ).loc main_arg5) :=
  (dats (F := F) m 0 c).arrAt_in 13 rfl _
theorem final_in_14 (c : Dev nD) : (dats m 0 c).arrAt 14 cfg0.N = m ((c : Thread nD τ).loc main_arg7) :=
  (dats (F := F) m 0 c).arrAt_in 14 rfl _
theorem final_in_15 (c : Dev nD) : (dats m 0 c).arrAt 15 cfg0.N = m ((c : Thread nD τ).loc main_arg7) :=
  (dats (F := F) m 0 c).arrAt_in 15 rfl _
theorem final_in_16 (c : Dev nD) : (dats m 0 c).arrAt 16 cfg0.N = m ((c : Thread nD τ).loc main_arg7) :=
  (dats (F := F) m 0 c).arrAt_in 16 rfl _
theorem final_in_17 (c : Dev nD) : (dats m 0 c).arrAt 17 cfg0.N = m ((c : Thread nD τ).loc main_arg7) :=
  (dats (F := F) m 0 c).arrAt_in 17 rfl _
theorem final_in_18 (c : Dev nD) : (dats m 0 c).arrAt 18 cfg0.N = m ((c : Thread nD τ).loc main_arg0) :=
  (dats (F := F) m 0 c).arrAt_in 18 rfl _
theorem final_in_19 (c : Dev nD) : (dats m 0 c).arrAt 19 cfg0.N = m ((c : Thread nD τ).loc main_arg2) :=
  (dats (F := F) m 0 c).arrAt_in 19 rfl _

/-- THE FRAME from the run: the eight argument arrays end unchanged. -/
theorem frame_of_run (h : θ_run defs (onTc (τ := τ) (main (F := F))) ⟨m, fun _ => 0, ρ⟩ (QC m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c 18).trans (final_in_18 m c), (h c 0).trans (final_in_0 m c), (h c 19).trans (final_in_19 m c),
     (h c 1).trans (final_in_1 m c), (h c 2).trans (final_in_2 m c), (h c 10).trans (final_in_10 m c),
     (h c 6).trans (final_in_6 m c), (h c 14).trans (final_in_14 m c)⟩) h

end Cert.Kernel.Fr

end
-- ==== Proof.KI.Setup.lean ====
/-
  What the frame of `KernelIdeal`'s one pallas_call is stated over.

  The call runs on a 4 × 4 × 16 grid (256 points; the last axis is the contraction's sixteen chunks). Its body takes
  twenty input blocks (the two children's hidden-state chunks, four column blocks of each weight matrix, four
  blocks of each bias vector, the two children's cell-state blocks), two output blocks and four accumulators kept
  across points. Three cases by the chunk number k: at k = 0 the accumulators are first reset to zero; at every k
  each accumulator gains the two products of this chunk; at k = 15 the gates are formed and both outputs stored.
  At the other points the outputs' buffers are left as they were found and are not written back.

  Here: the body's memory references bundled (`Bufs`), the blocks it reads and the accumulators' contents bundled
  (`Ins`, `Scr`), the two branch conditions in closed form over the grid, and where the output windows are idle.
-/
import proofs.«122265_j12180527251605_1_alg».proof.Proof.Gen.KernelIdeal.Launch
import proofs.«122265_j12180527251605_1_alg».proof.Proof.Gen.KernelIdeal.Skeleton
import proofs.«122265_j12180527251605_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's operands, bundled -/

/-- The twenty-six whole memory references the body is called with: inputs `a3 … a22`, outputs `a23`, `a24`,
    accumulators `a25 … a28`. -/
structure Bufs where
  a3 : Memref sig .tc .vmem S1024x128 .f32
  h3 : a3.IsWhole
  a4 : Memref sig .tc .vmem S1024x128 .f32
  h4 : a4.IsWhole
  a5 : Memref sig .tc .vmem S128x512 .f32
  h5 : a5.IsWhole
  a6 : Memref sig .tc .vmem S128x512 .f32
  h6 : a6.IsWhole
  a7 : Memref sig .tc .vmem S128x512 .f32
  h7 : a7.IsWhole
  a8 : Memref sig .tc .vmem S128x512 .f32
  h8 : a8.IsWhole
  a9 : Memref sig .tc .vmem S128x512 .f32
  h9 : a9.IsWhole
  a10 : Memref sig .tc .vmem S128x512 .f32
  h10 : a10.IsWhole
  a11 : Memref sig .tc .vmem S128x512 .f32
  h11 : a11.IsWhole
  a12 : Memref sig .tc .vmem S128x512 .f32
  h12 : a12.IsWhole
  a13 : Memref sig .tc .vmem S512 .f32
  h13 : a13.IsWhole
  a14 : Memref sig .tc .vmem S512 .f32
  h14 : a14.IsWhole
  a15 : Memref sig .tc .vmem S512 .f32
  h15 : a15.IsWhole
  a16 : Memref sig .tc .vmem S512 .f32
  h16 : a16.IsWhole
  a17 : Memref sig .tc .vmem S512 .f32
  h17 : a17.IsWhole
  a18 : Memref sig .tc .vmem S512 .f32
  h18 : a18.IsWhole
  a19 : Memref sig .tc .vmem S512 .f32
  h19 : a19.IsWhole
  a20 : Memref sig .tc .vmem S512 .f32
  h20 : a20.IsWhole
  a21 : Memref sig .tc .vmem S1024x512 .f32
  h21 : a21.IsWhole
  a22 : Memref sig .tc .vmem S1024x512 .f32
  h22 : a22.IsWhole
  a23 : Memref sig .tc .vmem S1024x512 .f32
  h23 : a23.IsWhole
  a24 : Memref sig .tc .vmem S1024x512 .f32
  h24 : a24.IsWhole
  a25 : Memref sig .tc .vmem S1024x512 .f32
  h25 : a25.IsWhole
  a26 : Memref sig .tc .vmem S1024x512 .f32
  h26 : a26.IsWhole
  a27 : Memref sig .tc .vmem S1024x512 .f32
  h27 : a27.IsWhole
  a28 : Memref sig .tc .vmem S1024x512 .f32
  h28 : a28.IsWhole

/-- The body on a bundle. -/
abbrev kbody (i : grid0.Coords) (B : Bufs) : Prog (TpuEff nD τ sig (Elt F) Λ₀ .tc) PUnit :=
  cc0__kernel (F := F) i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28

/-- The bundle the pipeline calls the body with at point `t`: each window's current staging buffer, and the four
    accumulators' own buffers. -/
abbrev bufsAt (t : Fin cfg0.N) : Bufs :=
  ⟨win0_0.stage (cfg0.slots t 0), hstage0_0 ((cfg0.slots t 0).cast nbuf0_0),
   win0_1.stage (cfg0.slots t 1), hstage0_1 ((cfg0.slots t 1).cast nbuf0_1),
   win0_2.stage (cfg0.slots t 2), hstage0_2 ((cfg0.slots t 2).cast nbuf0_2),
   win0_3.stage (cfg0.slots t 3), hstage0_3 ((cfg0.slots t 3).cast nbuf0_3),
   win0_4.stage (cfg0.slots t 4), hstage0_4 ((cfg0.slots t 4).cast nbuf0_4),
   win0_5.stage (cfg0.slots t 5), hstage0_5 ((cfg0.slots t 5).cast nbuf0_5),
   win0_6.stage (cfg0.slots t 6), hstage0_6 ((cfg0.slots t 6).cast nbuf0_6),
   win0_7.stage (cfg0.slots t 7), hstage0_7 ((cfg0.slots t 7).cast nbuf0_7),
   win0_8.stage (cfg0.slots t 8), hstage0_8 ((cfg0.slots t 8).cast nbuf0_8),
   win0_9.stage (cfg0.slots t 9), hstage0_9 ((cfg0.slots t 9).cast nbuf0_9),
   win0_10.stage (cfg0.slots t 10), hstage0_10 ((cfg0.slots t 10).cast nbuf0_10),
   win0_11.stage (cfg0.slots t 11), hstage0_11 ((cfg0.slots t 11).cast nbuf0_11),
   win0_12.stage (cfg0.slots t 12), hstage0_12 ((cfg0.slots t 12).cast nbuf0_12),
   win0_13.stage (cfg0.slots t 13), hstage0_13 ((cfg0.slots t 13).cast nbuf0_13),
   win0_14.stage (cfg0.slots t 14), hstage0_14 ((cfg0.slots t 14).cast nbuf0_14),
   win0_15.stage (cfg0.slots t 15), hstage0_15 ((cfg0.slots t 15).cast nbuf0_15),
   win0_16.stage (cfg0.slots t 16), hstage0_16 ((cfg0.slots t 16).cast nbuf0_16),
   win0_17.stage (cfg0.slots t 17), hstage0_17 ((cfg0.slots t 17).cast nbuf0_17),
   win0_18.stage (cfg0.slots t 18), hstage0_18 ((cfg0.slots t 18).cast nbuf0_18),
   win0_19.stage (cfg0.slots t 19), hstage0_19 ((cfg0.slots t 19).cast nbuf0_19),
   win0_20.stage (cfg0.slots t 20), hstage0_20 ((cfg0.slots t 20).cast nbuf0_20),
   win0_21.stage (cfg0.slots t 21), hstage0_21 ((cfg0.slots t 21).cast nbuf0_21),
   Memref.whole cc0_scratch0, Memref.isWhole_whole _, Memref.whole cc0_scratch1, Memref.isWhole_whole _,
   Memref.whole cc0_scratch2, Memref.isWhole_whole _, Memref.whole cc0_scratch3, Memref.isWhole_whole _⟩

/-- The body as the pipeline calls it at point `t` is the body on that bundle. -/
theorem bodyAt0_eq (t : Fin cfg0.N) : bodyAt0 (F := F) t = kbody (grid0.coords t) (bufsAt t) := rfl

/-- The contents of the twenty input blocks. -/
structure Ins (F : FTy → Type) [FloatOps F] where
  x3 : Vec F S1024x128 .f32
  x4 : Vec F S1024x128 .f32
  x5 : Vec F S128x512 .f32
  x6 : Vec F S128x512 .f32
  x7 : Vec F S128x512 .f32
  x8 : Vec F S128x512 .f32
  x9 : Vec F S128x512 .f32
  x10 : Vec F S128x512 .f32
  x11 : Vec F S128x512 .f32
  x12 : Vec F S128x512 .f32
  x13 : Vec F S512 .f32
  x14 : Vec F S512 .f32
  x15 : Vec F S512 .f32
  x16 : Vec F S512 .f32
  x17 : Vec F S512 .f32
  x18 : Vec F S512 .f32
  x19 : Vec F S512 .f32
  x20 : Vec F S512 .f32
  x21 : Vec F S1024x512 .f32
  x22 : Vec F S1024x512 .f32

/-- The contents of the four accumulators. -/
structure Scr (F : FTy → Type) [FloatOps F] where
  s0 : Vec F S1024x512 .f32
  s1 : Vec F S1024x512 .f32
  s2 : Vec F S1024x512 .f32
  s3 : Vec F S1024x512 .f32

/-- The twenty input buffers of a bundle, each whole at its block. -/
def insOwn (c : Dev nD) (B : Bufs) (X : Ins F) : sProp 𝕄 :=
  iprop(owns (c : Thread nD τ) B.a3 fullShare X.x3
    ∗ owns (c : Thread nD τ) B.a4 fullShare X.x4
    ∗ owns (c : Thread nD τ) B.a5 fullShare X.x5
    ∗ owns (c : Thread nD τ) B.a6 fullShare X.x6
    ∗ owns (c : Thread nD τ) B.a7 fullShare X.x7
    ∗ owns (c : Thread nD τ) B.a8 fullShare X.x8
    ∗ owns (c : Thread nD τ) B.a9 fullShare X.x9
    ∗ owns (c : Thread nD τ) B.a10 fullShare X.x10
    ∗ owns (c : Thread nD τ) B.a11 fullShare X.x11
    ∗ owns (c : Thread nD τ) B.a12 fullShare X.x12
    ∗ owns (c : Thread nD τ) B.a13 fullShare X.x13
    ∗ owns (c : Thread nD τ) B.a14 fullShare X.x14
    ∗ owns (c : Thread nD τ) B.a15 fullShare X.x15
    ∗ owns (c : Thread nD τ) B.a16 fullShare X.x16
    ∗ owns (c : Thread nD τ) B.a17 fullShare X.x17
    ∗ owns (c : Thread nD τ) B.a18 fullShare X.x18
    ∗ owns (c : Thread nD τ) B.a19 fullShare X.x19
    ∗ owns (c : Thread nD τ) B.a20 fullShare X.x20
    ∗ owns (c : Thread nD τ) B.a21 fullShare X.x21
    ∗ owns (c : Thread nD τ) B.a22 fullShare X.x22)

/-! ## The two branch conditions, in closed form over the grid -/

/-- "This is the first chunk" (the accumulators are reset), as the body computes it from the grid coordinates. -/
abbrev condR (i : grid0.Coords) : Prop :=
  (Scalar.cmpi .ne (Scalar.extui (Scalar.cmpi .eq (BitVec.ofNat 32 (i 2).val) 0#32)) 0#32) = 1#1
/-- It holds at the points ≡ 0 (mod 16). -/
theorem hcondR : ∀ t : Fin cfg0.N, condR (grid0.coords t) ↔ t.val % 16 = 0 :=
  (by decide +kernel : ∀ t : Fin grid0.N, condR (grid0.coords t) ↔ t.val % 16 = 0)

/-- "This is the last chunk" (the gates are formed and the outputs stored). -/
abbrev condF (i : grid0.Coords) : Prop := k0_cond2 i = 1#1
/-- It holds at the points ≡ 15 (mod 16). -/
theorem hcondF : ∀ t : Fin cfg0.N, condF (grid0.coords t) ↔ t.val % 16 = 15 :=
  (by decide +kernel : ∀ t : Fin grid0.N, condF (grid0.coords t) ↔ t.val % 16 = 15)

/-! ## Where the output windows are idle -/

/-- Away from the last chunk both output windows are idle and are not written back. -/
theorem idle20 : ∀ t : Fin cfg0.N, ¬condF (grid0.coords t) → cfg0.idle 20 (grid0.coords t) = true := by decide +kernel
theorem idle21 : ∀ t : Fin cfg0.N, ¬condF (grid0.coords t) → cfg0.idle 21 (grid0.coords t) = true := by decide +kernel
theorem noFlush20 : ∀ t : Fin cfg0.N, ¬condF (grid0.coords t) → (cfg0.win 20).flush t = false := by decide +kernel
theorem noFlush21 : ∀ t : Fin cfg0.N, ¬condF (grid0.coords t) → (cfg0.win 21).flush t = false := by decide +kernel
/-- At the last chunk both are live. -/
theorem live20 : ∀ t : Fin cfg0.N, condF (grid0.coords t) → cfg0.idle 20 (grid0.coords t) = false := by decide +kernel
theorem live21 : ∀ t : Fin cfg0.N, condF (grid0.coords t) → cfg0.idle 21 (grid0.coords t) = false := by decide +kernel

end Cert.KernelIdeal.Fr

end
-- ==== Proof.KI.RunA.lean ====
/-
  The body at the first chunk (k = 0): the accumulators are first stored zero, whatever they held; then each is
  loaded, gains this chunk's two products, and is stored back whole. The inputs and both output buffers are left
  as found.
-/
import proofs.«122265_j12180527251605_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where the reset condition holds and the finalize condition does not: from the inputs at their
    blocks, the outputs' buffers at `xo0`, `xo1` and the accumulators at anything, the body runs to the inputs and
    outputs unchanged and each accumulator with its pieces written (`L0 … L3`, last first: found by the run). -/
noncomputable def runA (c : Dev nD) (i : grid0.Coords) (B : Bufs) (hR : condR i) (hF : ¬condF i) (X : Ins F) :
    Σ' (L0 L1 L2 : List (View.Piece (Elt F) S1024x512 .f32)), { L3 : List (View.Piece (Elt F) S1024x512 .f32) //
      ∀ (xo0 xo1 : Vec F S1024x512 .f32) (E : Set ℕ) (K : PUnit → sProp 𝕄),
        iprop(insOwn c B X ∗ owns (c : Thread nD τ) B.a23 fullShare xo0 ∗ owns (c : Thread nD τ) B.a24 fullShare xo1
            ∗ (∃ d, owns (c : Thread nD τ) B.a25 fullShare d) ∗ (∃ d, owns (c : Thread nD τ) B.a26 fullShare d)
            ∗ (∃ d, owns (c : Thread nD τ) B.a27 fullShare d) ∗ (∃ d, owns (c : Thread nD τ) B.a28 fullShare d)
            ∗ (iprop(insOwn c B X ∗ owns (c : Thread nD τ) B.a23 fullShare xo0 ∗ owns (c : Thread nD τ) B.a24 fullShare xo1
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, fun xo0 xo1 E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%f23, %hf23, H23⟩, ⟨%f24, %hf24, H24⟩, ⟨%d25, %f25, -, H25⟩, ⟨%d26, %f26, -, H26⟩, ⟨%d27, %f27, -, H27⟩, ⟨%d28, %f28, -, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h23.eq_unread hf23
    obtain rfl := B.h24.eq_unread hf24
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]
    · iexists _; isplitr; · ipureintro; exact B.h23.read_unread _
      iexact H23
    isplitl [H24]
    · iexists _; isplitr; · ipureintro; exact B.h24.read_unread _
      iexact H24
    isplitl [H25]; · iexists _; iexact H25
    isplitl [H26]; · iexists _; iexact H26
    isplitl [H27]; · iexists _; iexact H27
    iexists _; iexact H28

end Cert.KernelIdeal.Fr

end
-- ==== Proof.KI.RunB.lean ====
/-
  The body at a middle chunk (0 < k < 15): neither branch is taken. Each accumulator is loaded, gains this chunk's
  two products, and is stored back whole; the inputs and both output buffers are left as found.
-/
import proofs.«122265_j12180527251605_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where neither condition holds: from the inputs at their blocks, the outputs' buffers at `xo0`, `xo1`
    and the accumulators at `S`, the body runs to the inputs and outputs unchanged and each accumulator with its
    pieces written (`L0 … L3`: found by the run). -/
noncomputable def runB (c : Dev nD) (i : grid0.Coords) (B : Bufs) (hR : ¬condR i) (hF : ¬condF i) (X : Ins F) (S : Scr F) :
    Σ' (L0 L1 L2 : List (View.Piece (Elt F) S1024x512 .f32)), { L3 : List (View.Piece (Elt F) S1024x512 .f32) //
      ∀ (xo0 xo1 : Vec F S1024x512 .f32) (E : Set ℕ) (K : PUnit → sProp 𝕄),
        iprop(insOwn c B X ∗ owns (c : Thread nD τ) B.a23 fullShare xo0 ∗ owns (c : Thread nD τ) B.a24 fullShare xo1
            ∗ owns (c : Thread nD τ) B.a25 fullShare S.s0 ∗ owns (c : Thread nD τ) B.a26 fullShare S.s1
            ∗ owns (c : Thread nD τ) B.a27 fullShare S.s2 ∗ owns (c : Thread nD τ) B.a28 fullShare S.s3
            ∗ (iprop(insOwn c B X ∗ owns (c : Thread nD τ) B.a23 fullShare xo0 ∗ owns (c : Thread nD τ) B.a24 fullShare xo1
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, fun xo0 xo1 E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h23.eq_unread hf23
    obtain rfl := B.h24.eq_unread hf24
    obtain rfl := B.h25.eq_unread hf25
    obtain rfl := B.h26.eq_unread hf26
    obtain rfl := B.h27.eq_unread hf27
    obtain rfl := B.h28.eq_unread hf28
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]
    · iexists _; isplitr; · ipureintro; exact B.h23.read_unread _
      iexact H23
    isplitl [H24]
    · iexists _; isplitr; · ipureintro; exact B.h24.read_unread _
      iexact H24
    isplitl [H25]; · iexists _; iexact H25
    isplitl [H26]; · iexists _; iexact H26
    isplitl [H27]; · iexists _; iexact H27
    iexists _; iexact H28

end Cert.KernelIdeal.Fr

end
-- ==== Proof.KI.RunC.lean ====
/-
  The body at the last chunk (k = 15): each accumulator is loaded, gains this chunk's two products, and is stored
  back whole; then the four gate pre-activations are read back, the two bias blocks of each added, the gates
  formed, and the new cell state and its hyperbolic tangent stored whole into the two output buffers. The inputs
  are left as found.
-/
import proofs.«122265_j12180527251605_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a point where the finalize condition holds and the reset condition does not: from the inputs at their
    blocks, the outputs' buffers at anything and the accumulators at `S`, the body runs to the inputs unchanged, each
    output buffer with its pieces written (`O0`, `O1`) and each accumulator with its pieces written (`L0 … L3`). -/
noncomputable def runC (c : Dev nD) (i : grid0.Coords) (B : Bufs) (hR : ¬condR i) (hF : condF i) (X : Ins F) (S : Scr F) :
    Σ' (O0 O1 L0 L1 L2 : List (View.Piece (Elt F) S1024x512 .f32)), { L3 : List (View.Piece (Elt F) S1024x512 .f32) //
      ∀ (E : Set ℕ) (K : PUnit → sProp 𝕄),
        iprop(insOwn c B X ∗ (∃ d, owns (c : Thread nD τ) B.a23 fullShare d) ∗ (∃ d, owns (c : Thread nD τ) B.a24 fullShare d)
            ∗ owns (c : Thread nD τ) B.a25 fullShare S.s0 ∗ owns (c : Thread nD τ) B.a26 fullShare S.s1
            ∗ owns (c : Thread nD τ) B.a27 fullShare S.s2 ∗ owns (c : Thread nD τ) B.a28 fullShare S.s3
            ∗ (iprop(insOwn c B X
                ∗ (∃ f, B.a23.view.loc (c : Thread nD τ) ↦[B.a23.view.set]{fullShare} B.a23.view.writes (Elt F) f O0)
                ∗ (∃ f, B.a24.view.loc (c : Thread nD τ) ↦[B.a24.view.set]{fullShare} B.a24.view.writes (Elt F) f O1)
                ∗ (∃ f, B.a25.view.loc (c : Thread nD τ) ↦[B.a25.view.set]{fullShare} B.a25.view.writes (Elt F) f L0)
                ∗ (∃ f, B.a26.view.loc (c : Thread nD τ) ↦[B.a26.view.set]{fullShare} B.a26.view.writes (Elt F) f L1)
                ∗ (∃ f, B.a27.view.loc (c : Thread nD τ) ↦[B.a27.view.set]{fullShare} B.a27.view.writes (Elt F) f L2)
                ∗ (∃ f, B.a28.view.loc (c : Thread nD τ) ↦[B.a28.view.set]{fullShare} B.a28.view.writes (Elt F) f L3)) -∗ K ⟨⟩))
          ⊢ wp frame (wpE (defs₀ (F := F)) Variants.none c none) E (kbody i B) K } := by
  refine ⟨?_, ?_, ?_, ?_, ?_, ?_, fun E K => ?run⟩
  case run =>
    simp only [kbody, cc0__kernel_eq_skeleton]; unfold cc0__kernel_skel
    simp only [k0_part1_eq_skeleton, k0_part2_eq_skeleton]
    unfold insOwn owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%d23, %f23, -, H23⟩, ⟨%d24, %f24, -, H24⟩, ⟨%f25, %hf25, H25⟩, ⟨%f26, %hf26, H26⟩, ⟨%f27, %hf27, H27⟩, ⟨%f28, %hf28, H28⟩, Hk⟩
    obtain rfl := B.h3.eq_unread hf3
    obtain rfl := B.h4.eq_unread hf4
    obtain rfl := B.h5.eq_unread hf5
    obtain rfl := B.h6.eq_unread hf6
    obtain rfl := B.h7.eq_unread hf7
    obtain rfl := B.h8.eq_unread hf8
    obtain rfl := B.h9.eq_unread hf9
    obtain rfl := B.h10.eq_unread hf10
    obtain rfl := B.h11.eq_unread hf11
    obtain rfl := B.h12.eq_unread hf12
    obtain rfl := B.h13.eq_unread hf13
    obtain rfl := B.h14.eq_unread hf14
    obtain rfl := B.h15.eq_unread hf15
    obtain rfl := B.h16.eq_unread hf16
    obtain rfl := B.h17.eq_unread hf17
    obtain rfl := B.h18.eq_unread hf18
    obtain rfl := B.h19.eq_unread hf19
    obtain rfl := B.h20.eq_unread hf20
    obtain rfl := B.h21.eq_unread hf21
    obtain rfl := B.h22.eq_unread hf22
    obtain rfl := B.h25.eq_unread hf25
    obtain rfl := B.h26.eq_unread hf26
    obtain rfl := B.h27.eq_unread hf27
    obtain rfl := B.h28.eq_unread hf28
    sl_exec (disch := first | exact hR | exact hF)
    sl_step
    iapply Hk
    isplitl [H3 H4 H5 H6 H7 H8 H9 H10 H11 H12 H13 H14 H15 H16 H17 H18 H19 H20 H21 H22]
    · isplitl [H3]
      · iexists _; isplitr; · ipureintro; exact B.h3.read_unread _
        iexact H3
      isplitl [H4]
      · iexists _; isplitr; · ipureintro; exact B.h4.read_unread _
        iexact H4
      isplitl [H5]
      · iexists _; isplitr; · ipureintro; exact B.h5.read_unread _
        iexact H5
      isplitl [H6]
      · iexists _; isplitr; · ipureintro; exact B.h6.read_unread _
        iexact H6
      isplitl [H7]
      · iexists _; isplitr; · ipureintro; exact B.h7.read_unread _
        iexact H7
      isplitl [H8]
      · iexists _; isplitr; · ipureintro; exact B.h8.read_unread _
        iexact H8
      isplitl [H9]
      · iexists _; isplitr; · ipureintro; exact B.h9.read_unread _
        iexact H9
      isplitl [H10]
      · iexists _; isplitr; · ipureintro; exact B.h10.read_unread _
        iexact H10
      isplitl [H11]
      · iexists _; isplitr; · ipureintro; exact B.h11.read_unread _
        iexact H11
      isplitl [H12]
      · iexists _; isplitr; · ipureintro; exact B.h12.read_unread _
        iexact H12
      isplitl [H13]
      · iexists _; isplitr; · ipureintro; exact B.h13.read_unread _
        iexact H13
      isplitl [H14]
      · iexists _; isplitr; · ipureintro; exact B.h14.read_unread _
        iexact H14
      isplitl [H15]
      · iexists _; isplitr; · ipureintro; exact B.h15.read_unread _
        iexact H15
      isplitl [H16]
      · iexists _; isplitr; · ipureintro; exact B.h16.read_unread _
        iexact H16
      isplitl [H17]
      · iexists _; isplitr; · ipureintro; exact B.h17.read_unread _
        iexact H17
      isplitl [H18]
      · iexists _; isplitr; · ipureintro; exact B.h18.read_unread _
        iexact H18
      isplitl [H19]
      · iexists _; isplitr; · ipureintro; exact B.h19.read_unread _
        iexact H19
      isplitl [H20]
      · iexists _; isplitr; · ipureintro; exact B.h20.read_unread _
        iexact H20
      isplitl [H21]
      · iexists _; isplitr; · ipureintro; exact B.h21.read_unread _
        iexact H21
      iexists _; isplitr; · ipureintro; exact B.h22.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.KernelIdeal.Fr

end
-- ==== Proof.KI.Data.lean ====
/-
  The proof data of `KernelIdeal`'s pipeline.

  Each input window's staging buffer holds, when the body runs at a point, that point's block of its array; the
  four weight windows of one weight matrix (and the four bias windows of one bias vector) read ONE array at four
  different column blocks, so each holds a quarter of that array's read permission. What the two outputs' buffers
  and the four accumulators hold after each point is defined by recursion on the point: the case the point's
  chunk number selects (first / middle / last), run on the point's blocks and on what the point before left in
  the accumulators. Before the first point the accumulators hold anything; after point n they hold that point's
  contents, which is the invariant carried from point to point.
-/
import proofs.«122265_j12180527251605_1_alg».proof.Proof.KI.RunA
import proofs.«122265_j12180527251605_1_alg».proof.Proof.KI.RunB
import proofs.«122265_j12180527251605_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The arrays as the region finds them: their launch contents (no host operation precedes the call). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The twenty input blocks at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-! ## The pieces each case leaves cover the buffers -/

theorem coverA0 (c : Dev nD) (i : grid0.Coords) (B : Bufs) (hR : condR i) (hF : ¬condF i) (X : Ins F) (y : S1024x512.Idx) :
    ∃ pc ∈ (runA (F := F) c i B hR hF X).1, y ∈ pc.1.set :=
  View.cover_of_tiledL _ S1024x512.size (by sl_kernel_rfl) y
theorem coverA1 (c : Dev nD) (i : grid0.Coords) (B : Bufs) (hR : condR i) (hF : ¬condF i) (X : Ins F) (y : S1024x512.Idx) :
    ∃ pc ∈ (runA (F := F) c i B hR hF X).2.1, y ∈ pc.1.set :=
  View.cover_of_tiledL _ S1024x512.size (by sl_kernel_rfl) y
theorem coverA2 (c : Dev nD) (i : grid0.Coords) (B : Bufs) (hR : condR i) (hF : ¬condF i) (X : Ins F) (y : S1024x512.Idx) :
    ∃ pc ∈ (runA (F := F) c i B hR hF X).2.2.1, y ∈ pc.1.set :=
  View.cover_of_tiledL _ S1024x512.size (by sl_kernel_rfl) y
theorem coverA3 (c : Dev nD) (i : grid0.Coords) (B : Bufs) (hR : condR i) (hF : ¬condF i) (X : Ins F) (y : S1024x512.Idx) :
    ∃ pc ∈ (runA (F := F) c i B hR hF X).2.2.2.1, y ∈ pc.1.set :=
  View.cover_of_tiledL _ S1024x512.size (by sl_kernel_rfl) y
theorem coverB0 (c : Dev nD) (i : grid0.Coords) (B : Bufs) (hR : ¬condR i) (hF : ¬condF i) (X : Ins F) (S : Scr F) (y : S1024x512.Idx) :
    ∃ pc ∈ (runB (F := F) c i B hR hF X S).1, y ∈ pc.1.set :=
  View.cover_of_tiledL _ S1024x512.size (by sl_kernel_rfl) y
theorem coverB1 (c : Dev nD) (i : grid0.Coords) (B : Bufs) (hR : ¬condR i) (hF : ¬condF i) (X : Ins F) (S : Scr F) (y : S1024x512.Idx) :
    ∃ pc ∈ (runB (F := F) c i B hR hF X S).2.1, y ∈ pc.1.set :=
  View.cover_of_tiledL _ S1024x512.size (by sl_kernel_rfl) y
theorem coverB2 (c : Dev nD) (i : grid0.Coords) (B : Bufs) (hR : ¬condR i) (hF : ¬condF i) (X : Ins F) (S : Scr F) (y : S1024x512.Idx) :
    ∃ pc ∈ (runB (F := F) c i B hR hF X S).2.2.1, y ∈ pc.1.set :=
  View.cover_of_tiledL _ S1024x512.size (by sl_kernel_rfl) y
theorem coverB3 (c : Dev nD) (i : grid0.Coords) (B : Bufs) (hR : ¬condR i) (hF : ¬condF i) (X : Ins F) (S : Scr F) (y : S1024x512.Idx) :
    ∃ pc ∈ (runB (F := F) c i B hR hF X S).2.2.2.1, y ∈ pc.1.set :=
  View.cover_of_tiledL _ S1024x512.size (by sl_kernel_rfl) y
theorem coverC0 (c : Dev nD) (i : grid0.Coords) (B : Bufs) (hR : ¬condR i) (hF : condF i) (X : Ins F) (S : Scr F) (y : S1024x512.Idx) :
    ∃ pc ∈ (runC (F := F) c i B hR hF X S).1, y ∈ pc.1.set :=
  View.cover_of_tiledL _ S1024x512.size (by sl_kernel_rfl) y
theorem coverC1 (c : Dev nD) (i : grid0.Coords) (B : Bufs) (hR : ¬condR i) (hF : condF i) (X : Ins F) (S : Scr F) (y : S1024x512.Idx) :
    ∃ pc ∈ (runC (F := F) c i B hR hF X S).2.1, y ∈ pc.1.set :=
  View.cover_of_tiledL _ S1024x512.size (by sl_kernel_rfl) y
theorem coverC2 (c : Dev nD) (i : grid0.Coords) (B : Bufs) (hR : ¬condR i) (hF : condF i) (X : Ins F) (S : Scr F) (y : S1024x512.Idx) :
    ∃ pc ∈ (runC (F := F) c i B hR hF X S).2.2.1, y ∈ pc.1.set :=
  View.cover_of_tiledL _ S1024x512.size (by sl_kernel_rfl) y
theorem coverC3 (c : Dev nD) (i : grid0.Coords) (B : Bufs) (hR : ¬condR i) (hF : condF i) (X : Ins F) (S : Scr F) (y : S1024x512.Idx) :
    ∃ pc ∈ (runC (F := F) c i B hR hF X S).2.2.2.1, y ∈ pc.1.set :=
  View.cover_of_tiledL _ S1024x512.size (by sl_kernel_rfl) y
theorem coverC4 (c : Dev nD) (i : grid0.Coords) (B : Bufs) (hR : ¬condR i) (hF : condF i) (X : Ins F) (S : Scr F) (y : S1024x512.Idx) :
    ∃ pc ∈ (runC (F := F) c i B hR hF X S).2.2.2.2.1, y ∈ pc.1.set :=
  View.cover_of_tiledL _ S1024x512.size (by sl_kernel_rfl) y
theorem coverC5 (c : Dev nD) (i : grid0.Coords) (B : Bufs) (hR : ¬condR i) (hF : condF i) (X : Ins F) (S : Scr F) (y : S1024x512.Idx) :
    ∃ pc ∈ (runC (F := F) c i B hR hF X S).2.2.2.2.2.1, y ∈ pc.1.set :=
  View.cover_of_tiledL _ S1024x512.size (by sl_kernel_rfl) y

/-! ## What the outputs' buffers and the accumulators hold after each point -/

/-- The two outputs' buffers and the four accumulators. -/
structure Outs (F : FTy → Type) [FloatOps F] where
  o0 : Vec F S1024x512 .f32
  o1 : Vec F S1024x512 .f32
  s : Scr F

theorem not_condF_of_first (t : Fin cfg0.N) (h0 : t.val % 16 = 0) : ¬condF (grid0.coords t) :=
  fun h => by have := (hcondF t).mp h; omega
theorem not_condR_of_pos (t : Fin cfg0.N) (h0 : ¬t.val % 16 = 0) : ¬condR (grid0.coords t) :=
  fun h => h0 ((hcondR t).mp h)
theorem not_condF_of_mid (t : Fin cfg0.N) (h15 : ¬t.val % 16 = 15) : ¬condF (grid0.coords t) :=
  fun h => h15 ((hcondF t).mp h)

/-- One point: the case its chunk number selects, on the point's blocks and on `prev`, what the point before left in
    the accumulators (unused at a first chunk, which resets them). At a point that stores nothing into the outputs
    their components are placeholders nothing consults: the windows are idle there and not written back. -/
def stepOuts (c : Dev nD) (t : Fin cfg0.N) (prev : Scr F) : Outs F :=
  if h0 : t.val % 16 = 0 then
    ⟨View.canon [], View.canon [],
     ⟨View.canon (runA c (grid0.coords t) (bufsAt t) ((hcondR t).mpr h0) (not_condF_of_first t h0) (insAt m c t)).1,
      View.canon (runA c (grid0.coords t) (bufsAt t) ((hcondR t).mpr h0) (not_condF_of_first t h0) (insAt m c t)).2.1,
      View.canon (runA c (grid0.coords t) (bufsAt t) ((hcondR t).mpr h0) (not_condF_of_first t h0) (insAt m c t)).2.2.1,
      View.canon (runA c (grid0.coords t) (bufsAt t) ((hcondR t).mpr h0) (not_condF_of_first t h0) (insAt m c t)).2.2.2.1⟩⟩
  else if h15 : t.val % 16 = 15 then
    ⟨View.canon (runC c (grid0.coords t) (bufsAt t) (not_condR_of_pos t h0) ((hcondF t).mpr h15) (insAt m c t) prev).1,
     View.canon (runC c (grid0.coords t) (bufsAt t) (not_condR_of_pos t h0) ((hcondF t).mpr h15) (insAt m c t) prev).2.1,
     ⟨View.canon (runC c (grid0.coords t) (bufsAt t) (not_condR_of_pos t h0) ((hcondF t).mpr h15) (insAt m c t) prev).2.2.1,
      View.canon (runC c (grid0.coords t) (bufsAt t) (not_condR_of_pos t h0) ((hcondF t).mpr h15) (insAt m c t) prev).2.2.2.1,
      View.canon (runC c (grid0.coords t) (bufsAt t) (not_condR_of_pos t h0) ((hcondF t).mpr h15) (insAt m c t) prev).2.2.2.2.1,
      View.canon (runC c (grid0.coords t) (bufsAt t) (not_condR_of_pos t h0) ((hcondF t).mpr h15) (insAt m c t) prev).2.2.2.2.2.1⟩⟩
  else
    ⟨View.canon [], View.canon [],
     ⟨View.canon (runB c (grid0.coords t) (bufsAt t) (not_condR_of_pos t h0) (not_condF_of_mid t h15) (insAt m c t) prev).1,
      View.canon (runB c (grid0.coords t) (bufsAt t) (not_condR_of_pos t h0) (not_condF_of_mid t h15) (insAt m c t) prev).2.1,
      View.canon (runB c (grid0.coords t) (bufsAt t) (not_condR_of_pos t h0) (not_condF_of_mid t h15) (insAt m c t) prev).2.2.1,
      View.canon (runB c (grid0.coords t) (bufsAt t) (not_condR_of_pos t h0) (not_condF_of_mid t h15) (insAt m c t) prev).2.2.2.1⟩⟩

/-- Accumulator contents nothing names: what "anything" is read as before the first point. -/
def scr0 : Scr F := ⟨View.canon [], View.canon [], View.canon [], View.canon []⟩

/-- THE ACCUMULATION: what the outputs' buffers and the accumulators hold after the body at position `n`. -/
def outsAt (c : Dev nD) : (n : ℕ) → n < cfg0.N → Outs F
  | 0, hn => stepOuts m c ⟨0, hn⟩ scr0
  | n + 1, hn => stepOuts m c ⟨n + 1, hn⟩ (outsAt c n (Nat.lt_of_succ_lt hn)).s

/-- After a point that is not the first: one step over what the point before left. -/
theorem outsAt_pos (c : Dev nD) (t : Fin cfg0.N) (ht : t.val ≠ 0) :
    outsAt m c t.val t.isLt = stepOuts m c t (outsAt m c (t.val - 1) (Nat.lt_of_le_of_lt (Nat.sub_le _ _) t.isLt)).s := by
  obtain ⟨n, hn⟩ := t
  cases n with
  | zero => exact absurd rfl ht
  | succ n => rfl

/-- At the very first point. -/
theorem outsAt_zero (c : Dev nD) (t : Fin cfg0.N) (ht : t.val = 0) :
    outsAt m c t.val t.isLt = stepOuts m c t scr0 := by
  obtain ⟨n, hn⟩ := t
  cases n with
  | zero => rfl
  | succ n => exact absurd ht (Nat.succ_ne_zero n)

/-! ## The invariant -/

/-- The four accumulators' own buffers. -/
abbrev scM0 : Memref sig .tc .vmem S1024x512 .f32 := Memref.whole cc0_scratch0
abbrev scM1 : Memref sig .tc .vmem S1024x512 .f32 := Memref.whole cc0_scratch1
abbrev scM2 : Memref sig .tc .vmem S1024x512 .f32 := Memref.whole cc0_scratch2
abbrev scM3 : Memref sig .tc .vmem S1024x512 .f32 := Memref.whole cc0_scratch3

/-- Before the first point the accumulators' buffers at anything; before point `n + 1` at what point `n` left. -/
def PhiS (c : Dev nD) : (n : ℕ) → n ≤ cfg0.N → sProp 𝕄
  | 0, _ => Pipeline.scopedRest spec0 c
  | n + 1, hn => iprop(owns (c : Thread nD τ) scM0 fullShare (outsAt m c n hn).s.s0
      ∗ owns (c : Thread nD τ) scM1 fullShare (outsAt m c n hn).s.s1
      ∗ owns (c : Thread nD τ) scM2 fullShare (outsAt m c n hn).s.s2
      ∗ owns (c : Thread nD τ) scM3 fullShare (outsAt m c n hn).s.s3)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare (outsAt m c n hn).s.s0
      ∗ owns (c : Thread nD τ) scM1 fullShare (outsAt m c n hn).s.s1
      ∗ owns (c : Thread nD τ) scM2 fullShare (outsAt m c n hn).s.s2
      ∗ owns (c : Thread nD τ) scM3 fullShare (outsAt m c n hn).s.s3) := rfl

theorem PhiS_pos (c : Dev nD) (n : ℕ) (h : n ≤ cfg0.N) (hz : n ≠ 0) :
    PhiS m c n h = iprop(owns (c : Thread nD τ) scM0 fullShare (outsAt m c (n - 1) (by omega)).s.s0
      ∗ owns (c : Thread nD τ) scM1 fullShare (outsAt m c (n - 1) (by omega)).s.s1
      ∗ owns (c : Thread nD τ) scM2 fullShare (outsAt m c (n - 1) (by omega)).s.s2
      ∗ owns (c : Thread nD τ) scM3 fullShare (outsAt m c (n - 1) (by omega)).s.s3) := by
  cases n with
  | zero => exact absurd rfl hz
  | succ n => rfl

/-- The accumulators' buffers, each whole at some contents, as memory references owned at some contents. -/
theorem scopedRest_eq (c : Dev nD) :
    (Pipeline.scopedRest spec0 c : sProp 𝕄)
      = iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) := by
  rw [scopedRest0_eq]; simp only [scM0, scM1, scM2, scM3, owns_whole]; try rfl

/-! ## The proof data -/

/-- The arrays at their launch contents; after the body each input's buffer at its block and the outputs' at
    `outsAt`; the invariant `PhiS`; nothing owed; each of four windows on one array a quarter of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt m c t.val t.isLt).o0
    | ⟨21, _⟩ => (outsAt m c t.val t.isLt).o1
    | ⟨_ + 22, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right
    | ⟨6, _⟩ => fullShare.left.left
    | ⟨7, _⟩ => fullShare.left.right
    | ⟨8, _⟩ => fullShare.right.left
    | ⟨9, _⟩ => fullShare.right.right
    | ⟨10, _⟩ => fullShare.left.left
    | ⟨11, _⟩ => fullShare.left.right
    | ⟨12, _⟩ => fullShare.right.left
    | ⟨13, _⟩ => fullShare.right.right
    | ⟨14, _⟩ => fullShare.left.left
    | ⟨15, _⟩ => fullShare.left.right
    | ⟨16, _⟩ => fullShare.right.left
    | ⟨17, _⟩ => fullShare.right.right
    | ⟨18, _⟩ => fullShare
    | ⟨19, _⟩ => fullShare
    | ⟨20, _⟩ => fullShare
    | ⟨21, _⟩ => fullShare
    | ⟨_ + 22, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = (outsAt m c t.val t.isLt).o0 := by dsimp only [dats]
theorem after_21 (c : Dev nD) (t : Fin cfg0.N) : (dats m 0 c).after 21 t = (outsAt m c t.val t.isLt).o1 := by dsimp only [dats]

/-! ## What each input's buffer holds when the body runs: its block, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl)
    (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl)
    (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl)
    (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl)
    (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl)
    (fun t => by rw [after_19]; unfold Dat.blockOf iblk; rw [A_eq]; try rfl) t d).trans
    (by unfold Dat.fetched Dat.blockOf iblk; rw [A_eq]; try rfl)

end Cert.KernelIdeal.Fr

end
-- ==== Proof.KI.Body.lean ====
/-
  The body obligation of `KernelIdeal`'s pipeline: at every point, from the invariant and each window's current buffer
  at what it then holds, the body runs to the invariant at the next point and each buffer at what the body leaves.

  The inputs' buffers hold their blocks and are handed back as found. By the point's chunk number: at a first
  chunk the accumulators are taken at anything (before the very first point) or at what the point before left
  (which is then forgotten: they are reset); at the other chunks they are taken at what the point before left. At a
  last chunk the outputs' buffers are taken at anything and left with the stored cell state and hidden state; at
  the other chunks they are idle: handed back exactly as found.
-/
import proofs.«122265_j12180527251605_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The obligation's two sides, the windows one by one -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bufsAt t).a3 fullShare ((dats m 0 c).before 0 t d))
    ∗ (∃ d, owns (c : Thread nD τ) (bufsAt t).a4 fullShare ((dats m 0 c).before 1 t d))
    ∗ (∃ d, owns (c : Thread nD τ) (bufsAt t).a5 fullShare ((dats m 0 c).before 2 t d))
    ∗ (∃ d, owns (c : Thread nD τ) (bufsAt t).a6 fullShare ((dats m 0 c).before 3 t d))
    ∗ (∃ d, owns (c : Thread nD τ) (bufsAt t).a7 fullShare ((dats m 0 c).before 4 t d))
    ∗ (∃ d, owns (c : Thread nD τ) (bufsAt t).a8 fullShare ((dats m 0 c).before 5 t d))
    ∗ (∃ d, owns (c : Thread nD τ) (bufsAt t).a9 fullShare ((dats m 0 c).before 6 t d))
    ∗ (∃ d, owns (c : Thread nD τ) (bufsAt t).a10 fullShare ((dats m 0 c).before 7 t d))
    ∗ (∃ d, owns (c : Thread nD τ) (bufsAt t).a11 fullShare ((dats m 0 c).before 8 t d))
    ∗ (∃ d, owns (c : Thread nD τ) (bufsAt t).a12 fullShare ((dats m 0 c).before 9 t d))
    ∗ (∃ d, owns (c : Thread nD τ) (bufsAt t).a13 fullShare ((dats m 0 c).before 10 t d))
    ∗ (∃ d, owns (c : Thread nD τ) (bufsAt t).a14 fullShare ((dats m 0 c).before 11 t d))
    ∗ (∃ d, owns (c : Thread nD τ) (bufsAt t).a15 fullShare ((dats m 0 c).before 12 t d))
    ∗ (∃ d, owns (c : Thread nD τ) (bufsAt t).a16 fullShare ((dats m 0 c).before 13 t d))
    ∗ (∃ d, owns (c : Thread nD τ) (bufsAt t).a17 fullShare ((dats m 0 c).before 14 t d))
    ∗ (∃ d, owns (c : Thread nD τ) (bufsAt t).a18 fullShare ((dats m 0 c).before 15 t d))
    ∗ (∃ d, owns (c : Thread nD τ) (bufsAt t).a19 fullShare ((dats m 0 c).before 16 t d))
    ∗ (∃ d, owns (c : Thread nD τ) (bufsAt t).a20 fullShare ((dats m 0 c).before 17 t d))
    ∗ (∃ d, owns (c : Thread nD τ) (bufsAt t).a21 fullShare ((dats m 0 c).before 18 t d))
    ∗ (∃ d, owns (c : Thread nD τ) (bufsAt t).a22 fullShare ((dats m 0 c).before 19 t d))
    ∗ (∃ d, owns (c : Thread nD τ) (bufsAt t).a23 fullShare ((dats m 0 c).before 20 t d))
    ∗ (∃ d, owns (c : Thread nD τ) (bufsAt t).a24 fullShare ((dats m 0 c).before 21 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

/-- No input window is ever idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
theorem live_12 : ∀ t : Fin cfg0.N, cfg0.idle 12 (grid0.coords t) = false := by decide +kernel
theorem live_13 : ∀ t : Fin cfg0.N, cfg0.idle 13 (grid0.coords t) = false := by decide +kernel
theorem live_14 : ∀ t : Fin cfg0.N, cfg0.idle 14 (grid0.coords t) = false := by decide +kernel
theorem live_15 : ∀ t : Fin cfg0.N, cfg0.idle 15 (grid0.coords t) = false := by decide +kernel
theorem live_16 : ∀ t : Fin cfg0.N, cfg0.idle 16 (grid0.coords t) = false := by decide +kernel
theorem live_17 : ∀ t : Fin cfg0.N, cfg0.idle 17 (grid0.coords t) = false := by decide +kernel
theorem live_18 : ∀ t : Fin cfg0.N, cfg0.idle 18 (grid0.coords t) = false := by decide +kernel
theorem live_19 : ∀ t : Fin cfg0.N, cfg0.idle 19 (grid0.coords t) = false := by decide +kernel

/-- An input's buffer is handed back at its block. -/
theorem leaves_0 (c : Dev nD) (t : Fin cfg0.N) :
    (dats m 0 c).leavesExact 0 t = owns (c : Thread nD τ) (bufsAt t).a3 fullShare (iblk m c 0 t) := by
  unfold Dat.leavesExact; rw [live_0 t, after_0]
theorem leaves_1 (c : Dev nD) (t : Fin cfg0.N) :
    (dats m 0 c).leavesExact 1 t = owns (c : Thread nD τ) (bufsAt t).a4 fullShare (iblk m c 1 t) := by
  unfold Dat.leavesExact; rw [live_1 t, after_1]
theorem leaves_2 (c : Dev nD) (t : Fin cfg0.N) :
    (dats m 0 c).leavesExact 2 t = owns (c : Thread nD τ) (bufsAt t).a5 fullShare (iblk m c 2 t) := by
  unfold Dat.leavesExact; rw [live_2 t, after_2]
theorem leaves_3 (c : Dev nD) (t : Fin cfg0.N) :
    (dats m 0 c).leavesExact 3 t = owns (c : Thread nD τ) (bufsAt t).a6 fullShare (iblk m c 3 t) := by
  unfold Dat.leavesExact; rw [live_3 t, after_3]
theorem leaves_4 (c : Dev nD) (t : Fin cfg0.N) :
    (dats m 0 c).leavesExact 4 t = owns (c : Thread nD τ) (bufsAt t).a7 fullShare (iblk m c 4 t) := by
  unfold Dat.leavesExact; rw [live_4 t, after_4]
theorem leaves_5 (c : Dev nD) (t : Fin cfg0.N) :
    (dats m 0 c).leavesExact 5 t = owns (c : Thread nD τ) (bufsAt t).a8 fullShare (iblk m c 5 t) := by
  unfold Dat.leavesExact; rw [live_5 t, after_5]
theorem leaves_6 (c : Dev nD) (t : Fin cfg0.N) :
    (dats m 0 c).leavesExact 6 t = owns (c : Thread nD τ) (bufsAt t).a9 fullShare (iblk m c 6 t) := by
  unfold Dat.leavesExact; rw [live_6 t, after_6]
theorem leaves_7 (c : Dev nD) (t : Fin cfg0.N) :
    (dats m 0 c).leavesExact 7 t = owns (c : Thread nD τ) (bufsAt t).a10 fullShare (iblk m c 7 t) := by
  unfold Dat.leavesExact; rw [live_7 t, after_7]
theorem leaves_8 (c : Dev nD) (t : Fin cfg0.N) :
    (dats m 0 c).leavesExact 8 t = owns (c : Thread nD τ) (bufsAt t).a11 fullShare (iblk m c 8 t) := by
  unfold Dat.leavesExact; rw [live_8 t, after_8]
theorem leaves_9 (c : Dev nD) (t : Fin cfg0.N) :
    (dats m 0 c).leavesExact 9 t = owns (c : Thread nD τ) (bufsAt t).a12 fullShare (iblk m c 9 t) := by
  unfold Dat.leavesExact; rw [live_9 t, after_9]
theorem leaves_10 (c : Dev nD) (t : Fin cfg0.N) :
    (dats m 0 c).leavesExact 10 t = owns (c : Thread nD τ) (bufsAt t).a13 fullShare (iblk m c 10 t) := by
  unfold Dat.leavesExact; rw [live_10 t, after_10]
theorem leaves_11 (c : Dev nD) (t : Fin cfg0.N) :
    (dats m 0 c).leavesExact 11 t = owns (c : Thread nD τ) (bufsAt t).a14 fullShare (iblk m c 11 t) := by
  unfold Dat.leavesExact; rw [live_11 t, after_11]
theorem leaves_12 (c : Dev nD) (t : Fin cfg0.N) :
    (dats m 0 c).leavesExact 12 t = owns (c : Thread nD τ) (bufsAt t).a15 fullShare (iblk m c 12 t) := by
  unfold Dat.leavesExact; rw [live_12 t, after_12]
theorem leaves_13 (c : Dev nD) (t : Fin cfg0.N) :
    (dats m 0 c).leavesExact 13 t = owns (c : Thread nD τ) (bufsAt t).a16 fullShare (iblk m c 13 t) := by
  unfold Dat.leavesExact; rw [live_13 t, after_13]
theorem leaves_14 (c : Dev nD) (t : Fin cfg0.N) :
    (dats m 0 c).leavesExact 14 t = owns (c : Thread nD τ) (bufsAt t).a17 fullShare (iblk m c 14 t) := by
  unfold Dat.leavesExact; rw [live_14 t, after_14]
theorem leaves_15 (c : Dev nD) (t : Fin cfg0.N) :
    (dats m 0 c).leavesExact 15 t = owns (c : Thread nD τ) (bufsAt t).a18 fullShare (iblk m c 15 t) := by
  unfold Dat.leavesExact; rw [live_15 t, after_15]
theorem leaves_16 (c : Dev nD) (t : Fin cfg0.N) :
    (dats m 0 c).leavesExact 16 t = owns (c : Thread nD τ) (bufsAt t).a19 fullShare (iblk m c 16 t) := by
  unfold Dat.leavesExact; rw [live_16 t, after_16]
theorem leaves_17 (c : Dev nD) (t : Fin cfg0.N) :
    (dats m 0 c).leavesExact 17 t = owns (c : Thread nD τ) (bufsAt t).a20 fullShare (iblk m c 17 t) := by
  unfold Dat.leavesExact; rw [live_17 t, after_17]
theorem leaves_18 (c : Dev nD) (t : Fin cfg0.N) :
    (dats m 0 c).leavesExact 18 t = owns (c : Thread nD τ) (bufsAt t).a21 fullShare (iblk m c 18 t) := by
  unfold Dat.leavesExact; rw [live_18 t, after_18]
theorem leaves_19 (c : Dev nD) (t : Fin cfg0.N) :
    (dats m 0 c).leavesExact 19 t = owns (c : Thread nD τ) (bufsAt t).a22 fullShare (iblk m c 19 t) := by
  unfold Dat.leavesExact; rw [live_19 t, after_19]

/-- At a last chunk the outputs' buffers are handed back at what the point stored. -/
theorem leaves_20 (c : Dev nD) (t : Fin cfg0.N) (hF : condF (grid0.coords t)) :
    (dats m 0 c).leavesExact 20 t = owns (c : Thread nD τ) (bufsAt t).a23 fullShare (outsAt m c t.val t.isLt).o0 := by
  unfold Dat.leavesExact; rw [live20 t hF, after_20]
theorem leaves_21 (c : Dev nD) (t : Fin cfg0.N) (hF : condF (grid0.coords t)) :
    (dats m 0 c).leavesExact 21 t = owns (c : Thread nD τ) (bufsAt t).a24 fullShare (outsAt m c t.val t.isLt).o1 := by
  unfold Dat.leavesExact; rw [live21 t hF, after_21]

/-! ## The inputs' buffers, taken and handed back together -/

theorem ins_intro (c : Dev nD) (t : Fin cfg0.N) :
    iprop((∃ d : (cfg0.win 0).block.Idx → Elt F (cfg0.win 0).elt, owns (c : Thread nD τ) (bufsAt t).a3 fullShare (iblk m c 0 t))
      ∗ (∃ d : (cfg0.win 1).block.Idx → Elt F (cfg0.win 1).elt, owns (c : Thread nD τ) (bufsAt t).a4 fullShare (iblk m c 1 t))
      ∗ (∃ d : (cfg0.win 2).block.Idx → Elt F (cfg0.win 2).elt, owns (c : Thread nD τ) (bufsAt t).a5 fullShare (iblk m c 2 t))
      ∗ (∃ d : (cfg0.win 3).block.Idx → Elt F (cfg0.win 3).elt, owns (c : Thread nD τ) (bufsAt t).a6 fullShare (iblk m c 3 t))
      ∗ (∃ d : (cfg0.win 4).block.Idx → Elt F (cfg0.win 4).elt, owns (c : Thread nD τ) (bufsAt t).a7 fullShare (iblk m c 4 t))
      ∗ (∃ d : (cfg0.win 5).block.Idx → Elt F (cfg0.win 5).elt, owns (c : Thread nD τ) (bufsAt t).a8 fullShare (iblk m c 5 t))
      ∗ (∃ d : (cfg0.win 6).block.Idx → Elt F (cfg0.win 6).elt, owns (c : Thread nD τ) (bufsAt t).a9 fullShare (iblk m c 6 t))
      ∗ (∃ d : (cfg0.win 7).block.Idx → Elt F (cfg0.win 7).elt, owns (c : Thread nD τ) (bufsAt t).a10 fullShare (iblk m c 7 t))
      ∗ (∃ d : (cfg0.win 8).block.Idx → Elt F (cfg0.win 8).elt, owns (c : Thread nD τ) (bufsAt t).a11 fullShare (iblk m c 8 t))
      ∗ (∃ d : (cfg0.win 9).block.Idx → Elt F (cfg0.win 9).elt, owns (c : Thread nD τ) (bufsAt t).a12 fullShare (iblk m c 9 t))
      ∗ (∃ d : (cfg0.win 10).block.Idx → Elt F (cfg0.win 10).elt, owns (c : Thread nD τ) (bufsAt t).a13 fullShare (iblk m c 10 t))
      ∗ (∃ d : (cfg0.win 11).block.Idx → Elt F (cfg0.win 11).elt, owns (c : Thread nD τ) (bufsAt t).a14 fullShare (iblk m c 11 t))
      ∗ (∃ d : (cfg0.win 12).block.Idx → Elt F (cfg0.win 12).elt, owns (c : Thread nD τ) (bufsAt t).a15 fullShare (iblk m c 12 t))
      ∗ (∃ d : (cfg0.win 13).block.Idx → Elt F (cfg0.win 13).elt, owns (c : Thread nD τ) (bufsAt t).a16 fullShare (iblk m c 13 t))
      ∗ (∃ d : (cfg0.win 14).block.Idx → Elt F (cfg0.win 14).elt, owns (c : Thread nD τ) (bufsAt t).a17 fullShare (iblk m c 14 t))
      ∗ (∃ d : (cfg0.win 15).block.Idx → Elt F (cfg0.win 15).elt, owns (c : Thread nD τ) (bufsAt t).a18 fullShare (iblk m c 15 t))
      ∗ (∃ d : (cfg0.win 16).block.Idx → Elt F (cfg0.win 16).elt, owns (c : Thread nD τ) (bufsAt t).a19 fullShare (iblk m c 16 t))
      ∗ (∃ d : (cfg0.win 17).block.Idx → Elt F (cfg0.win 17).elt, owns (c : Thread nD τ) (bufsAt t).a20 fullShare (iblk m c 17 t))
      ∗ (∃ d : (cfg0.win 18).block.Idx → Elt F (cfg0.win 18).elt, owns (c : Thread nD τ) (bufsAt t).a21 fullShare (iblk m c 18 t))
      ∗ (∃ d : (cfg0.win 19).block.Idx → Elt F (cfg0.win 19).elt, owns (c : Thread nD τ) (bufsAt t).a22 fullShare (iblk m c 19 t)))
      ⊢ (insOwn c (bufsAt t) (insAt m c t) : sProp 𝕄) := by
  unfold insOwn insAt
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem ins_elim (c : Dev nD) (t : Fin cfg0.N) :
    (insOwn c (bufsAt t) (insAt m c t) : sProp 𝕄)
      ⊢ iprop(owns (c : Thread nD τ) (bufsAt t).a3 fullShare (iblk m c 0 t)
      ∗ owns (c : Thread nD τ) (bufsAt t).a4 fullShare (iblk m c 1 t)
      ∗ owns (c : Thread nD τ) (bufsAt t).a5 fullShare (iblk m c 2 t)
      ∗ owns (c : Thread nD τ) (bufsAt t).a6 fullShare (iblk m c 3 t)
      ∗ owns (c : Thread nD τ) (bufsAt t).a7 fullShare (iblk m c 4 t)
      ∗ owns (c : Thread nD τ) (bufsAt t).a8 fullShare (iblk m c 5 t)
      ∗ owns (c : Thread nD τ) (bufsAt t).a9 fullShare (iblk m c 6 t)
      ∗ owns (c : Thread nD τ) (bufsAt t).a10 fullShare (iblk m c 7 t)
      ∗ owns (c : Thread nD τ) (bufsAt t).a11 fullShare (iblk m c 8 t)
      ∗ owns (c : Thread nD τ) (bufsAt t).a12 fullShare (iblk m c 9 t)
      ∗ owns (c : Thread nD τ) (bufsAt t).a13 fullShare (iblk m c 10 t)
      ∗ owns (c : Thread nD τ) (bufsAt t).a14 fullShare (iblk m c 11 t)
      ∗ owns (c : Thread nD τ) (bufsAt t).a15 fullShare (iblk m c 12 t)
      ∗ owns (c : Thread nD τ) (bufsAt t).a16 fullShare (iblk m c 13 t)
      ∗ owns (c : Thread nD τ) (bufsAt t).a17 fullShare (iblk m c 14 t)
      ∗ owns (c : Thread nD τ) (bufsAt t).a18 fullShare (iblk m c 15 t)
      ∗ owns (c : Thread nD τ) (bufsAt t).a19 fullShare (iblk m c 16 t)
      ∗ owns (c : Thread nD τ) (bufsAt t).a20 fullShare (iblk m c 17 t)
      ∗ owns (c : Thread nD τ) (bufsAt t).a21 fullShare (iblk m c 18 t)
      ∗ owns (c : Thread nD τ) (bufsAt t).a22 fullShare (iblk m c 19 t)) := by
  unfold insOwn insAt
  exact Idealize.SL.BI.Entails.refl _

/-! ## One step of the accumulation, case by case -/

theorem stepOuts_first (c : Dev nD) (t : Fin cfg0.N) (prev : Scr F) (h0 : t.val % 16 = 0) :
    (stepOuts m c t prev).s =
     ⟨View.canon (runA c (grid0.coords t) (bufsAt t) ((hcondR t).mpr h0) (not_condF_of_first t h0) (insAt m c t)).1,
      View.canon (runA c (grid0.coords t) (bufsAt t) ((hcondR t).mpr h0) (not_condF_of_first t h0) (insAt m c t)).2.1,
      View.canon (runA c (grid0.coords t) (bufsAt t) ((hcondR t).mpr h0) (not_condF_of_first t h0) (insAt m c t)).2.2.1,
      View.canon (runA c (grid0.coords t) (bufsAt t) ((hcondR t).mpr h0) (not_condF_of_first t h0) (insAt m c t)).2.2.2.1⟩ := by
  unfold stepOuts; rw [dif_pos h0]

theorem stepOuts_mid (c : Dev nD) (t : Fin cfg0.N) (prev : Scr F) (h0 : ¬t.val % 16 = 0) (h15 : ¬t.val % 16 = 15) :
    (stepOuts m c t prev).s =
     ⟨View.canon (runB c (grid0.coords t) (bufsAt t) (not_condR_of_pos t h0) (not_condF_of_mid t h15) (insAt m c t) prev).1,
      View.canon (runB c (grid0.coords t) (bufsAt t) (not_condR_of_pos t h0) (not_condF_of_mid t h15) (insAt m c t) prev).2.1,
      View.canon (runB c (grid0.coords t) (bufsAt t) (not_condR_of_pos t h0) (not_condF_of_mid t h15) (insAt m c t) prev).2.2.1,
      View.canon (runB c (grid0.coords t) (bufsAt t) (not_condR_of_pos t h0) (not_condF_of_mid t h15) (insAt m c t) prev).2.2.2.1⟩ := by
  unfold stepOuts; rw [dif_neg h0, dif_neg h15]

set_option maxHeartbeats 1000000 in
theorem stepOuts_last (c : Dev nD) (t : Fin cfg0.N) (prev : Scr F) (h0 : ¬t.val % 16 = 0) (h15 : t.val % 16 = 15) :
    stepOuts m c t prev =
    ⟨View.canon (runC c (grid0.coords t) (bufsAt t) (not_condR_of_pos t h0) ((hcondF t).mpr h15) (insAt m c t) prev).1,
     View.canon (runC c (grid0.coords t) (bufsAt t) (not_condR_of_pos t h0) ((hcondF t).mpr h15) (insAt m c t) prev).2.1,
     ⟨View.canon (runC c (grid0.coords t) (bufsAt t) (not_condR_of_pos t h0) ((hcondF t).mpr h15) (insAt m c t) prev).2.2.1,
      View.canon (runC c (grid0.coords t) (bufsAt t) (not_condR_of_pos t h0) ((hcondF t).mpr h15) (insAt m c t) prev).2.2.2.1,
      View.canon (runC c (grid0.coords t) (bufsAt t) (not_condR_of_pos t h0) ((hcondF t).mpr h15) (insAt m c t) prev).2.2.2.2.1,
      View.canon (runC c (grid0.coords t) (bufsAt t) (not_condR_of_pos t h0) ((hcondF t).mpr h15) (insAt m c t) prev).2.2.2.2.2.1⟩⟩ := by
  exact (dif_neg h0).trans (dif_pos h15)

/-- A whole buffer with covering pieces written holds the pieces' canonical reading. -/
theorem owns_of_writes (c : Dev nD) (M : Memref sig .tc .vmem S1024x512 .f32) (L : List (View.Piece (Elt F) S1024x512 .f32))
    (hcov : ∀ y : S1024x512.Idx, ∃ pc ∈ L, y ∈ pc.1.set) :
    iprop(∃ f, M.view.loc (c : Thread nD τ) ↦[M.view.set]{fullShare} M.view.writes (Elt F) f L)
      ⊢ (owns (c : Thread nD τ) M fullShare (View.canon L) : sProp 𝕄) := by
  iintro ⟨%f, H⟩
  unfold owns; iexists (M.view.writes (Elt F) f L); isplitr
  · ipureintro; exact View.read_writes_eq_canon _ _ _ hcov
  iexact H

/-! ## The body at any point -/

set_option maxHeartbeats 8000000 in
theorem sound_body (c : Dev nD) (t : Fin cfg0.N) :
    bodyPre m c t ⊢ wp frame (wpE (defs₀ (F := F)) Variants.none c none) Set.univ (kbody (grid0.coords t) (bufsAt t)) (fun _ => bodyPost m c t) := by
  unfold bodyPre bodyPost
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [Phi_castSucc]
  by_cases h0 : t.val % 16 = 0
  · -- a first chunk: the accumulators are reset
    have hR : condR (grid0.coords t) := (hcondR t).mpr h0
    have hF : ¬condF (grid0.coords t) := not_condF_of_first t h0
    rw [Dat.leavesExact_idle (dats m 0 c) 20 t (idle20 t hF) (noFlush20 t hF),
      Dat.leavesExact_idle (dats m 0 c) 21 t (idle21 t hF) (noFlush21 t hF)]
    by_cases hz : t.val = 0
    · rw [PhiS_zero m c _ _ hz, scopedRest_eq, outsAt_zero m c t hz, stepOuts_first m c t _ h0]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runA c (grid0.coords t) (bufsAt t) hR hF (insAt m c t)).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverA0 c _ _ hR hF _)); iexact HS0
        isplitl [HS1]; · iapply (owns_of_writes c scM1 _ (coverA1 c _ _ hR hF _)); iexact HS1
        isplitl [HS2]; · iapply (owns_of_writes c scM2 _ (coverA2 c _ _ hR hF _)); iexact HS2
        iapply (owns_of_writes c scM3 _ (coverA3 c _ _ hR hF _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21
    · rw [PhiS_pos m c _ _ hz, outsAt_pos m c t hz, stepOuts_first m c t _ h0]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runA c (grid0.coords t) (bufsAt t) hR hF (insAt m c t)).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexists _; iexact HS0
      isplitl [HS1]; · iexists _; iexact HS1
      isplitl [HS2]; · iexists _; iexact HS2
      isplitl [HS3]; · iexists _; iexact HS3
      iintro ⟨Hins, H20, H21, HS0, HS1, HS2, HS3⟩
      isplitl [HS0 HS1 HS2 HS3]
      · isplitl [HS0]; · iapply (owns_of_writes c scM0 _ (coverA0 c _ _ hR hF _)); iexact HS0
        isplitl [HS1]; · iapply (owns_of_writes c scM1 _ (coverA1 c _ _ hR hF _)); iexact HS1
        isplitl [HS2]; · iapply (owns_of_writes c scM2 _ (coverA2 c _ _ hR hF _)); iexact HS2
        iapply (owns_of_writes c scM3 _ (coverA3 c _ _ hR hF _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21
  · have hz : t.val ≠ 0 := fun e => h0 (by rw [e])
    have hR : ¬condR (grid0.coords t) := not_condR_of_pos t h0
    by_cases h15 : t.val % 16 = 15
    · -- a last chunk: the gates are formed and both outputs stored
      have hF : condF (grid0.coords t) := (hcondF t).mpr h15
      rw [leaves_20 m c t hF, leaves_21 m c t hF, PhiS_pos m c _ _ hz, outsAt_pos m c t hz, stepOuts_last m c t _ h0 h15]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runC c (grid0.coords t) (bufsAt t) hR hF (insAt m c t) (outsAt m c (t.val - 1) (Nat.lt_of_le_of_lt (Nat.sub_le _ _) t.isLt)).s).2.2.2.2.2.2 Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexists _; iexact H20
      isplitl [H21]; · iexists _; iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverC2 c _ _ hR hF _ _)); iexact HS0
        isplitl [HS1]; · iapply (owns_of_writes c scM1 _ (coverC3 c _ _ hR hF _ _)); iexact HS1
        isplitl [HS2]; · iapply (owns_of_writes c scM2 _ (coverC4 c _ _ hR hF _ _)); iexact HS2
        iapply (owns_of_writes c scM3 _ (coverC5 c _ _ hR hF _ _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iapply (owns_of_writes c (bufsAt t).a23 _ (coverC0 c _ _ hR hF _ _)); iexact H20
      iapply (owns_of_writes c (bufsAt t).a24 _ (coverC1 c _ _ hR hF _ _)); iexact H21
    · -- a middle chunk
      have hF : ¬condF (grid0.coords t) := not_condF_of_mid t h15
      rw [Dat.leavesExact_idle (dats m 0 c) 20 t (idle20 t hF) (noFlush20 t hF),
        Dat.leavesExact_idle (dats m 0 c) 21 t (idle21 t hF) (noFlush21 t hF)]
      rw [PhiS_pos m c _ _ hz, outsAt_pos m c t hz, stepOuts_mid m c t _ h0 h15]
      iintro ⟨⟨HS0, HS1, HS2, HS3⟩, Ho, H0, H1, H2, H3, H4, H5, H6, H7, H8, H9, H10, H11, H12, H13, H14, H15, H16, H17, H18, H19, ⟨%d20, H20⟩, ⟨%d21, H21⟩⟩
      iapply ((runB c (grid0.coords t) (bufsAt t) hR hF (insAt m c t) (outsAt m c (t.val - 1) (Nat.lt_of_le_of_lt (Nat.sub_le _ _) t.isLt)).s).2.2.2.2 _ _ Set.univ _)
      isplitl [H0 H1 H2 H3 H4 H5 H6 H7 H8 H9 H10 H11 H12 H13 H14 H15 H16 H17 H18 H19]
      · iapply (ins_intro m c t)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [H20]; · iexact H20
      isplitl [H21]; · iexact H21
      isplitl [HS0]; · iexact HS0
      isplitl [HS1]; · iexact HS1
      isplitl [HS2]; · iexact HS2
      isplitl [HS3]; · iexact HS3
      iintro ⟨Hins, H20, H21, HS0, HS1, HS2, HS3⟩
      isplitl [HS0 HS1 HS2 HS3]
      · isplitl [HS0]; · iapply (owns_of_writes c scM0 _ (coverB0 c _ _ hR hF _ _)); iexact HS0
        isplitl [HS1]; · iapply (owns_of_writes c scM1 _ (coverB1 c _ _ hR hF _ _)); iexact HS1
        isplitl [HS2]; · iapply (owns_of_writes c scM2 _ (coverB2 c _ _ hR hF _ _)); iexact HS2
        iapply (owns_of_writes c scM3 _ (coverB3 c _ _ hR hF _ _)); iexact HS3
      isplitl [Ho]; · iexact Ho
      ihave Hins' := (ins_elim m c t) $$ Hins
      icases Hins' with ⟨H0, H1, H2, H3, H4, H5, H6, H7, H8, H9, H10, H11, H12, H13, H14, H15, H16, H17, H18, H19⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      iexists _; iexact H21

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The launch of `KernelIdeal`'s one pallas_call and what it leaves in the arrays.

  The call's twenty input windows read eight arrays: the two weight matrices and the two bias vectors are each
  read by four windows, at four different column blocks. The launch hands the pipeline each array whole; a
  shared array's read permission is halved twice and a quarter given to each of its four windows. The
  accumulators' buffers are handed over at anything and taken back at anything. After the run every input array
  holds what it held (an input array is never written), and each output array holds what the write-backs made of it.
-/
import proofs.«122265_j12180527251605_1_alg».proof.Proof.KI.Data
import Idealize.ShloMosaic.Lib.Pipeline.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- What the launch hands the region is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the accumulators' buffers back, their contents forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_eq]
  iintro ⟨H0, H1, H2, H3⟩
  isplitr; · iempintro
  isplitl [H0]; · iexists _; iexact H0
  isplitl [H1]; · iexists _; iexact H1
  isplitl [H2]; · iexists _; iexact H2
  iexists _; iexact H3

/-- The ten distinct buffers behind the windows' arrays, one by one. -/
theorem arrBufs_eq (c : Dev nD) :
    (Pipeline.arrBufs spec0 c (V m c) : sProp 𝕄)
      = iprop(((c : Thread nD τ).loc main_arg1 ↦{fullShare} V m c main_arg1)
          ∗ ((c : Thread nD τ).loc main_arg3 ↦{fullShare} V m c main_arg3)
          ∗ ((c : Thread nD τ).loc main_arg4 ↦{fullShare} V m c main_arg4)
          ∗ ((c : Thread nD τ).loc main_arg6 ↦{fullShare} V m c main_arg6)
          ∗ ((c : Thread nD τ).loc main_arg5 ↦{fullShare} V m c main_arg5)
          ∗ ((c : Thread nD τ).loc main_arg7 ↦{fullShare} V m c main_arg7)
          ∗ ((c : Thread nD τ).loc main_arg0 ↦{fullShare} V m c main_arg0)
          ∗ ((c : Thread nD τ).loc main_arg2 ↦{fullShare} V m c main_arg2)
          ∗ ((c : Thread nD τ).loc main_v0_0 ↦{fullShare} V m c main_v0_0)
          ∗ ((c : Thread nD τ).loc main_v0_1 ↦{fullShare} V m c main_v0_1)) := by
  unfold Pipeline.arrBufs
  exact Idealize.SL.BI.bigSep_eq_bigSepL_of_eq [main_arg1, main_arg3, main_arg4, main_arg6, main_arg5, main_arg7, main_arg0, main_arg2, main_v0_0, main_v0_1] (by decide) (by decide) _

/-- Window by window: the array's buffer at the window's share is the pipeline's holding of that window's array (a
    whole array's elements are all of the buffer's). -/
theorem arr_0 (c : Dev nD) :
    (((c : Thread nD τ).loc main_arg1 ↦{fullShare} V m c main_arg1) : sProp 𝕄)
      ⊢ ((cfg0.win 0).arr.view.loc (c : Thread nD τ) ↦[(cfg0.win 0).arr.view.set]{(dats m 0 c).share 0} (dats m 0 c).arrAt 0 0) := by
  rw [(arr_whole0 0).set_eq_univ]
  exact Entails.of_eq rfl
theorem arr_1 (c : Dev nD) :
    (((c : Thread nD τ).loc main_arg3 ↦{fullShare} V m c main_arg3) : sProp 𝕄)
      ⊢ ((cfg0.win 1).arr.view.loc (c : Thread nD τ) ↦[(cfg0.win 1).arr.view.set]{(dats m 0 c).share 1} (dats m 0 c).arrAt 1 0) := by
  rw [(arr_whole0 1).set_eq_univ]
  exact Entails.of_eq rfl
theorem arr_2 (c : Dev nD) :
    (((c : Thread nD τ).loc main_arg4 ↦{fullShare.left.left} V m c main_arg4) : sProp 𝕄)
      ⊢ ((cfg0.win 2).arr.view.loc (c : Thread nD τ) ↦[(cfg0.win 2).arr.view.set]{(dats m 0 c).share 2} (dats m 0 c).arrAt 2 0) := by
  rw [(arr_whole0 2).set_eq_univ]
  exact Entails.of_eq rfl
theorem arr_3 (c : Dev nD) :
    (((c : Thread nD τ).loc main_arg4 ↦{fullShare.left.right} V m c main_arg4) : sProp 𝕄)
      ⊢ ((cfg0.win 3).arr.view.loc (c : Thread nD τ) ↦[(cfg0.win 3).arr.view.set]{(dats m 0 c).share 3} (dats m 0 c).arrAt 3 0) := by
  rw [(arr_whole0 3).set_eq_univ]
  exact Entails.of_eq rfl
theorem arr_4 (c : Dev nD) :
    (((c : Thread nD τ).loc main_arg4 ↦{fullShare.right.left} V m c main_arg4) : sProp 𝕄)
      ⊢ ((cfg0.win 4).arr.view.loc (c : Thread nD τ) ↦[(cfg0.win 4).arr.view.set]{(dats m 0 c).share 4} (dats m 0 c).arrAt 4 0) := by
  rw [(arr_whole0 4).set_eq_univ]
  exact Entails.of_eq rfl
theorem arr_5 (c : Dev nD) :
    (((c : Thread nD τ).loc main_arg4 ↦{fullShare.right.right} V m c main_arg4) : sProp 𝕄)
      ⊢ ((cfg0.win 5).arr.view.loc (c : Thread nD τ) ↦[(cfg0.win 5).arr.view.set]{(dats m 0 c).share 5} (dats m 0 c).arrAt 5 0) := by
  rw [(arr_whole0 5).set_eq_univ]
  exact Entails.of_eq rfl
theorem arr_6 (c : Dev nD) :
    (((c : Thread nD τ).loc main_arg6 ↦{fullShare.left.left} V m c main_arg6) : sProp 𝕄)
      ⊢ ((cfg0.win 6).arr.view.loc (c : Thread nD τ) ↦[(cfg0.win 6).arr.view.set]{(dats m 0 c).share 6} (dats m 0 c).arrAt 6 0) := by
  rw [(arr_whole0 6).set_eq_univ]
  exact Entails.of_eq rfl
theorem arr_7 (c : Dev nD) :
    (((c : Thread nD τ).loc main_arg6 ↦{fullShare.left.right} V m c main_arg6) : sProp 𝕄)
      ⊢ ((cfg0.win 7).arr.view.loc (c : Thread nD τ) ↦[(cfg0.win 7).arr.view.set]{(dats m 0 c).share 7} (dats m 0 c).arrAt 7 0) := by
  rw [(arr_whole0 7).set_eq_univ]
  exact Entails.of_eq rfl
theorem arr_8 (c : Dev nD) :
    (((c : Thread nD τ).loc main_arg6 ↦{fullShare.right.left} V m c main_arg6) : sProp 𝕄)
      ⊢ ((cfg0.win 8).arr.view.loc (c : Thread nD τ) ↦[(cfg0.win 8).arr.view.set]{(dats m 0 c).share 8} (dats m 0 c).arrAt 8 0) := by
  rw [(arr_whole0 8).set_eq_univ]
  exact Entails.of_eq rfl
theorem arr_9 (c : Dev nD) :
    (((c : Thread nD τ).loc main_arg6 ↦{fullShare.right.right} V m c main_arg6) : sProp 𝕄)
      ⊢ ((cfg0.win 9).arr.view.loc (c : Thread nD τ) ↦[(cfg0.win 9).arr.view.set]{(dats m 0 c).share 9} (dats m 0 c).arrAt 9 0) := by
  rw [(arr_whole0 9).set_eq_univ]
  exact Entails.of_eq rfl
theorem arr_10 (c : Dev nD) :
    (((c : Thread nD τ).loc main_arg5 ↦{fullShare.left.left} V m c main_arg5) : sProp 𝕄)
      ⊢ ((cfg0.win 10).arr.view.loc (c : Thread nD τ) ↦[(cfg0.win 10).arr.view.set]{(dats m 0 c).share 10} (dats m 0 c).arrAt 10 0) := by
  rw [(arr_whole0 10).set_eq_univ]
  exact Entails.of_eq rfl
theorem arr_11 (c : Dev nD) :
    (((c : Thread nD τ).loc main_arg5 ↦{fullShare.left.right} V m c main_arg5) : sProp 𝕄)
      ⊢ ((cfg0.win 11).arr.view.loc (c : Thread nD τ) ↦[(cfg0.win 11).arr.view.set]{(dats m 0 c).share 11} (dats m 0 c).arrAt 11 0) := by
  rw [(arr_whole0 11).set_eq_univ]
  exact Entails.of_eq rfl
theorem arr_12 (c : Dev nD) :
    (((c : Thread nD τ).loc main_arg5 ↦{fullShare.right.left} V m c main_arg5) : sProp 𝕄)
      ⊢ ((cfg0.win 12).arr.view.loc (c : Thread nD τ) ↦[(cfg0.win 12).arr.view.set]{(dats m 0 c).share 12} (dats m 0 c).arrAt 12 0) := by
  rw [(arr_whole0 12).set_eq_univ]
  exact Entails.of_eq rfl
theorem arr_13 (c : Dev nD) :
    (((c : Thread nD τ).loc main_arg5 ↦{fullShare.right.right} V m c main_arg5) : sProp 𝕄)
      ⊢ ((cfg0.win 13).arr.view.loc (c : Thread nD τ) ↦[(cfg0.win 13).arr.view.set]{(dats m 0 c).share 13} (dats m 0 c).arrAt 13 0) := by
  rw [(arr_whole0 13).set_eq_univ]
  exact Entails.of_eq rfl
theorem arr_14 (c : Dev nD) :
    (((c : Thread nD τ).loc main_arg7 ↦{fullShare.left.left} V m c main_arg7) : sProp 𝕄)
      ⊢ ((cfg0.win 14).arr.view.loc (c : Thread nD τ) ↦[(cfg0.win 14).arr.view.set]{(dats m 0 c).share 14} (dats m 0 c).arrAt 14 0) := by
  rw [(arr_whole0 14).set_eq_univ]
  exact Entails.of_eq rfl
theorem arr_15 (c : Dev nD) :
    (((c : Thread nD τ).loc main_arg7 ↦{fullShare.left.right} V m c main_arg7) : sProp 𝕄)
      ⊢ ((cfg0.win 15).arr.view.loc (c : Thread nD τ) ↦[(cfg0.win 15).arr.view.set]{(dats m 0 c).share 15} (dats m 0 c).arrAt 15 0) := by
  rw [(arr_whole0 15).set_eq_univ]
  exact Entails.of_eq rfl
theorem arr_16 (c : Dev nD) :
    (((c : Thread nD τ).loc main_arg7 ↦{fullShare.right.left} V m c main_arg7) : sProp 𝕄)
      ⊢ ((cfg0.win 16).arr.view.loc (c : Thread nD τ) ↦[(cfg0.win 16).arr.view.set]{(dats m 0 c).share 16} (dats m 0 c).arrAt 16 0) := by
  rw [(arr_whole0 16).set_eq_univ]
  exact Entails.of_eq rfl
theorem arr_17 (c : Dev nD) :
    (((c : Thread nD τ).loc main_arg7 ↦{fullShare.right.right} V m c main_arg7) : sProp 𝕄)
      ⊢ ((cfg0.win 17).arr.view.loc (c : Thread nD τ) ↦[(cfg0.win 17).arr.view.set]{(dats m 0 c).share 17} (dats m 0 c).arrAt 17 0) := by
  rw [(arr_whole0 17).set_eq_univ]
  exact Entails.of_eq rfl
theorem arr_18 (c : Dev nD) :
    (((c : Thread nD τ).loc main_arg0 ↦{fullShare} V m c main_arg0) : sProp 𝕄)
      ⊢ ((cfg0.win 18).arr.view.loc (c : Thread nD τ) ↦[(cfg0.win 18).arr.view.set]{(dats m 0 c).share 18} (dats m 0 c).arrAt 18 0) := by
  rw [(arr_whole0 18).set_eq_univ]
  exact Entails.of_eq rfl
theorem arr_19 (c : Dev nD) :
    (((c : Thread nD τ).loc main_arg2 ↦{fullShare} V m c main_arg2) : sProp 𝕄)
      ⊢ ((cfg0.win 19).arr.view.loc (c : Thread nD τ) ↦[(cfg0.win 19).arr.view.set]{(dats m 0 c).share 19} (dats m 0 c).arrAt 19 0) := by
  rw [(arr_whole0 19).set_eq_univ]
  exact Entails.of_eq rfl
theorem arr_20 (c : Dev nD) :
    (((c : Thread nD τ).loc main_v0_0 ↦{fullShare} V m c main_v0_0) : sProp 𝕄)
      ⊢ ((cfg0.win 20).arr.view.loc (c : Thread nD τ) ↦[(cfg0.win 20).arr.view.set]{(dats m 0 c).share 20} (dats m 0 c).arrAt 20 0) := by
  rw [(arr_whole0 20).set_eq_univ]
  exact Entails.of_eq rfl
theorem arr_21 (c : Dev nD) :
    (((c : Thread nD τ).loc main_v0_1 ↦{fullShare} V m c main_v0_1) : sProp 𝕄)
      ⊢ ((cfg0.win 21).arr.view.loc (c : Thread nD τ) ↦[(cfg0.win 21).arr.view.set]{(dats m 0 c).share 21} (dats m 0 c).arrAt 21 0) := by
  rw [(arr_whole0 21).set_eq_univ]
  exact Entails.of_eq rfl

/-- The ten buffers behind the windows' arrays, each whole, make the pipeline's arrays at entry: an array four
    windows read is dealt to them in quarters. -/
theorem hsplit (c : Dev nD) : Pipeline.arrBufs spec0 c (V m c) ⊢ (dats m 0 c).arrays ((dats m 0 c).arrAt · 0) := by
  rw [arrBufs_eq]
  unfold Dat.arrays
  rw [bigSep_W0]
  iintro ⟨A1, A3, A4, A6, A5, A7, A0, A2, R0, R1⟩
  ihave S4 := (pointsTo_share (PosShare.mem_left_op_right fullShare)).1 $$ A4
  icases S4 with ⟨A4l, A4r⟩
  ihave S4l := (pointsTo_share (PosShare.mem_left_op_right fullShare.left)).1 $$ A4l
  icases S4l with ⟨A4ll, A4lr⟩
  ihave S4r := (pointsTo_share (PosShare.mem_left_op_right fullShare.right)).1 $$ A4r
  icases S4r with ⟨A4rl, A4rr⟩
  ihave S6 := (pointsTo_share (PosShare.mem_left_op_right fullShare)).1 $$ A6
  icases S6 with ⟨A6l, A6r⟩
  ihave S6l := (pointsTo_share (PosShare.mem_left_op_right fullShare.left)).1 $$ A6l
  icases S6l with ⟨A6ll, A6lr⟩
  ihave S6r := (pointsTo_share (PosShare.mem_left_op_right fullShare.right)).1 $$ A6r
  icases S6r with ⟨A6rl, A6rr⟩
  ihave S5 := (pointsTo_share (PosShare.mem_left_op_right fullShare)).1 $$ A5
  icases S5 with ⟨A5l, A5r⟩
  ihave S5l := (pointsTo_share (PosShare.mem_left_op_right fullShare.left)).1 $$ A5l
  icases S5l with ⟨A5ll, A5lr⟩
  ihave S5r := (pointsTo_share (PosShare.mem_left_op_right fullShare.right)).1 $$ A5r
  icases S5r with ⟨A5rl, A5rr⟩
  ihave S7 := (pointsTo_share (PosShare.mem_left_op_right fullShare)).1 $$ A7
  icases S7 with ⟨A7l, A7r⟩
  ihave S7l := (pointsTo_share (PosShare.mem_left_op_right fullShare.left)).1 $$ A7l
  icases S7l with ⟨A7ll, A7lr⟩
  ihave S7r := (pointsTo_share (PosShare.mem_left_op_right fullShare.right)).1 $$ A7r
  icases S7r with ⟨A7rl, A7rr⟩
  isplitl [A1]; · iapply (arr_0 m c); iexact A1
  isplitl [A3]; · iapply (arr_1 m c); iexact A3
  isplitl [A4ll]; · iapply (arr_2 m c); iexact A4ll
  isplitl [A4lr]; · iapply (arr_3 m c); iexact A4lr
  isplitl [A4rl]; · iapply (arr_4 m c); iexact A4rl
  isplitl [A4rr]; · iapply (arr_5 m c); iexact A4rr
  isplitl [A6ll]; · iapply (arr_6 m c); iexact A6ll
  isplitl [A6lr]; · iapply (arr_7 m c); iexact A6lr
  isplitl [A6rl]; · iapply (arr_8 m c); iexact A6rl
  isplitl [A6rr]; · iapply (arr_9 m c); iexact A6rr
  isplitl [A5ll]; · iapply (arr_10 m c); iexact A5ll
  isplitl [A5lr]; · iapply (arr_11 m c); iexact A5lr
  isplitl [A5rl]; · iapply (arr_12 m c); iexact A5rl
  isplitl [A5rr]; · iapply (arr_13 m c); iexact A5rr
  isplitl [A7ll]; · iapply (arr_14 m c); iexact A7ll
  isplitl [A7lr]; · iapply (arr_15 m c); iexact A7lr
  isplitl [A7rl]; · iapply (arr_16 m c); iexact A7rl
  isplitl [A7rr]; · iapply (arr_17 m c); iexact A7rr
  isplitl [A0]; · iapply (arr_18 m c); iexact A0
  isplitl [A2]; · iapply (arr_19 m c); iexact A2
  isplitl [R0]; · iapply (arr_20 m c); iexact R0
  iapply (arr_21 m c); iexact R1

/-- The physical post: every array of the call holds what the library computes it holds after the last write-back. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any values, from any memory with zero counters: given the body obligation, every weakly
    fair execution of @main terminates, and every final state has each array of the call at the computed contents. -/
theorem run_main (hbody : ∀ c, BodyObligationLoose (dats m 0 c) (defs₀ (F := F)) Variants.none () Set.univ) :
    θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := hbody) (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-! ## The input arrays after the run: what they held -/

theorem final_in_0 (c : Dev nD) : (dats m 0 c).arrAt 0 cfg0.N = m ((c : Thread nD τ).loc main_arg1) :=
  (dats (F := F) m 0 c).arrAt_in 0 rfl _
theorem final_in_1 (c : Dev nD) : (dats m 0 c).arrAt 1 cfg0.N = m ((c : Thread nD τ).loc main_arg3) :=
  (dats (F := F) m 0 c).arrAt_in 1 rfl _
theorem final_in_2 (c : Dev nD) : (dats m 0 c).arrAt 2 cfg0.N = m ((c : Thread nD τ).loc main_arg4) :=
  (dats (F := F) m 0 c).arrAt_in 2 rfl _
theorem final_in_3 (c : Dev nD) : (dats m 0 c).arrAt 3 cfg0.N = m ((c : Thread nD τ).loc main_arg4) :=
  (dats (F := F) m 0 c).arrAt_in 3 rfl _
theorem final_in_4 (c : Dev nD) : (dats m 0 c).arrAt 4 cfg0.N = m ((c : Thread nD τ).loc main_arg4) :=
  (dats (F := F) m 0 c).arrAt_in 4 rfl _
theorem final_in_5 (c : Dev nD) : (dats m 0 c).arrAt 5 cfg0.N = m ((c : Thread nD τ).loc main_arg4) :=
  (dats (F := F) m 0 c).arrAt_in 5 rfl _
theorem final_in_6 (c : Dev nD) : (dats m 0 c).arrAt 6 cfg0.N = m ((c : Thread nD τ).loc main_arg6) :=
  (dats (F := F) m 0 c).arrAt_in 6 rfl _
theorem final_in_7 (c : Dev nD) : (dats m 0 c).arrAt 7 cfg0.N = m ((c : Thread nD τ).loc main_arg6) :=
  (dats (F := F) m 0 c).arrAt_in 7 rfl _
theorem final_in_8 (c : Dev nD) : (dats m 0 c).arrAt 8 cfg0.N = m ((c : Thread nD τ).loc main_arg6) :=
  (dats (F := F) m 0 c).arrAt_in 8 rfl _
theorem final_in_9 (c : Dev nD) : (dats m 0 c).arrAt 9 cfg0.N = m ((c : Thread nD τ).loc main_arg6) :=
  (dats (F := F) m 0 c).arrAt_in 9 rfl _
theorem final_in_10 (c : Dev nD) : (dats m 0 c).arrAt 10 cfg0.N = m ((c : Thread nD τ).loc main_arg5) :=
  (dats (F := F) m 0 c).arrAt_in 10 rfl _
theorem final_in_11 (c : Dev nD) : (dats m 0 c).arrAt 11 cfg0.N = m ((c : Thread nD τ).loc main_arg5) :=
  (dats (F := F) m 0 c).arrAt_in 11 rfl _
theorem final_in_12 (c : Dev nD) : (dats m 0 c).arrAt 12 cfg0.N = m ((c : Thread nD τ).loc main_arg5) :=
  (dats (F := F) m 0 c).arrAt_in 12 rfl _
theorem final_in_13 (c : Dev nD) : (dats m 0 c).arrAt 13 cfg0.N = m ((c : Thread nD τ).loc main_arg5) :=
  (dats (F := F) m 0 c).arrAt_in 13 rfl _
theorem final_in_14 (c : Dev nD) : (dats m 0 c).arrAt 14 cfg0.N = m ((c : Thread nD τ).loc main_arg7) :=
  (dats (F := F) m 0 c).arrAt_in 14 rfl _
theorem final_in_15 (c : Dev nD) : (dats m 0 c).arrAt 15 cfg0.N = m ((c : Thread nD τ).loc main_arg7) :=
  (dats (F := F) m 0 c).arrAt_in 15 rfl _
theorem final_in_16 (c : Dev nD) : (dats m 0 c).arrAt 16 cfg0.N = m ((c : Thread nD τ).loc main_arg7) :=
  (dats (F := F) m 0 c).arrAt_in 16 rfl _
theorem final_in_17 (c : Dev nD) : (dats m 0 c).arrAt 17 cfg0.N = m ((c : Thread nD τ).loc main_arg7) :=
  (dats (F := F) m 0 c).arrAt_in 17 rfl _
theorem final_in_18 (c : Dev nD) : (dats m 0 c).arrAt 18 cfg0.N = m ((c : Thread nD τ).loc main_arg0) :=
  (dats (F := F) m 0 c).arrAt_in 18 rfl _
theorem final_in_19 (c : Dev nD) : (dats m 0 c).arrAt 19 cfg0.N = m ((c : Thread nD τ).loc main_arg2) :=
  (dats (F := F) m 0 c).arrAt_in 19 rfl _

/-- THE FRAME from the run: the eight argument arrays end unchanged. -/
theorem frame_of_run (h : θ_run defs (onTc (τ := τ) (main (F := F))) ⟨m, fun _ => 0, ρ⟩ (QC m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c 18).trans (final_in_18 m c), (h c 0).trans (final_in_0 m c), (h c 19).trans (final_in_19 m c),
     (h c 1).trans (final_in_1 m c), (h c 2).trans (final_in_2 m c), (h c 10).trans (final_in_10 m c),
     (h c 6).trans (final_in_6 m c), (h c 14).trans (final_in_14 m c)⟩) h

end Cert.KernelIdeal.Fr

end
-- ==== Proof.KI.Pieces.lean ====
/-
  What each case of the body leaves, as the body's own arithmetic of what it loaded.

  Every load and store of the body is of a whole buffer, so a buffer's contents after the body are the payload of
  the last store into it, and a load after a store reads that store's payload. At a first chunk an accumulator is
  the one-chunk update of the zero block; at the other chunks of what it held; at a last chunk the outputs are the
  gate arithmetic of the four updated accumulators, the bias blocks and the children's cell-state blocks.
-/
import proofs.«122265_j12180527251605_1_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- An accumulator after one more chunk, from contents `s`: gate 0 … gate 3 (the body's own four store payloads). -/
def nacc0 (X : Ins F) (s : Vec F S1024x512 .f32) : Vec F S1024x512 .f32 := k0_pay15 X.x3 X.x4 s X.x5 X.x9
def nacc1 (X : Ins F) (s : Vec F S1024x512 .f32) : Vec F S1024x512 .f32 := k0_pay1 (k0_pay16 X.x3 X.x4 s X.x6 X.x10)
def nacc2 (X : Ins F) (s : Vec F S1024x512 .f32) : Vec F S1024x512 .f32 := k0_pay2 (k0_pay13 X.x3) (k0_pay14 X.x4) s X.x7 X.x11
def nacc3 (X : Ins F) (s : Vec F S1024x512 .f32) : Vec F S1024x512 .f32 := k0_pay3 (k0_pay13 X.x3) (k0_pay14 X.x4) s X.x8 X.x12

/-- The new cell state and hidden state from the four finished accumulators `n0 … n3`. -/
def cellOf (X : Ins F) (n0 n1 n2 n3 : Vec F S1024x512 .f32) : Vec F S1024x512 .f32 :=
  k0_pay4 (k0_pay6 n1 X.x14 X.x18) (k0_pay7 n2 X.x15 X.x19) (k0_pay8 n0 X.x13 X.x17 n3 X.x16 X.x20) X.x21 X.x22
def hidOf (X : Ins F) (n0 n1 n2 n3 : Vec F S1024x512 .f32) : Vec F S1024x512 .f32 :=
  k0_pay5 (k0_pay6 n1 X.x14 X.x18) (k0_pay7 n2 X.x15 X.x19) (k0_pay8 n0 X.x13 X.x17 n3 X.x16 X.x20) X.x21 X.x22

/-! ## A first chunk -/

theorem pieceA0 (c : Dev nD) (i : grid0.Coords) (B : Bufs) (hR : condR i) (hF : ¬condF i) (X : Ins F) :
    View.canon (runA (F := F) c i B hR hF X).1 = nacc0 X (k0_pay9 (F := F)) := by
  unfold runA
  dsimp only
  sl_unfold_words
  rw [View.canon_cons_unit_zero (S := S1024x512) hz2]
  unfold nacc0
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceA1 (c : Dev nD) (i : grid0.Coords) (B : Bufs) (hR : condR i) (hF : ¬condF i) (X : Ins F) :
    View.canon (runA (F := F) c i B hR hF X).2.1 = nacc1 X (k0_pay10 (F := F)) := by
  unfold runA
  dsimp only
  sl_unfold_words
  rw [View.canon_cons_unit_zero (S := S1024x512) hz2]
  unfold nacc1
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceA2 (c : Dev nD) (i : grid0.Coords) (B : Bufs) (hR : condR i) (hF : ¬condF i) (X : Ins F) :
    View.canon (runA (F := F) c i B hR hF X).2.2.1 = nacc2 X (k0_pay11 (F := F)) := by
  unfold runA
  dsimp only
  sl_unfold_words
  rw [View.canon_cons_unit_zero (S := S1024x512) hz2]
  unfold nacc2
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceA3 (c : Dev nD) (i : grid0.Coords) (B : Bufs) (hR : condR i) (hF : ¬condF i) (X : Ins F) :
    View.canon (runA (F := F) c i B hR hF X).2.2.2.1 = nacc3 X (k0_pay12 (F := F)) := by
  unfold runA
  dsimp only
  sl_unfold_words
  rw [View.canon_cons_unit_zero (S := S1024x512) hz2]
  unfold nacc3
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

/-! ## A middle chunk -/

theorem pieceB0 (c : Dev nD) (i : grid0.Coords) (B : Bufs) (hR : ¬condR i) (hF : ¬condF i) (X : Ins F) (S : Scr F) :
    View.canon (runB (F := F) c i B hR hF X S).1 = nacc0 X S.s0 := by
  unfold runB
  dsimp only
  sl_unfold_words
  rw [View.canon_unit_zero hz2]
  unfold nacc0
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceB1 (c : Dev nD) (i : grid0.Coords) (B : Bufs) (hR : ¬condR i) (hF : ¬condF i) (X : Ins F) (S : Scr F) :
    View.canon (runB (F := F) c i B hR hF X S).2.1 = nacc1 X S.s1 := by
  unfold runB
  dsimp only
  sl_unfold_words
  rw [View.canon_unit_zero hz2]
  unfold nacc1
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceB2 (c : Dev nD) (i : grid0.Coords) (B : Bufs) (hR : ¬condR i) (hF : ¬condF i) (X : Ins F) (S : Scr F) :
    View.canon (runB (F := F) c i B hR hF X S).2.2.1 = nacc2 X S.s2 := by
  unfold runB
  dsimp only
  sl_unfold_words
  rw [View.canon_unit_zero hz2]
  unfold nacc2
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceB3 (c : Dev nD) (i : grid0.Coords) (B : Bufs) (hR : ¬condR i) (hF : ¬condF i) (X : Ins F) (S : Scr F) :
    View.canon (runB (F := F) c i B hR hF X S).2.2.2.1 = nacc3 X S.s3 := by
  unfold runB
  dsimp only
  sl_unfold_words
  rw [View.canon_unit_zero hz2]
  unfold nacc3
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

/-! ## A last chunk -/

theorem pieceC0 (c : Dev nD) (i : grid0.Coords) (B : Bufs) (hR : ¬condR i) (hF : condF i) (X : Ins F) (S : Scr F) :
    View.canon (runC (F := F) c i B hR hF X S).2.2.1 = nacc0 X S.s0 := by
  unfold runC
  dsimp only
  sl_unfold_words
  rw [View.canon_unit_zero hz2]
  unfold nacc0
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceC1 (c : Dev nD) (i : grid0.Coords) (B : Bufs) (hR : ¬condR i) (hF : condF i) (X : Ins F) (S : Scr F) :
    View.canon (runC (F := F) c i B hR hF X S).2.2.2.1 = nacc1 X S.s1 := by
  unfold runC
  dsimp only
  sl_unfold_words
  rw [View.canon_unit_zero hz2]
  unfold nacc1
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceC2 (c : Dev nD) (i : grid0.Coords) (B : Bufs) (hR : ¬condR i) (hF : condF i) (X : Ins F) (S : Scr F) :
    View.canon (runC (F := F) c i B hR hF X S).2.2.2.2.1 = nacc2 X S.s2 := by
  unfold runC
  dsimp only
  sl_unfold_words
  rw [View.canon_unit_zero hz2]
  unfold nacc2
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceC3 (c : Dev nD) (i : grid0.Coords) (B : Bufs) (hR : ¬condR i) (hF : condF i) (X : Ins F) (S : Scr F) :
    View.canon (runC (F := F) c i B hR hF X S).2.2.2.2.2.1 = nacc3 X S.s3 := by
  unfold runC
  dsimp only
  sl_unfold_words
  rw [View.canon_unit_zero hz2]
  unfold nacc3
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceCcell (c : Dev nD) (i : grid0.Coords) (B : Bufs) (hR : ¬condR i) (hF : condF i) (X : Ins F) (S : Scr F) :
    View.canon (runC (F := F) c i B hR hF X S).1 = cellOf X (nacc0 X S.s0) (nacc1 X S.s1) (nacc2 X S.s2) (nacc3 X S.s3) := by
  unfold runC
  dsimp only
  sl_unfold_words
  rw [View.canon_unit_zero hz2]
  unfold cellOf nacc0 nacc1 nacc2 nacc3
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

theorem pieceChid (c : Dev nD) (i : grid0.Coords) (B : Bufs) (hR : ¬condR i) (hF : condF i) (X : Ins F) (S : Scr F) :
    View.canon (runC (F := F) c i B hR hF X S).2.1 = hidOf X (nacc0 X S.s0) (nacc1 X S.s1) (nacc2 X S.s2) (nacc3 X S.s3) := by
  unfold runC
  dsimp only
  sl_unfold_words
  rw [View.canon_unit_zero hz2]
  unfold hidOf nacc0 nacc1 nacc2 nacc3
  simp only [View.readAt_eq_ld, B.h3.read_unread, B.h4.read_unread, B.h5.read_unread, B.h6.read_unread, B.h7.read_unread, B.h8.read_unread, B.h9.read_unread, B.h10.read_unread, B.h11.read_unread, B.h12.read_unread, B.h13.read_unread, B.h14.read_unread, B.h15.read_unread, B.h16.read_unread, B.h17.read_unread, B.h18.read_unread, B.h19.read_unread, B.h20.read_unread, B.h21.read_unread, B.h22.read_unread, B.h25.read_unread, B.h26.read_unread, B.h27.read_unread, B.h28.read_unread, View.ld_unit_zero (S := S1024x512) hz2, View.ld_unit_zero (S := S1024x128) hz2, View.ld_unit_zero (S := S128x512) hz2, View.ld_unit_zero (S := S512) hz1, View.readCov_unit_zero (S := S1024x512) _ hz2]

end Cert.KernelIdeal.Fr

end
-- ==== Proof.KI.Payload.lean ====
import proofs.«122265_j12180527251605_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Cert.KernelIdeal Cert.KernelIdeal.Gen Idealize.ShloMosaic Idealize.ShloMosaic.ValueIdx
open scoped BigOperators

namespace Cert.KernelIdeal.Val

/-! ## One product of the kernel: a [1024,128] block against a [128,512] block

The kernel's dot contracts the second axis of the left operand against the first axis of the right operand; there are
no batch axes. So at output position (r, c) and contraction position j the left operand is read at (r, j) and the right
operand at (j, c). The four lemmas below say this one coordinate at a time. -/

theorem lhs_dot_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_dot_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_dot_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_dot_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- Accumulated into zero, the product at (r, c) is the plain sum over the 128 contraction positions. -/
theorem dot_zero_apply {φ₁ φ₂ : FTy} (x : FVec Ideal S1024x128 φ₁) (w : FVec Ideal S128x512 φ₂) (r : Fin 1024) (cc : Fin 512) :
    matmul dot_S1024x128_S128x512_S1024x512_1_0_0_1_n_n none x w (constant (F := Ideal) S1024x512 .f32 0x00000000#32) (ix2 r cc)
      = ∑ j : Fin 128, x (ix2 r j) * w (ix2 j cc) := by
  show FloatOps.matmul dot_S1024x128_S128x512_S1024x512_1_0_0_1_n_n none x w (constant (F := Ideal) S1024x512 .f32 0x00000000#32) (ix2 r cc) = _
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r cc) ((contrEquiv1 dot_S1024x128_S128x512_S1024x512_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S128x512_S1024x512_1_0_0_1_n_n.rhsIdx (ix2 r cc) ((contrEquiv1 dot_S1024x128_S128x512_S1024x512_1_0_0_1_n_n 128 rfl rfl).symm k) = ix2 k cc := funext fun a => Fin.ext (by
    match a with
    | ⟨0, _⟩ => exact (rhs_dot_0 _ _).trans hk
    | ⟨1, _⟩ => exact rhs_dot_1 _ _)
  rw [el, er]

/-- One accumulate step: the old contents plus the left child's chunk product plus the right child's. The operands
    pass through a narrowing to bf16, which on the extended reals is the identity. -/
theorem step_apply (a b : FVec Ideal S1024x128 .bf16) (s : Vec Ideal S1024x512 .f32) (wl wr : Vec Ideal S128x512 .f32)
    (r : Fin 1024) (cc : Fin 512) :
    addf s (addf (matmul dot_S1024x128_S128x512_S1024x512_1_0_0_1_n_n none a (truncf .bf16 wl bitsLt_bf16_f32) (constant (F := Ideal) S1024x512 .f32 0x00000000#32))
                 (matmul dot_S1024x128_S128x512_S1024x512_1_0_0_1_n_n none b (truncf .bf16 wr bitsLt_bf16_f32) (constant (F := Ideal) S1024x512 .f32 0x00000000#32))) (ix2 r cc)
      = s (ix2 r cc) + ((∑ j : Fin 128, a (ix2 r j) * wl (ix2 j cc)) + (∑ j : Fin 128, b (ix2 r j) * wr (ix2 j cc))) :=
  congrArg (s (ix2 r cc) + ·)
    (congrArg₂ (· + ·) (dot_zero_apply a (truncf .bf16 wl bitsLt_bf16_f32) r cc) (dot_zero_apply b (truncf .bf16 wr bitsLt_bf16_f32) r cc))

theorem pay15_apply (x3 x4 : Vec Ideal S1024x128 .f32) (s : Vec Ideal S1024x512 .f32) (wl wr : Vec Ideal S128x512 .f32)
    (r : Fin 1024) (cc : Fin 512) :
    k0_pay15 x3 x4 s wl wr (ix2 r cc)
      = s (ix2 r cc) + ((∑ j : Fin 128, x3 (ix2 r j) * wl (ix2 j cc)) + (∑ j : Fin 128, x4 (ix2 r j) * wr (ix2 j cc))) := by
  unfold k0_pay15
  refine (congrFun (shapeCast_self _ _) (ix2 r cc)).trans ?_
  exact step_apply (k0_pay13 x3) (k0_pay14 x4) s wl wr r cc

theorem pay1_16_apply (x3 x4 : Vec Ideal S1024x128 .f32) (s : Vec Ideal S1024x512 .f32) (wl wr : Vec Ideal S128x512 .f32)
    (r : Fin 1024) (cc : Fin 512) :
    k0_pay1 (k0_pay16 x3 x4 s wl wr) (ix2 r cc)
      = s (ix2 r cc) + ((∑ j : Fin 128, x3 (ix2 r j) * wl (ix2 j cc)) + (∑ j : Fin 128, x4 (ix2 r j) * wr (ix2 j cc))) := by
  unfold k0_pay1 k0_pay16
  refine (congrFun (shapeCast_self _ _) (ix2 r cc)).trans ?_
  exact step_apply (k0_pay13 x3) (k0_pay14 x4) s wl wr r cc

theorem pay2_apply (x3 x4 : Vec Ideal S1024x128 .f32) (s : Vec Ideal S1024x512 .f32) (wl wr : Vec Ideal S128x512 .f32)
    (r : Fin 1024) (cc : Fin 512) :
    k0_pay2 (k0_pay13 x3) (k0_pay14 x4) s wl wr (ix2 r cc)
      = s (ix2 r cc) + ((∑ j : Fin 128, x3 (ix2 r j) * wl (ix2 j cc)) + (∑ j : Fin 128, x4 (ix2 r j) * wr (ix2 j cc))) := by
  unfold k0_pay2
  refine (congrFun (shapeCast_self _ _) (ix2 r cc)).trans ?_
  exact step_apply (k0_pay13 x3) (k0_pay14 x4) s wl wr r cc

theorem pay3_apply (x3 x4 : Vec Ideal S1024x128 .f32) (s : Vec Ideal S1024x512 .f32) (wl wr : Vec Ideal S128x512 .f32)
    (r : Fin 1024) (cc : Fin 512) :
    k0_pay3 (k0_pay13 x3) (k0_pay14 x4) s wl wr (ix2 r cc)
      = s (ix2 r cc) + ((∑ j : Fin 128, x3 (ix2 r j) * wl (ix2 j cc)) + (∑ j : Fin 128, x4 (ix2 r j) * wr (ix2 j cc))) := by
  unfold k0_pay3
  refine (congrFun (shapeCast_self _ _) (ix2 r cc)).trans ?_
  exact step_apply (k0_pay13 x3) (k0_pay14 x4) s wl wr r cc

/-! ## The reset at the first chunk: the accumulators are set to zero -/

theorem pay9_apply (r : Fin 1024) (cc : Fin 512) : k0_pay9 (F := Ideal) (ix2 r cc) = 0 := by
  unfold k0_pay9
  refine (congrFun (shapeCast_self _ _) (ix2 r cc)).trans ?_
  exact Ideal.ofBits_zero_f32
theorem pay10_apply (r : Fin 1024) (cc : Fin 512) : k0_pay10 (F := Ideal) (ix2 r cc) = 0 := by
  unfold k0_pay10
  refine (congrFun (shapeCast_self _ _) (ix2 r cc)).trans ?_
  exact Ideal.ofBits_zero_f32
theorem pay11_apply (r : Fin 1024) (cc : Fin 512) : k0_pay11 (F := Ideal) (ix2 r cc) = 0 := by
  unfold k0_pay11
  refine (congrFun (shapeCast_self _ _) (ix2 r cc)).trans ?_
  exact Ideal.ofBits_zero_f32
theorem pay12_apply (r : Fin 1024) (cc : Fin 512) : k0_pay12 (F := Ideal) (ix2 r cc) = 0 := by
  unfold k0_pay12
  refine (congrFun (shapeCast_self _ _) (ix2 r cc)).trans ?_
  exact Ideal.ofBits_zero_f32

/-! ## The gates: accumulator plus the two biases, then the activation

A bias vector of 512 entries is given a leading axis of extent one and repeated down the 1024 rows, so at (r, c) it is
the vector's entry c. -/

/-- The bias as the kernel spreads it over the block, read at (r, c). -/
theorem bias_apply (b : Vec Ideal S512 .f32) (r : Fin 1024) (cc : Fin 512) :
    broadcastTo S1024x512 (shapeCast S1x512 b shapeCasts_S512_S1x512) broadcasts_S1x512_S1024x512 (ix2 r cc) = b (ix1 cc) :=
  (broadcastTo_1b_ab_apply _ broadcasts_S1x512_S1024x512 r cc).trans
    (shapeCast_a_1a_apply b shapeCasts_S512_S1x512 (0 : Fin 1) cc)

/-- A gate's pre-activation: the accumulator, then the left bias, then the right bias. -/
theorem pre_apply (s : Vec Ideal S1024x512 .f32) (b1 b2 : Vec Ideal S512 .f32) (r : Fin 1024) (cc : Fin 512) :
    addf (F := Ideal) (s := S1024x512) (φ := .f32)
         (addf (F := Ideal) (s := S1024x512) (φ := .f32) s
           (broadcastTo S1024x512 (shapeCast S1x512 b1 shapeCasts_S512_S1x512) broadcasts_S1x512_S1024x512))
         (broadcastTo S1024x512 (shapeCast S1x512 b2 shapeCasts_S512_S1x512) broadcasts_S1x512_S1024x512) (ix2 r cc)
      = (s (ix2 r cc) + b1 (ix1 cc)) + b2 (ix1 cc) :=
  congrArg₂ (· + ·) (congrArg (s (ix2 r cc) + ·) (bias_apply b1 r cc)) (bias_apply b2 r cc)

theorem pay6_apply (s : Vec Ideal S1024x512 .f32) (b1 b2 : Vec Ideal S512 .f32) (r : Fin 1024) (cc : Fin 512) :
    k0_pay6 s b1 b2 (ix2 r cc) = Ideal.logistic ((s (ix2 r cc) + b1 (ix1 cc)) + b2 (ix1 cc)) := by
  unfold k0_pay6
  exact congrArg Ideal.logistic (pre_apply s b1 b2 r cc)

theorem pay7_apply (s : Vec Ideal S1024x512 .f32) (b1 b2 : Vec Ideal S512 .f32) (r : Fin 1024) (cc : Fin 512) :
    k0_pay7 s b1 b2 (ix2 r cc) = Ideal.logistic ((s (ix2 r cc) + b1 (ix1 cc)) + b2 (ix1 cc)) := by
  unfold k0_pay7
  exact congrArg Ideal.logistic (pre_apply s b1 b2 r cc)

theorem pay8_apply (s0 : Vec Ideal S1024x512 .f32) (b13 b17 : Vec Ideal S512 .f32) (s3 : Vec Ideal S1024x512 .f32)
    (b16 b20 : Vec Ideal S512 .f32) (r : Fin 1024) (cc : Fin 512) :
    k0_pay8 s0 b13 b17 s3 b16 b20 (ix2 r cc)
      = Ideal.logistic ((s0 (ix2 r cc) + b13 (ix1 cc)) + b17 (ix1 cc)) * Ideal.tanh ((s3 (ix2 r cc) + b16 (ix1 cc)) + b20 (ix1 cc)) := by
  unfold k0_pay8
  exact congrArg₂ (· * ·) (congrArg Ideal.logistic (pre_apply s0 b13 b17 r cc)) (congrArg Ideal.tanh (pre_apply s3 b16 b20 r cc))

/-! ## The cell state and the hidden state -/

theorem pay4_apply (v77 v87 v98 v99 v102 : Vec Ideal S1024x512 .f32) (i : S1024x512.Idx) :
    k0_pay4 v77 v87 v98 v99 v102 i = (v98 i + v77 i * v99 i) + v87 i * v102 i := rfl

theorem pay5_apply (v77 v87 v98 v99 v102 : Vec Ideal S1024x512 .f32) (i : S1024x512.Idx) :
    k0_pay5 v77 v87 v98 v99 v102 i = Ideal.tanh (k0_pay4 v77 v87 v98 v99 v102 i) := rfl

end Cert.KernelIdeal.Val

end
-- ==== Proof.KI.Blocks.lean ====
/-
  Index arithmetic of the kernel's one pipelined call on the grid (4, 4, 16).

  A grid point t has coordinates (i, d, k) with t = (4 i + d) * 16 + k: i a block of 1024 rows, d a block of 512
  columns inside each of the four gate groups of 2048 columns, k a chunk of 128 along the contracted axis. Every
  window's block at a point, read at an index local to the block, is the window's array read at the global index
  "block index times block size plus local coordinate" on each axis; the block indices are (i, k) for the two
  activations, (k, 4 g + d) for gate g's weight block, 4 g + d for gate g's bias block, and (i, d) for the two
  cell-state inputs and the two outputs. The outputs are written back at the last chunk k = 15 only, and those
  write-backs' blocks tile the whole [4096, 2048] array, so an output that is block by block a function G of the
  global index ends the run holding G.
-/
import proofs.«122265_j12180527251605_1_alg».proof.Proof.Gen.KernelIdeal.Launch
import proofs.«122265_j12180527251605_1_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.ValueIdx

variable {F : FTy → Type} [FloatOps F]

/-! ## The coordinates of a grid point -/

/-- The row-block coordinate of a point. -/
def gi (t : Fin cfg0.N) : ℕ := (grid0.coords t 0).val
/-- The column-block coordinate of a point. -/
def gd (t : Fin cfg0.N) : ℕ := (grid0.coords t 1).val
/-- The chunk coordinate of a point. -/
def gk (t : Fin cfg0.N) : ℕ := (grid0.coords t 2).val

/-- The coordinates are the digits of the point's number in the mixed radix (4, 4, 16). -/
theorem g_bounds : ∀ t : Fin cfg0.N, gi t < 4 ∧ gd t < 4 ∧ gk t < 16 ∧ t.val = (4 * gi t + gd t) * 16 + gk t :=
  (by decide +kernel : ∀ t : Fin grid0.N, _)

/-- The chunk coordinate is the point's number modulo 16. -/
theorem gk_eq (t : Fin cfg0.N) : gk t = t.val % 16 := by
  have := g_bounds t; omega

/-- The point before a point that is not a first chunk has the same row and column blocks and the chunk before. -/
theorem g_pred (t : Fin cfg0.N) (h : t.val % 16 ≠ 0) (hlt : t.val - 1 < cfg0.N) :
    gi ⟨t.val - 1, hlt⟩ = gi t ∧ gd ⟨t.val - 1, hlt⟩ = gd t ∧ gk ⟨t.val - 1, hlt⟩ + 1 = gk t := by
  obtain ⟨a0, a1, a2, a3⟩ := g_bounds t
  obtain ⟨b0, b1, b2, b3⟩ := g_bounds ⟨t.val - 1, hlt⟩
  have b3' : t.val - 1 = (4 * gi ⟨t.val - 1, hlt⟩ + gd ⟨t.val - 1, hlt⟩) * 16 + gk ⟨t.val - 1, hlt⟩ := b3
  omega

/-! ## The windows' block indices, decided over the 256 points -/

/-- The two activation windows sit at (row block, chunk). -/
theorem idx_act : ∀ t : Fin cfg0.N,
    win0_0.index t (0 : Fin 2) = gi t ∧ win0_0.index t (1 : Fin 2) = gk t
    ∧ win0_1.index t (0 : Fin 2) = gi t ∧ win0_1.index t (1 : Fin 2) = gk t :=
  (by decide +kernel : ∀ t : Fin grid0.N, _)

/-- Gate g's window of the left weight matrix sits at (chunk, 4 g + column block). -/
theorem idx_wl : ∀ t : Fin cfg0.N,
    win0_2.index t (0 : Fin 2) = gk t ∧ win0_2.index t (1 : Fin 2) = 4 * 0 + gd t
    ∧ win0_3.index t (0 : Fin 2) = gk t ∧ win0_3.index t (1 : Fin 2) = 4 * 1 + gd t
    ∧ win0_4.index t (0 : Fin 2) = gk t ∧ win0_4.index t (1 : Fin 2) = 4 * 2 + gd t
    ∧ win0_5.index t (0 : Fin 2) = gk t ∧ win0_5.index t (1 : Fin 2) = 4 * 3 + gd t :=
  (by decide +kernel : ∀ t : Fin grid0.N, _)

/-- Gate g's window of the right weight matrix likewise. -/
theorem idx_wr : ∀ t : Fin cfg0.N,
    win0_6.index t (0 : Fin 2) = gk t ∧ win0_6.index t (1 : Fin 2) = 4 * 0 + gd t
    ∧ win0_7.index t (0 : Fin 2) = gk t ∧ win0_7.index t (1 : Fin 2) = 4 * 1 + gd t
    ∧ win0_8.index t (0 : Fin 2) = gk t ∧ win0_8.index t (1 : Fin 2) = 4 * 2 + gd t
    ∧ win0_9.index t (0 : Fin 2) = gk t ∧ win0_9.index t (1 : Fin 2) = 4 * 3 + gd t :=
  (by decide +kernel : ∀ t : Fin grid0.N, _)

/-- Gate g's window of the left bias sits at 4 g + column block. -/
theorem idx_bl : ∀ t : Fin cfg0.N,
    win0_10.index t (0 : Fin 1) = 4 * 0 + gd t ∧ win0_11.index t (0 : Fin 1) = 4 * 1 + gd t
    ∧ win0_12.index t (0 : Fin 1) = 4 * 2 + gd t ∧ win0_13.index t (0 : Fin 1) = 4 * 3 + gd t :=
  (by decide +kernel : ∀ t : Fin grid0.N, _)

/-- Gate g's window of the right bias likewise. -/
theorem idx_br : ∀ t : Fin cfg0.N,
    win0_14.index t (0 : Fin 1) = 4 * 0 + gd t ∧ win0_15.index t (0 : Fin 1) = 4 * 1 + gd t
    ∧ win0_16.index t (0 : Fin 1) = 4 * 2 + gd t ∧ win0_17.index t (0 : Fin 1) = 4 * 3 + gd t :=
  (by decide +kernel : ∀ t : Fin grid0.N, _)

/-- The two cell-state inputs and the two outputs sit at (row block, column block). -/
theorem idx_io : ∀ t : Fin cfg0.N,
    win0_18.index t (0 : Fin 2) = gi t ∧ win0_18.index t (1 : Fin 2) = gd t
    ∧ win0_19.index t (0 : Fin 2) = gi t ∧ win0_19.index t (1 : Fin 2) = gd t
    ∧ win0_20.index t (0 : Fin 2) = gi t ∧ win0_20.index t (1 : Fin 2) = gd t
    ∧ win0_21.index t (0 : Fin 2) = gi t ∧ win0_21.index t (1 : Fin 2) = gd t :=
  (by decide +kernel : ∀ t : Fin grid0.N, _)

/-! ## The activations' blocks: rows 1024 i + r, contracted positions 128 k + j -/

theorem blk_0 (A : S4096x2048.Idx → Elt F .f32) (t : Fin cfg0.N) (r : Fin 1024) (j : Fin 128) :
    ((cfg0.win 0).blk t).view.read (Elt F) A (ix2 r j)
      = A (ix2 ⟨1024 * gi t + r.val, by have := g_bounds t; omega⟩ ⟨128 * gk t + j.val, by have := g_bounds t; omega⟩) := by
  obtain ⟨e0, e1, -, -⟩ := idx_act t
  show A (((cfg0.win 0).blk t).view.emb (ix2 r j)) = _
  refine congrArg A ?_
  funext a; apply Fin.ext
  match a with
  | ⟨0, _⟩ => show win0_0.index t (0 : Fin 2) * 1024 + 1 * r.val = 1024 * gi t + r.val; omega
  | ⟨1, _⟩ => show win0_0.index t (1 : Fin 2) * 128 + 1 * j.val = 128 * gk t + j.val; omega

theorem blk_1 (A : S4096x2048.Idx → Elt F .f32) (t : Fin cfg0.N) (r : Fin 1024) (j : Fin 128) :
    ((cfg0.win 1).blk t).view.read (Elt F) A (ix2 r j)
      = A (ix2 ⟨1024 * gi t + r.val, by have := g_bounds t; omega⟩ ⟨128 * gk t + j.val, by have := g_bounds t; omega⟩) := by
  obtain ⟨-, -, e0, e1⟩ := idx_act t
  show A (((cfg0.win 1).blk t).view.emb (ix2 r j)) = _
  refine congrArg A ?_
  funext a; apply Fin.ext
  match a with
  | ⟨0, _⟩ => show win0_1.index t (0 : Fin 2) * 1024 + 1 * r.val = 1024 * gi t + r.val; omega
  | ⟨1, _⟩ => show win0_1.index t (1 : Fin 2) * 128 + 1 * j.val = 128 * gk t + j.val; omega

/-! ## The weights' blocks: contracted positions 128 k + j, columns 2048 g + 512 d + cc -/

theorem blk_2 (A : S2048x8192.Idx → Elt F .f32) (t : Fin cfg0.N) (j : Fin 128) (cc : Fin 512) :
    ((cfg0.win 2).blk t).view.read (Elt F) A (ix2 j cc)
      = A (ix2 ⟨128 * gk t + j.val, by have := g_bounds t; omega⟩ ⟨2048 * 0 + 512 * gd t + cc.val, by have := g_bounds t; omega⟩) := by
  obtain ⟨e0, e1, -, -, -, -, -, -⟩ := idx_wl t
  show A (((cfg0.win 2).blk t).view.emb (ix2 j cc)) = _
  refine congrArg A ?_
  funext a; apply Fin.ext
  match a with
  | ⟨0, _⟩ => show win0_2.index t (0 : Fin 2) * 128 + 1 * j.val = 128 * gk t + j.val; omega
  | ⟨1, _⟩ => show win0_2.index t (1 : Fin 2) * 512 + 1 * cc.val = 2048 * 0 + 512 * gd t + cc.val; omega

theorem blk_3 (A : S2048x8192.Idx → Elt F .f32) (t : Fin cfg0.N) (j : Fin 128) (cc : Fin 512) :
    ((cfg0.win 3).blk t).view.read (Elt F) A (ix2 j cc)
      = A (ix2 ⟨128 * gk t + j.val, by have := g_bounds t; omega⟩ ⟨2048 * 1 + 512 * gd t + cc.val, by have := g_bounds t; omega⟩) := by
  obtain ⟨-, -, e0, e1, -, -, -, -⟩ := idx_wl t
  show A (((cfg0.win 3).blk t).view.emb (ix2 j cc)) = _
  refine congrArg A ?_
  funext a; apply Fin.ext
  match a with
  | ⟨0, _⟩ => show win0_3.index t (0 : Fin 2) * 128 + 1 * j.val = 128 * gk t + j.val; omega
  | ⟨1, _⟩ => show win0_3.index t (1 : Fin 2) * 512 + 1 * cc.val = 2048 * 1 + 512 * gd t + cc.val; omega

theorem blk_4 (A : S2048x8192.Idx → Elt F .f32) (t : Fin cfg0.N) (j : Fin 128) (cc : Fin 512) :
    ((cfg0.win 4).blk t).view.read (Elt F) A (ix2 j cc)
      = A (ix2 ⟨128 * gk t + j.val, by have := g_bounds t; omega⟩ ⟨2048 * 2 + 512 * gd t + cc.val, by have := g_bounds t; omega⟩) := by
  obtain ⟨-, -, -, -, e0, e1, -, -⟩ := idx_wl t
  show A (((cfg0.win 4).blk t).view.emb (ix2 j cc)) = _
  refine congrArg A ?_
  funext a; apply Fin.ext
  match a with
  | ⟨0, _⟩ => show win0_4.index t (0 : Fin 2) * 128 + 1 * j.val = 128 * gk t + j.val; omega
  | ⟨1, _⟩ => show win0_4.index t (1 : Fin 2) * 512 + 1 * cc.val = 2048 * 2 + 512 * gd t + cc.val; omega

theorem blk_5 (A : S2048x8192.Idx → Elt F .f32) (t : Fin cfg0.N) (j : Fin 128) (cc : Fin 512) :
    ((cfg0.win 5).blk t).view.read (Elt F) A (ix2 j cc)
      = A (ix2 ⟨128 * gk t + j.val, by have := g_bounds t; omega⟩ ⟨2048 * 3 + 512 * gd t + cc.val, by have := g_bounds t; omega⟩) := by
  obtain ⟨-, -, -, -, -, -, e0, e1⟩ := idx_wl t
  show A (((cfg0.win 5).blk t).view.emb (ix2 j cc)) = _
  refine congrArg A ?_
  funext a; apply Fin.ext
  match a with
  | ⟨0, _⟩ => show win0_5.index t (0 : Fin 2) * 128 + 1 * j.val = 128 * gk t + j.val; omega
  | ⟨1, _⟩ => show win0_5.index t (1 : Fin 2) * 512 + 1 * cc.val = 2048 * 3 + 512 * gd t + cc.val; omega

theorem blk_6 (A : S2048x8192.Idx → Elt F .f32) (t : Fin cfg0.N) (j : Fin 128) (cc : Fin 512) :
    ((cfg0.win 6).blk t).view.read (Elt F) A (ix2 j cc)
      = A (ix2 ⟨128 * gk t + j.val, by have := g_bounds t; omega⟩ ⟨2048 * 0 + 512 * gd t + cc.val, by have := g_bounds t; omega⟩) := by
  obtain ⟨e0, e1, -, -, -, -, -, -⟩ := idx_wr t
  show A (((cfg0.win 6).blk t).view.emb (ix2 j cc)) = _
  refine congrArg A ?_
  funext a; apply Fin.ext
  match a with
  | ⟨0, _⟩ => show win0_6.index t (0 : Fin 2) * 128 + 1 * j.val = 128 * gk t + j.val; omega
  | ⟨1, _⟩ => show win0_6.index t (1 : Fin 2) * 512 + 1 * cc.val = 2048 * 0 + 512 * gd t + cc.val; omega

theorem blk_7 (A : S2048x8192.Idx → Elt F .f32) (t : Fin cfg0.N) (j : Fin 128) (cc : Fin 512) :
    ((cfg0.win 7).blk t).view.read (Elt F) A (ix2 j cc)
      = A (ix2 ⟨128 * gk t + j.val, by have := g_bounds t; omega⟩ ⟨2048 * 1 + 512 * gd t + cc.val, by have := g_bounds t; omega⟩) := by
  obtain ⟨-, -, e0, e1, -, -, -, -⟩ := idx_wr t
  show A (((cfg0.win 7).blk t).view.emb (ix2 j cc)) = _
  refine congrArg A ?_
  funext a; apply Fin.ext
  match a with
  | ⟨0, _⟩ => show win0_7.index t (0 : Fin 2) * 128 + 1 * j.val = 128 * gk t + j.val; omega
  | ⟨1, _⟩ => show win0_7.index t (1 : Fin 2) * 512 + 1 * cc.val = 2048 * 1 + 512 * gd t + cc.val; omega

theorem blk_8 (A : S2048x8192.Idx → Elt F .f32) (t : Fin cfg0.N) (j : Fin 128) (cc : Fin 512) :
    ((cfg0.win 8).blk t).view.read (Elt F) A (ix2 j cc)
      = A (ix2 ⟨128 * gk t + j.val, by have := g_bounds t; omega⟩ ⟨2048 * 2 + 512 * gd t + cc.val, by have := g_bounds t; omega⟩) := by
  obtain ⟨-, -, -, -, e0, e1, -, -⟩ := idx_wr t
  show A (((cfg0.win 8).blk t).view.emb (ix2 j cc)) = _
  refine congrArg A ?_
  funext a; apply Fin.ext
  match a with
  | ⟨0, _⟩ => show win0_8.index t (0 : Fin 2) * 128 + 1 * j.val = 128 * gk t + j.val; omega
  | ⟨1, _⟩ => show win0_8.index t (1 : Fin 2) * 512 + 1 * cc.val = 2048 * 2 + 512 * gd t + cc.val; omega

theorem blk_9 (A : S2048x8192.Idx → Elt F .f32) (t : Fin cfg0.N) (j : Fin 128) (cc : Fin 512) :
    ((cfg0.win 9).blk t).view.read (Elt F) A (ix2 j cc)
      = A (ix2 ⟨128 * gk t + j.val, by have := g_bounds t; omega⟩ ⟨2048 * 3 + 512 * gd t + cc.val, by have := g_bounds t; omega⟩) := by
  obtain ⟨-, -, -, -, -, -, e0, e1⟩ := idx_wr t
  show A (((cfg0.win 9).blk t).view.emb (ix2 j cc)) = _
  refine congrArg A ?_
  funext a; apply Fin.ext
  match a with
  | ⟨0, _⟩ => show win0_9.index t (0 : Fin 2) * 128 + 1 * j.val = 128 * gk t + j.val; omega
  | ⟨1, _⟩ => show win0_9.index t (1 : Fin 2) * 512 + 1 * cc.val = 2048 * 3 + 512 * gd t + cc.val; omega

/-! ## The biases' blocks: columns 2048 g + 512 d + cc -/

theorem blk_10 (A : S8192.Idx → Elt F .f32) (t : Fin cfg0.N) (cc : Fin 512) :
    ((cfg0.win 10).blk t).view.read (Elt F) A (ix1 cc)
      = A (ix1 ⟨2048 * 0 + 512 * gd t + cc.val, by have := g_bounds t; omega⟩) := by
  obtain ⟨e0, -, -, -⟩ := idx_bl t
  show A (((cfg0.win 10).blk t).view.emb (ix1 cc)) = _
  refine congrArg A ?_
  funext a; apply Fin.ext
  match a with
  | ⟨0, _⟩ => show win0_10.index t (0 : Fin 1) * 512 + 1 * cc.val = 2048 * 0 + 512 * gd t + cc.val; omega

theorem blk_11 (A : S8192.Idx → Elt F .f32) (t : Fin cfg0.N) (cc : Fin 512) :
    ((cfg0.win 11).blk t).view.read (Elt F) A (ix1 cc)
      = A (ix1 ⟨2048 * 1 + 512 * gd t + cc.val, by have := g_bounds t; omega⟩) := by
  obtain ⟨-, e0, -, -⟩ := idx_bl t
  show A (((cfg0.win 11).blk t).view.emb (ix1 cc)) = _
  refine congrArg A ?_
  funext a; apply Fin.ext
  match a with
  | ⟨0, _⟩ => show win0_11.index t (0 : Fin 1) * 512 + 1 * cc.val = 2048 * 1 + 512 * gd t + cc.val; omega

theorem blk_12 (A : S8192.Idx → Elt F .f32) (t : Fin cfg0.N) (cc : Fin 512) :
    ((cfg0.win 12).blk t).view.read (Elt F) A (ix1 cc)
      = A (ix1 ⟨2048 * 2 + 512 * gd t + cc.val, by have := g_bounds t; omega⟩) := by
  obtain ⟨-, -, e0, -⟩ := idx_bl t
  show A (((cfg0.win 12).blk t).view.emb (ix1 cc)) = _
  refine congrArg A ?_
  funext a; apply Fin.ext
  match a with
  | ⟨0, _⟩ => show win0_12.index t (0 : Fin 1) * 512 + 1 * cc.val = 2048 * 2 + 512 * gd t + cc.val; omega

theorem blk_13 (A : S8192.Idx → Elt F .f32) (t : Fin cfg0.N) (cc : Fin 512) :
    ((cfg0.win 13).blk t).view.read (Elt F) A (ix1 cc)
      = A (ix1 ⟨2048 * 3 + 512 * gd t + cc.val, by have := g_bounds t; omega⟩) := by
  obtain ⟨-, -, -, e0⟩ := idx_bl t
  show A (((cfg0.win 13).blk t).view.emb (ix1 cc)) = _
  refine congrArg A ?_
  funext a; apply Fin.ext
  match a with
  | ⟨0, _⟩ => show win0_13.index t (0 : Fin 1) * 512 + 1 * cc.val = 2048 * 3 + 512 * gd t + cc.val; omega

theorem blk_14 (A : S8192.Idx → Elt F .f32) (t : Fin cfg0.N) (cc : Fin 512) :
    ((cfg0.win 14).blk t).view.read (Elt F) A (ix1 cc)
      = A (ix1 ⟨2048 * 0 + 512 * gd t + cc.val, by have := g_bounds t; omega⟩) := by
  obtain ⟨e0, -, -, -⟩ := idx_br t
  show A (((cfg0.win 14).blk t).view.emb (ix1 cc)) = _
  refine congrArg A ?_
  funext a; apply Fin.ext
  match a with
  | ⟨0, _⟩ => show win0_14.index t (0 : Fin 1) * 512 + 1 * cc.val = 2048 * 0 + 512 * gd t + cc.val; omega

theorem blk_15 (A : S8192.Idx → Elt F .f32) (t : Fin cfg0.N) (cc : Fin 512) :
    ((cfg0.win 15).blk t).view.read (Elt F) A (ix1 cc)
      = A (ix1 ⟨2048 * 1 + 512 * gd t + cc.val, by have := g_bounds t; omega⟩) := by
  obtain ⟨-, e0, -, -⟩ := idx_br t
  show A (((cfg0.win 15).blk t).view.emb (ix1 cc)) = _
  refine congrArg A ?_
  funext a; apply Fin.ext
  match a with
  | ⟨0, _⟩ => show win0_15.index t (0 : Fin 1) * 512 + 1 * cc.val = 2048 * 1 + 512 * gd t + cc.val; omega

theorem blk_16 (A : S8192.Idx → Elt F .f32) (t : Fin cfg0.N) (cc : Fin 512) :
    ((cfg0.win 16).blk t).view.read (Elt F) A (ix1 cc)
      = A (ix1 ⟨2048 * 2 + 512 * gd t + cc.val, by have := g_bounds t; omega⟩) := by
  obtain ⟨-, -, e0, -⟩ := idx_br t
  show A (((cfg0.win 16).blk t).view.emb (ix1 cc)) = _
  refine congrArg A ?_
  funext a; apply Fin.ext
  match a with
  | ⟨0, _⟩ => show win0_16.index t (0 : Fin 1) * 512 + 1 * cc.val = 2048 * 2 + 512 * gd t + cc.val; omega

theorem blk_17 (A : S8192.Idx → Elt F .f32) (t : Fin cfg0.N) (cc : Fin 512) :
    ((cfg0.win 17).blk t).view.read (Elt F) A (ix1 cc)
      = A (ix1 ⟨2048 * 3 + 512 * gd t + cc.val, by have := g_bounds t; omega⟩) := by
  obtain ⟨-, -, -, e0⟩ := idx_br t
  show A (((cfg0.win 17).blk t).view.emb (ix1 cc)) = _
  refine congrArg A ?_
  funext a; apply Fin.ext
  match a with
  | ⟨0, _⟩ => show win0_17.index t (0 : Fin 1) * 512 + 1 * cc.val = 2048 * 3 + 512 * gd t + cc.val; omega

/-! ## The cell-state inputs' and the outputs' blocks: rows 1024 i + r, columns 512 d + cc -/

theorem blk_18 (A : S4096x2048.Idx → Elt F .f32) (t : Fin cfg0.N) (r : Fin 1024) (cc : Fin 512) :
    ((cfg0.win 18).blk t).view.read (Elt F) A (ix2 r cc)
      = A (ix2 ⟨1024 * gi t + r.val, by have := g_bounds t; omega⟩ ⟨512 * gd t + cc.val, by have := g_bounds t; omega⟩) := by
  obtain ⟨e0, e1, -, -, -, -, -, -⟩ := idx_io t
  show A (((cfg0.win 18).blk t).view.emb (ix2 r cc)) = _
  refine congrArg A ?_
  funext a; apply Fin.ext
  match a with
  | ⟨0, _⟩ => show win0_18.index t (0 : Fin 2) * 1024 + 1 * r.val = 1024 * gi t + r.val; omega
  | ⟨1, _⟩ => show win0_18.index t (1 : Fin 2) * 512 + 1 * cc.val = 512 * gd t + cc.val; omega

theorem blk_19 (A : S4096x2048.Idx → Elt F .f32) (t : Fin cfg0.N) (r : Fin 1024) (cc : Fin 512) :
    ((cfg0.win 19).blk t).view.read (Elt F) A (ix2 r cc)
      = A (ix2 ⟨1024 * gi t + r.val, by have := g_bounds t; omega⟩ ⟨512 * gd t + cc.val, by have := g_bounds t; omega⟩) := by
  obtain ⟨-, -, e0, e1, -, -, -, -⟩ := idx_io t
  show A (((cfg0.win 19).blk t).view.emb (ix2 r cc)) = _
  refine congrArg A ?_
  funext a; apply Fin.ext
  match a with
  | ⟨0, _⟩ => show win0_19.index t (0 : Fin 2) * 1024 + 1 * r.val = 1024 * gi t + r.val; omega
  | ⟨1, _⟩ => show win0_19.index t (1 : Fin 2) * 512 + 1 * cc.val = 512 * gd t + cc.val; omega

theorem blk_20 (A : S4096x2048.Idx → Elt F .f32) (t : Fin cfg0.N) (r : Fin 1024) (cc : Fin 512) :
    ((cfg0.win 20).blk t).view.read (Elt F) A (ix2 r cc)
      = A (ix2 ⟨1024 * gi t + r.val, by have := g_bounds t; omega⟩ ⟨512 * gd t + cc.val, by have := g_bounds t; omega⟩) := by
  obtain ⟨-, -, -, -, e0, e1, -, -⟩ := idx_io t
  show A (((cfg0.win 20).blk t).view.emb (ix2 r cc)) = _
  refine congrArg A ?_
  funext a; apply Fin.ext
  match a with
  | ⟨0, _⟩ => show win0_20.index t (0 : Fin 2) * 1024 + 1 * r.val = 1024 * gi t + r.val; omega
  | ⟨1, _⟩ => show win0_20.index t (1 : Fin 2) * 512 + 1 * cc.val = 512 * gd t + cc.val; omega

theorem blk_21 (A : S4096x2048.Idx → Elt F .f32) (t : Fin cfg0.N) (r : Fin 1024) (cc : Fin 512) :
    ((cfg0.win 21).blk t).view.read (Elt F) A (ix2 r cc)
      = A (ix2 ⟨1024 * gi t + r.val, by have := g_bounds t; omega⟩ ⟨512 * gd t + cc.val, by have := g_bounds t; omega⟩) := by
  obtain ⟨-, -, -, -, -, -, e0, e1⟩ := idx_io t
  show A (((cfg0.win 21).blk t).view.emb (ix2 r cc)) = _
  refine congrArg A ?_
  funext a; apply Fin.ext
  match a with
  | ⟨0, _⟩ => show win0_21.index t (0 : Fin 2) * 1024 + 1 * r.val = 1024 * gi t + r.val; omega
  | ⟨1, _⟩ => show win0_21.index t (1 : Fin 2) * 512 + 1 * cc.val = 512 * gd t + cc.val; omega

/-! ## The outputs: written back at the last chunk, and those blocks tile the array -/

/-- An output is written back exactly at the last chunk of each (row block, column block). -/
theorem flush_iff_20 (t : Fin cfg0.N) : (cfg0.win 20).flush t = true ↔ t.val % 16 = 15 := flush0_20 t
theorem flush_iff_21 (t : Fin cfg0.N) : (cfg0.win 21).flush t = true ↔ t.val % 16 = 15 := flush0_21 t

/-- An index of the array is in a point's output block iff each coordinate is in the block's range on its axis. -/
theorem mem_blk_20 (t : Fin cfg0.N) (i : S4096x2048.Idx) :
    i ∈ ((cfg0.win 20).blk t).view.set ↔ ∀ a : Fin 2, win0_20.index t a * S1024x512.size a ≤ (i a).val
      ∧ (i a).val < win0_20.index t a * S1024x512.size a + S1024x512.size a := by
  show i ∈ ((View.whole main_v0_0).slice (win0_20.rect t)).set ↔ _
  rw [View.set_slice_whole, Rect.mem_set_unit]
  exact Iff.rfl
theorem mem_blk_21 (t : Fin cfg0.N) (i : S4096x2048.Idx) :
    i ∈ ((cfg0.win 21).blk t).view.set ↔ ∀ a : Fin 2, win0_21.index t a * S1024x512.size a ≤ (i a).val
      ∧ (i a).val < win0_21.index t a * S1024x512.size a + S1024x512.size a := by
  show i ∈ ((View.whole main_v0_1).slice (win0_21.rect t)).set ↔ _
  rw [View.set_slice_whole, Rect.mem_set_unit]
  exact Iff.rfl

/-- The last-chunk point of the index's row block and column block. -/
theorem last_point (i : S4096x2048.Idx) :
    ∃ t : Fin cfg0.N, t.val % 16 = 15 ∧ gi t = (i 0).val / 1024 ∧ gd t = (i 1).val / 512 := by
  have hR : (i 0).val < 4096 := (i 0).isLt
  have hC : (i 1).val < 2048 := (i 1).isLt
  have hN : cfg0.N = 256 := N_0
  obtain ⟨t, ht⟩ : ∃ t : Fin cfg0.N, t.val = (4 * ((i 0).val / 1024) + (i 1).val / 512) * 16 + 15 :=
    ⟨⟨(4 * ((i 0).val / 1024) + (i 1).val / 512) * 16 + 15, by rw [hN]; omega⟩, rfl⟩
  obtain ⟨b0, b1, b2, b3⟩ := g_bounds t
  exact ⟨t, by omega, by omega, by omega⟩

/-- Every index of the first output lies in the block of a point that writes it back. -/
theorem cover_20 (i : S4096x2048.Idx) :
    ∃ t : Fin cfg0.N, (cfg0.win 20).flush t = true ∧ i ∈ ((cfg0.win 20).blk t).view.set := by
  have hR : (i 0).val < 4096 := (i 0).isLt
  have hC : (i 1).val < 2048 := (i 1).isLt
  obtain ⟨t, h15, hi, hd⟩ := last_point i
  obtain ⟨-, -, -, -, e0, e1, -, -⟩ := idx_io t
  refine ⟨t, (flush0_20 t).mpr h15, ?_⟩
  rw [mem_blk_20]
  intro a
  match a with
  | ⟨0, _⟩ => show win0_20.index t (0 : Fin 2) * 1024 ≤ (i 0).val ∧ (i 0).val < win0_20.index t (0 : Fin 2) * 1024 + 1024; omega
  | ⟨1, _⟩ => show win0_20.index t (1 : Fin 2) * 512 ≤ (i 1).val ∧ (i 1).val < win0_20.index t (1 : Fin 2) * 512 + 512; omega

/-- Every index of the second output lies in the block of a point that writes it back. -/
theorem cover_21 (i : S4096x2048.Idx) :
    ∃ t : Fin cfg0.N, (cfg0.win 21).flush t = true ∧ i ∈ ((cfg0.win 21).blk t).view.set := by
  have hR : (i 0).val < 4096 := (i 0).isLt
  have hC : (i 1).val < 2048 := (i 1).isLt
  obtain ⟨t, h15, hi, hd⟩ := last_point i
  obtain ⟨-, -, -, -, -, -, e0, e1⟩ := idx_io t
  refine ⟨t, (flush0_21 t).mpr h15, ?_⟩
  rw [mem_blk_21]
  intro a
  match a with
  | ⟨0, _⟩ => show win0_21.index t (0 : Fin 2) * 1024 ≤ (i 0).val ∧ (i 0).val < win0_21.index t (0 : Fin 2) * 1024 + 1024; omega
  | ⟨1, _⟩ => show win0_21.index t (1 : Fin 2) * 512 ≤ (i 1).val ∧ (i 1).val < win0_21.index t (1 : Fin 2) * 512 + 512; omega

/-! ## The closing step: block by block G at every last chunk, so the array ends holding G -/

/-- If what every last-chunk point writes back to the first output is, element by element, G at the element's
    global index, the first output's array ends the run holding G. -/
theorem final_20 {c : Dev nD} (dat : Pipeline.Dat τ (Elt F) Unit ℕ (UR sig nD τ) ℕ cfg0 c)
    (G : S4096x2048.Idx → Elt F .f32)
    (hG : ∀ t : Fin cfg0.N, t.val % 16 = 15 → ∀ (r : Fin 1024) (cc : Fin 512),
      dat.flushed 20 t (ix2 r cc)
        = G (ix2 ⟨1024 * gi t + r.val, by have := g_bounds t; omega⟩ ⟨512 * gd t + cc.val, by have := g_bounds t; omega⟩)) :
    dat.arrAt 20 cfg0.N = G :=
  Pipeline.Dat.arrAt_eq_of_cover dat 20 G
    (fun t hf => funext fun y => by
      rw [eq_ix2 y]
      exact (hG t ((flush0_20 t).mp hf) (y 0) (y 1)).trans (blk_20 G t (y 0) (y 1)).symm)
    cover_20

/-- The same for the second output. -/
theorem final_21 {c : Dev nD} (dat : Pipeline.Dat τ (Elt F) Unit ℕ (UR sig nD τ) ℕ cfg0 c)
    (G : S4096x2048.Idx → Elt F .f32)
    (hG : ∀ t : Fin cfg0.N, t.val % 16 = 15 → ∀ (r : Fin 1024) (cc : Fin 512),
      dat.flushed 21 t (ix2 r cc)
        = G (ix2 ⟨1024 * gi t + r.val, by have := g_bounds t; omega⟩ ⟨512 * gd t + cc.val, by have := g_bounds t; omega⟩)) :
    dat.arrAt 21 cfg0.N = G :=
  Pipeline.Dat.arrAt_eq_of_cover dat 21 G
    (fun t hf => funext fun y => by
      rw [eq_ix2 y]
      exact (hG t ((flush0_21 t).mp hf) (y 0) (y 1)).trans (blk_21 G t (y 0) (y 1)).symm)
    cover_21

end Cert.KernelIdeal.Val

end
-- ==== Proof.Spec.lean ====
/-
  The function both programs compute, index by index, on the extended reals.

  A binary-tree LSTM cell: with x·W a product contracted over 2048 positions, the four gate pre-activations are
  the columns [0, 2048), [2048, 4096), [4096, 6144), [6144, 8192) of  lh·Wl + bl + rh·Wr + br,  and

      c = σ(pre 0) · tanh(pre 3) + σ(pre 1) · lc + σ(pre 2) · rc,        h = tanh c.

  The contraction is written here as it is accumulated sixteen positions-chunks of 128 at a time, starting from
  zero: `acc (n+1) = acc n + (chunk of lh·Wl at n + chunk of rh·Wr at n)`. That a sum over 2048 positions is the
  sum of its sixteen chunks, and that the biases may be added in any order, is commutativity and associativity
  of addition on the extended reals; nothing here needs the inputs finite.
-/
import Idealize.ShloMosaic.PureOps.Ideal
import Idealize.ShloMosaic.Lib.ValueIdx

noncomputable section

open Idealize.ShloMosaic Idealize.ShloMosaic.ValueIdx
open scoped BigOperators

namespace Cert.Spec

/-- Activations [4096, 2048], fused weights [2048, 8192], fused biases [8192]. -/
abbrev SAct : Shape := ⟨2, ![4096, 2048]⟩
abbrev SWt : Shape := ⟨2, ![2048, 8192]⟩
abbrev SBias : Shape := ⟨1, ![8192]⟩

/-- Position `128·k + j` of the contraction (for `k < 16`; reduced mod 2048 so that it is total). -/
def kpos (k : ℕ) (j : Fin 128) : Fin 2048 := ⟨(128 * k + j.val) % 2048, Nat.mod_lt _ (by norm_num)⟩

/-- Column `col` of gate `g` in the fused layout: `2048·g + col`. -/
def gcol (g : Fin 4) (col : Fin 2048) : Fin 8192 := ⟨2048 * g.val + col.val, by have := g.isLt; have := col.isLt; omega⟩

theorem kpos_val (k : ℕ) (hk : k < 16) (j : Fin 128) : (kpos k j).val = 128 * k + j.val := by
  have := j.isLt
  exact Nat.mod_eq_of_lt (by omega)

theorem gcol_val (g : Fin 4) (col : Fin 2048) : (gcol g col).val = 2048 * g.val + col.val := rfl

variable (lc lh rc rh : SAct.Idx → EReal) (Wl Wr : SWt.Idx → EReal) (bl br : SBias.Idx → EReal)

/-- Chunk `k` of row `r` of `x` against column `col` of gate `g` of `W`: 128 products. -/
def chunk (x : SAct.Idx → EReal) (W : SWt.Idx → EReal) (g : Fin 4) (r : Fin 4096) (col : Fin 2048) (k : ℕ) : EReal :=
  ∑ j : Fin 128, x (ix2 r (kpos k j)) * W (ix2 (kpos k j) (gcol g col))

/-- The accumulator after `n` chunks, from zero: each step adds the left child's chunk plus the right child's. -/
def acc (g : Fin 4) (r : Fin 4096) (col : Fin 2048) : ℕ → EReal
  | 0 => 0
  | n + 1 => acc g r col n + (chunk lh Wl g r col n + chunk rh Wr g r col n)

/-- Gate `g`'s pre-activation: all sixteen chunks, then the left bias, then the right bias. -/
def pre (g : Fin 4) (r : Fin 4096) (col : Fin 2048) : EReal :=
  (acc lh rh Wl Wr g r col 16 + bl (ix1 (gcol g col))) + br (ix1 (gcol g col))

/-- The new cell state at row `r`, column `col`. -/
def cell (r : Fin 4096) (col : Fin 2048) : EReal :=
  (Ideal.logistic (pre lh rh Wl Wr bl br 0 r col) * Ideal.tanh (pre lh rh Wl Wr bl br 3 r col)
      + Ideal.logistic (pre lh rh Wl Wr bl br 1 r col) * lc (ix2 r col))
    + Ideal.logistic (pre lh rh Wl Wr bl br 2 r col) * rc (ix2 r col)

/-- The cell state as an array. -/
def Gc : SAct.Idx → EReal := fun i => cell lc lh rc rh Wl Wr bl br (i 0) (i 1)

/-- The hidden state as an array. -/
def Gh : SAct.Idx → EReal := fun i => Ideal.tanh (cell lc lh rc rh Wl Wr bl br (i 0) (i 1))

theorem Gc_apply (r : Fin 4096) (col : Fin 2048) :
    Gc lc lh rc rh Wl Wr bl br (ix2 r col) = cell lc lh rc rh Wl Wr bl br r col := rfl

theorem Gh_apply (r : Fin 4096) (col : Fin 2048) :
    Gh lc lh rc rh Wl Wr bl br (ix2 r col) = Ideal.tanh (cell lc lh rc rh Wl Wr bl br r col) := rfl

end Cert.Spec

end
-- ==== Proof.KI.Value.lean ====
/-
  The idealized kernel computes the specification.

  Induction over the grid's points, within each output block's sixteen chunks: after the point with chunk number
  k the accumulator of gate g holds, at row r and column cc of the block, the specification's accumulator after
  k + 1 chunks at the array's row 1024·i + r and column 512·d + cc (a first chunk resets it to zero and adds chunk
  0; every other chunk adds its own to what the point before left). At a last chunk the sixteen chunks are in,
  the bias blocks are the fused biases at the gate's columns, and the stored block is the specification's cell
  state (and its hyperbolic tangent) there. The write-backs of the last chunks tile both output arrays.
-/
import proofs.«122265_j12180527251605_1_alg».proof.Proof.KI.Body
import proofs.«122265_j12180527251605_1_alg».proof.Proof.KI.Launch
import proofs.«122265_j12180527251605_1_alg».proof.Proof.KI.Pieces
import proofs.«122265_j12180527251605_1_alg».proof.Proof.KI.Payload
import proofs.«122265_j12180527251605_1_alg».proof.Proof.KI.Blocks
import proofs.«122265_j12180527251605_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-! ## The argument arrays on a core, and a block's rows and columns in the arrays -/

abbrev aLc (c : Dev nD) : S4096x2048.Idx → EReal := m ((c : Thread nD τ).loc main_arg0)
abbrev aLh (c : Dev nD) : S4096x2048.Idx → EReal := m ((c : Thread nD τ).loc main_arg1)
abbrev aRc (c : Dev nD) : S4096x2048.Idx → EReal := m ((c : Thread nD τ).loc main_arg2)
abbrev aRh (c : Dev nD) : S4096x2048.Idx → EReal := m ((c : Thread nD τ).loc main_arg3)
abbrev aWl (c : Dev nD) : S2048x8192.Idx → EReal := m ((c : Thread nD τ).loc main_arg4)
abbrev aBl (c : Dev nD) : S8192.Idx → EReal := m ((c : Thread nD τ).loc main_arg5)
abbrev aWr (c : Dev nD) : S2048x8192.Idx → EReal := m ((c : Thread nD τ).loc main_arg6)
abbrev aBr (c : Dev nD) : S8192.Idx → EReal := m ((c : Thread nD τ).loc main_arg7)

set_option maxHeartbeats 2000000 in
/-- Row `r` of point `t`'s block is row `1024·i + r` of the array; column `cc` is column `512·d + cc`. -/
def R (t : Fin cfg0.N) (r : Fin 1024) : Fin 4096 := ⟨1024 * gi t + r.val, by have := g_bounds t; have := r.isLt; omega⟩
def C (t : Fin cfg0.N) (cc : Fin 512) : Fin 2048 := ⟨512 * gd t + cc.val, by have := g_bounds t; have := cc.isLt; omega⟩

/-- The specification's accumulator of gate `g`, on core `c`'s arrays. -/
abbrev accS (c : Dev nD) (g : Fin 4) (r : Fin 4096) (col : Fin 2048) (n : ℕ) : EReal :=
  Cert.Spec.acc (aLh m c) (aRh m c) (aWl m c) (aWr m c) g r col n

/-! ## Positions: a block's local positions in the arrays -/

theorem kpos_eq (t : Fin cfg0.N) (j : Fin 128) :
    Cert.Spec.kpos (gk t) j = ⟨128 * gk t + j.val, by have := g_bounds t; have := j.isLt; omega⟩ :=
  Fin.ext (Cert.Spec.kpos_val (gk t) (g_bounds t).2.2.1 j)

theorem gcol_eq0 (t : Fin cfg0.N) (cc : Fin 512) :
    Cert.Spec.gcol 0 (C t cc) = ⟨2048 * 0 + 512 * gd t + cc.val, by have := g_bounds t; have := cc.isLt; omega⟩ :=
  Fin.ext (show 2048 * 0 + (512 * gd t + cc.val) = 2048 * 0 + 512 * gd t + cc.val by omega)
theorem gcol_eq1 (t : Fin cfg0.N) (cc : Fin 512) :
    Cert.Spec.gcol 1 (C t cc) = ⟨2048 * 1 + 512 * gd t + cc.val, by have := g_bounds t; have := cc.isLt; omega⟩ :=
  Fin.ext (show 2048 * 1 + (512 * gd t + cc.val) = 2048 * 1 + 512 * gd t + cc.val by omega)
theorem gcol_eq2 (t : Fin cfg0.N) (cc : Fin 512) :
    Cert.Spec.gcol 2 (C t cc) = ⟨2048 * 2 + 512 * gd t + cc.val, by have := g_bounds t; have := cc.isLt; omega⟩ :=
  Fin.ext (show 2048 * 2 + (512 * gd t + cc.val) = 2048 * 2 + 512 * gd t + cc.val by omega)
theorem gcol_eq3 (t : Fin cfg0.N) (cc : Fin 512) :
    Cert.Spec.gcol 3 (C t cc) = ⟨2048 * 3 + 512 * gd t + cc.val, by have := g_bounds t; have := cc.isLt; omega⟩ :=
  Fin.ext (show 2048 * 3 + (512 * gd t + cc.val) = 2048 * 3 + 512 * gd t + cc.val by omega)

/-- The left child's hidden-state block against gate `g`'s weight block: one product of the chunk. -/
theorem lh_at (c : Dev nD) (t : Fin cfg0.N) (r : Fin 1024) (j : Fin 128) :
    (insAt m c t).x3 (ix2 r j) = aLh m c (ix2 (R t r) (Cert.Spec.kpos (gk t) j)) := by
  rw [kpos_eq]; exact blk_0 (F := Ideal) (aLh m c) t r j
theorem rh_at (c : Dev nD) (t : Fin cfg0.N) (r : Fin 1024) (j : Fin 128) :
    (insAt m c t).x4 (ix2 r j) = aRh m c (ix2 (R t r) (Cert.Spec.kpos (gk t) j)) := by
  rw [kpos_eq]; exact blk_1 (F := Ideal) (aRh m c) t r j
theorem wl_at0 (c : Dev nD) (t : Fin cfg0.N) (j : Fin 128) (cc : Fin 512) :
    (insAt m c t).x5 (ix2 j cc) = aWl m c (ix2 (Cert.Spec.kpos (gk t) j) (Cert.Spec.gcol 0 (C t cc))) := by
  rw [kpos_eq, gcol_eq0]; exact blk_2 (F := Ideal) (aWl m c) t j cc
theorem wr_at0 (c : Dev nD) (t : Fin cfg0.N) (j : Fin 128) (cc : Fin 512) :
    (insAt m c t).x9 (ix2 j cc) = aWr m c (ix2 (Cert.Spec.kpos (gk t) j) (Cert.Spec.gcol 0 (C t cc))) := by
  rw [kpos_eq, gcol_eq0]; exact blk_6 (F := Ideal) (aWr m c) t j cc
theorem bl_at0 (c : Dev nD) (t : Fin cfg0.N) (cc : Fin 512) :
    (insAt m c t).x13 (ix1 cc) = aBl m c (ix1 (Cert.Spec.gcol 0 (C t cc))) := by
  rw [gcol_eq0]; exact blk_10 (F := Ideal) (aBl m c) t cc
theorem br_at0 (c : Dev nD) (t : Fin cfg0.N) (cc : Fin 512) :
    (insAt m c t).x17 (ix1 cc) = aBr m c (ix1 (Cert.Spec.gcol 0 (C t cc))) := by
  rw [gcol_eq0]; exact blk_14 (F := Ideal) (aBr m c) t cc
theorem wl_at1 (c : Dev nD) (t : Fin cfg0.N) (j : Fin 128) (cc : Fin 512) :
    (insAt m c t).x6 (ix2 j cc) = aWl m c (ix2 (Cert.Spec.kpos (gk t) j) (Cert.Spec.gcol 1 (C t cc))) := by
  rw [kpos_eq, gcol_eq1]; exact blk_3 (F := Ideal) (aWl m c) t j cc
theorem wr_at1 (c : Dev nD) (t : Fin cfg0.N) (j : Fin 128) (cc : Fin 512) :
    (insAt m c t).x10 (ix2 j cc) = aWr m c (ix2 (Cert.Spec.kpos (gk t) j) (Cert.Spec.gcol 1 (C t cc))) := by
  rw [kpos_eq, gcol_eq1]; exact blk_7 (F := Ideal) (aWr m c) t j cc
theorem bl_at1 (c : Dev nD) (t : Fin cfg0.N) (cc : Fin 512) :
    (insAt m c t).x14 (ix1 cc) = aBl m c (ix1 (Cert.Spec.gcol 1 (C t cc))) := by
  rw [gcol_eq1]; exact blk_11 (F := Ideal) (aBl m c) t cc
theorem br_at1 (c : Dev nD) (t : Fin cfg0.N) (cc : Fin 512) :
    (insAt m c t).x18 (ix1 cc) = aBr m c (ix1 (Cert.Spec.gcol 1 (C t cc))) := by
  rw [gcol_eq1]; exact blk_15 (F := Ideal) (aBr m c) t cc
theorem wl_at2 (c : Dev nD) (t : Fin cfg0.N) (j : Fin 128) (cc : Fin 512) :
    (insAt m c t).x7 (ix2 j cc) = aWl m c (ix2 (Cert.Spec.kpos (gk t) j) (Cert.Spec.gcol 2 (C t cc))) := by
  rw [kpos_eq, gcol_eq2]; exact blk_4 (F := Ideal) (aWl m c) t j cc
theorem wr_at2 (c : Dev nD) (t : Fin cfg0.N) (j : Fin 128) (cc : Fin 512) :
    (insAt m c t).x11 (ix2 j cc) = aWr m c (ix2 (Cert.Spec.kpos (gk t) j) (Cert.Spec.gcol 2 (C t cc))) := by
  rw [kpos_eq, gcol_eq2]; exact blk_8 (F := Ideal) (aWr m c) t j cc
theorem bl_at2 (c : Dev nD) (t : Fin cfg0.N) (cc : Fin 512) :
    (insAt m c t).x15 (ix1 cc) = aBl m c (ix1 (Cert.Spec.gcol 2 (C t cc))) := by
  rw [gcol_eq2]; exact blk_12 (F := Ideal) (aBl m c) t cc
theorem br_at2 (c : Dev nD) (t : Fin cfg0.N) (cc : Fin 512) :
    (insAt m c t).x19 (ix1 cc) = aBr m c (ix1 (Cert.Spec.gcol 2 (C t cc))) := by
  rw [gcol_eq2]; exact blk_16 (F := Ideal) (aBr m c) t cc
theorem wl_at3 (c : Dev nD) (t : Fin cfg0.N) (j : Fin 128) (cc : Fin 512) :
    (insAt m c t).x8 (ix2 j cc) = aWl m c (ix2 (Cert.Spec.kpos (gk t) j) (Cert.Spec.gcol 3 (C t cc))) := by
  rw [kpos_eq, gcol_eq3]; exact blk_5 (F := Ideal) (aWl m c) t j cc
theorem wr_at3 (c : Dev nD) (t : Fin cfg0.N) (j : Fin 128) (cc : Fin 512) :
    (insAt m c t).x12 (ix2 j cc) = aWr m c (ix2 (Cert.Spec.kpos (gk t) j) (Cert.Spec.gcol 3 (C t cc))) := by
  rw [kpos_eq, gcol_eq3]; exact blk_9 (F := Ideal) (aWr m c) t j cc
theorem bl_at3 (c : Dev nD) (t : Fin cfg0.N) (cc : Fin 512) :
    (insAt m c t).x16 (ix1 cc) = aBl m c (ix1 (Cert.Spec.gcol 3 (C t cc))) := by
  rw [gcol_eq3]; exact blk_13 (F := Ideal) (aBl m c) t cc
theorem br_at3 (c : Dev nD) (t : Fin cfg0.N) (cc : Fin 512) :
    (insAt m c t).x20 (ix1 cc) = aBr m c (ix1 (Cert.Spec.gcol 3 (C t cc))) := by
  rw [gcol_eq3]; exact blk_17 (F := Ideal) (aBr m c) t cc
theorem lc_at (c : Dev nD) (t : Fin cfg0.N) (r : Fin 1024) (cc : Fin 512) :
    (insAt m c t).x21 (ix2 r cc) = aLc m c (ix2 (R t r) (C t cc)) := blk_18 (F := Ideal) (aLc m c) t r cc
theorem rc_at (c : Dev nD) (t : Fin cfg0.N) (r : Fin 1024) (cc : Fin 512) :
    (insAt m c t).x22 (ix2 r cc) = aRc m c (ix2 (R t r) (C t cc)) := blk_19 (F := Ideal) (aRc m c) t r cc

/-! ## One chunk more -/

/-- Gate 0: an accumulator holding the specification's after `k` chunks holds, one update later, the
    specification's after `k + 1`. -/
theorem step0 (c : Dev nD) (t : Fin cfg0.N) (s : Vec Ideal S1024x512 .f32) (r : Fin 1024) (cc : Fin 512)
    (hs : s (ix2 r cc) = accS m c 0 (R t r) (C t cc) (gk t)) :
    nacc0 (insAt m c t) s (ix2 r cc) = accS m c 0 (R t r) (C t cc) (gk t + 1) := by
  unfold nacc0
  rw [pay15_apply, hs]
  show _ = accS m c 0 (R t r) (C t cc) (gk t)
      + (Cert.Spec.chunk (aLh m c) (aWl m c) 0 (R t r) (C t cc) (gk t) + Cert.Spec.chunk (aRh m c) (aWr m c) 0 (R t r) (C t cc) (gk t))
  unfold Cert.Spec.chunk
  refine congrArg (accS m c 0 (R t r) (C t cc) (gk t) + ·) (congrArg₂ (· + ·) (Finset.sum_congr rfl fun j _ => ?_) (Finset.sum_congr rfl fun j _ => ?_))
  · rw [lh_at, wl_at0]
  · rw [rh_at, wr_at0]

/-- Gate 1: an accumulator holding the specification's after `k` chunks holds, one update later, the
    specification's after `k + 1`. -/
theorem step1 (c : Dev nD) (t : Fin cfg0.N) (s : Vec Ideal S1024x512 .f32) (r : Fin 1024) (cc : Fin 512)
    (hs : s (ix2 r cc) = accS m c 1 (R t r) (C t cc) (gk t)) :
    nacc1 (insAt m c t) s (ix2 r cc) = accS m c 1 (R t r) (C t cc) (gk t + 1) := by
  unfold nacc1
  rw [pay1_16_apply, hs]
  show _ = accS m c 1 (R t r) (C t cc) (gk t)
      + (Cert.Spec.chunk (aLh m c) (aWl m c) 1 (R t r) (C t cc) (gk t) + Cert.Spec.chunk (aRh m c) (aWr m c) 1 (R t r) (C t cc) (gk t))
  unfold Cert.Spec.chunk
  refine congrArg (accS m c 1 (R t r) (C t cc) (gk t) + ·) (congrArg₂ (· + ·) (Finset.sum_congr rfl fun j _ => ?_) (Finset.sum_congr rfl fun j _ => ?_))
  · rw [lh_at, wl_at1]
  · rw [rh_at, wr_at1]

/-- Gate 2: an accumulator holding the specification's after `k` chunks holds, one update later, the
    specification's after `k + 1`. -/
theorem step2 (c : Dev nD) (t : Fin cfg0.N) (s : Vec Ideal S1024x512 .f32) (r : Fin 1024) (cc : Fin 512)
    (hs : s (ix2 r cc) = accS m c 2 (R t r) (C t cc) (gk t)) :
    nacc2 (insAt m c t) s (ix2 r cc) = accS m c 2 (R t r) (C t cc) (gk t + 1) := by
  unfold nacc2
  rw [pay2_apply, hs]
  show _ = accS m c 2 (R t r) (C t cc) (gk t)
      + (Cert.Spec.chunk (aLh m c) (aWl m c) 2 (R t r) (C t cc) (gk t) + Cert.Spec.chunk (aRh m c) (aWr m c) 2 (R t r) (C t cc) (gk t))
  unfold Cert.Spec.chunk
  refine congrArg (accS m c 2 (R t r) (C t cc) (gk t) + ·) (congrArg₂ (· + ·) (Finset.sum_congr rfl fun j _ => ?_) (Finset.sum_congr rfl fun j _ => ?_))
  · rw [lh_at, wl_at2]
  · rw [rh_at, wr_at2]

/-- Gate 3: an accumulator holding the specification's after `k` chunks holds, one update later, the
    specification's after `k + 1`. -/
theorem step3 (c : Dev nD) (t : Fin cfg0.N) (s : Vec Ideal S1024x512 .f32) (r : Fin 1024) (cc : Fin 512)
    (hs : s (ix2 r cc) = accS m c 3 (R t r) (C t cc) (gk t)) :
    nacc3 (insAt m c t) s (ix2 r cc) = accS m c 3 (R t r) (C t cc) (gk t + 1) := by
  unfold nacc3
  rw [pay3_apply, hs]
  show _ = accS m c 3 (R t r) (C t cc) (gk t)
      + (Cert.Spec.chunk (aLh m c) (aWl m c) 3 (R t r) (C t cc) (gk t) + Cert.Spec.chunk (aRh m c) (aWr m c) 3 (R t r) (C t cc) (gk t))
  unfold Cert.Spec.chunk
  refine congrArg (accS m c 3 (R t r) (C t cc) (gk t) + ·) (congrArg₂ (· + ·) (Finset.sum_congr rfl fun j _ => ?_) (Finset.sum_congr rfl fun j _ => ?_))
  · rw [lh_at, wl_at3]
  · rw [rh_at, wr_at3]

/-! ## The invariant, one step -/

/-- What "the accumulators hold the specification's after `n` chunks, at point `t`'s block" says. -/
def AccIs (c : Dev nD) (t : Fin cfg0.N) (S : Scr Ideal) (n : ℕ) : Prop :=
  ∀ (r : Fin 1024) (cc : Fin 512),
    S.s0 (ix2 r cc) = accS m c 0 (R t r) (C t cc) n
      ∧ S.s1 (ix2 r cc) = accS m c 1 (R t r) (C t cc) n
      ∧ S.s2 (ix2 r cc) = accS m c 2 (R t r) (C t cc) n
      ∧ S.s3 (ix2 r cc) = accS m c 3 (R t r) (C t cc) n

/-- A first chunk: whatever the accumulators held, they are reset and hold chunk 0. -/
theorem inv_first (c : Dev nD) (t : Fin cfg0.N) (h0 : t.val % 16 = 0) (prev : Scr Ideal) :
    AccIs m c t (stepOuts m c t prev).s (gk t + 1) := by
  have hk : gk t = 0 := (gk_eq t).trans h0
  intro r cc
  rw [stepOuts_first m c t prev h0]
  dsimp only
  refine ⟨?_, ?_, ?_, ?_⟩
  · rw [pieceA0]
    refine step0 m c t _ r cc ?_
    rw [pay9_apply, hk]; rfl
  · rw [pieceA1]
    refine step1 m c t _ r cc ?_
    rw [pay10_apply, hk]; rfl
  · rw [pieceA2]
    refine step2 m c t _ r cc ?_
    rw [pay11_apply, hk]; rfl
  · rw [pieceA3]
    refine step3 m c t _ r cc ?_
    rw [pay12_apply, hk]; rfl

set_option maxHeartbeats 2000000 in
/-- A last chunk: the accumulators gain this chunk over what the point before left. -/
theorem inv_last (c : Dev nD) (t : Fin cfg0.N) (h0 : ¬t.val % 16 = 0) (h15 : t.val % 16 = 15) (prev : Scr Ideal)
    (hprev : AccIs m c t prev (gk t)) : AccIs m c t (stepOuts m c t prev).s (gk t + 1) := by
  intro r cc
  obtain ⟨p0, p1, p2, p3⟩ := hprev r cc
  rw [stepOuts_last m c t prev h0 h15]
  dsimp only
  refine ⟨?_, ?_, ?_, ?_⟩
  · rw [pieceC0]; exact step0 m c t _ r cc p0
  · rw [pieceC1]; exact step1 m c t _ r cc p1
  · rw [pieceC2]; exact step2 m c t _ r cc p2
  · rw [pieceC3]; exact step3 m c t _ r cc p3

set_option maxHeartbeats 2000000 in
/-- A middle chunk likewise. -/
theorem inv_mid (c : Dev nD) (t : Fin cfg0.N) (h0 : ¬t.val % 16 = 0) (h15 : ¬t.val % 16 = 15) (prev : Scr Ideal)
    (hprev : AccIs m c t prev (gk t)) : AccIs m c t (stepOuts m c t prev).s (gk t + 1) := by
  intro r cc
  obtain ⟨p0, p1, p2, p3⟩ := hprev r cc
  rw [stepOuts_mid m c t prev h0 h15]
  dsimp only
  refine ⟨?_, ?_, ?_, ?_⟩
  · rw [pieceB0]; exact step0 m c t _ r cc p0
  · rw [pieceB1]; exact step1 m c t _ r cc p1
  · rw [pieceB2]; exact step2 m c t _ r cc p2
  · rw [pieceB3]; exact step3 m c t _ r cc p3

/-- Any chunk but a first. -/
theorem inv_next (c : Dev nD) (t : Fin cfg0.N) (h0 : ¬t.val % 16 = 0) (prev : Scr Ideal) (hprev : AccIs m c t prev (gk t)) :
    AccIs m c t (stepOuts m c t prev).s (gk t + 1) := by
  by_cases h15 : t.val % 16 = 15
  · exact inv_last m c t h0 h15 prev hprev
  · exact inv_mid m c t h0 h15 prev hprev

/-- The point before a non-first chunk is the same block, one chunk earlier. -/
theorem AccIs_pred (c : Dev nD) (t : Fin cfg0.N) (h0 : ¬t.val % 16 = 0) (hlt : t.val - 1 < cfg0.N) (S : Scr Ideal)
    (h : AccIs m c ⟨t.val - 1, hlt⟩ S (gk ⟨t.val - 1, hlt⟩ + 1)) : AccIs m c t S (gk t) := by
  obtain ⟨e0, e1, e2⟩ := g_pred t h0 hlt
  intro r cc
  have hR : R ⟨t.val - 1, hlt⟩ r = R t r := Fin.ext (by show 1024 * gi _ + r.val = 1024 * gi t + r.val; rw [e0])
  have hC : C ⟨t.val - 1, hlt⟩ cc = C t cc := Fin.ext (by show 512 * gd _ + cc.val = 512 * gd t + cc.val; rw [e1])
  have := h r cc
  rw [hR, hC, e2] at this
  exact this

/-- THE INVARIANT: after the point with chunk number `k` the accumulators hold the specification's after `k + 1`. -/
theorem acc_inv (c : Dev nD) : ∀ (n : ℕ) (hn : n < cfg0.N), AccIs m c ⟨n, hn⟩ (outsAt m c n hn).s (gk ⟨n, hn⟩ + 1)
  | 0, hn => inv_first m c ⟨0, hn⟩ rfl _
  | n + 1, hn => by
    show AccIs m c ⟨n + 1, hn⟩ (stepOuts m c ⟨n + 1, hn⟩ (outsAt m c n (Nat.lt_of_succ_lt hn)).s).s _
    by_cases h0 : (n + 1) % 16 = 0
    · exact inv_first m c ⟨n + 1, hn⟩ h0 _
    · exact inv_next m c ⟨n + 1, hn⟩ h0 _
        (AccIs_pred m c ⟨n + 1, hn⟩ h0 (Nat.lt_of_succ_lt hn) _ (acc_inv c n (Nat.lt_of_succ_lt hn)))

/-! ## A last chunk stores the specification's cell state and hidden state -/

/-- Gate `g`'s pre-activation from its finished accumulator and its two bias blocks. -/
theorem pre_at0 (c : Dev nD) (t : Fin cfg0.N) (h15 : t.val % 16 = 15) (n : Vec Ideal S1024x512 .f32) (r : Fin 1024) (cc : Fin 512)
    (hn : n (ix2 r cc) = accS m c 0 (R t r) (C t cc) (gk t + 1)) :
    (n (ix2 r cc) + (insAt m c t).x13 (ix1 cc)) + (insAt m c t).x17 (ix1 cc)
      = Cert.Spec.pre (aLh m c) (aRh m c) (aWl m c) (aWr m c) (aBl m c) (aBr m c) 0 (R t r) (C t cc) := by
  have hk : gk t + 1 = 16 := by rw [gk_eq t, h15]
  rw [hn, hk, bl_at0, br_at0]; rfl
theorem pre_at1 (c : Dev nD) (t : Fin cfg0.N) (h15 : t.val % 16 = 15) (n : Vec Ideal S1024x512 .f32) (r : Fin 1024) (cc : Fin 512)
    (hn : n (ix2 r cc) = accS m c 1 (R t r) (C t cc) (gk t + 1)) :
    (n (ix2 r cc) + (insAt m c t).x14 (ix1 cc)) + (insAt m c t).x18 (ix1 cc)
      = Cert.Spec.pre (aLh m c) (aRh m c) (aWl m c) (aWr m c) (aBl m c) (aBr m c) 1 (R t r) (C t cc) := by
  have hk : gk t + 1 = 16 := by rw [gk_eq t, h15]
  rw [hn, hk, bl_at1, br_at1]; rfl
theorem pre_at2 (c : Dev nD) (t : Fin cfg0.N) (h15 : t.val % 16 = 15) (n : Vec Ideal S1024x512 .f32) (r : Fin 1024) (cc : Fin 512)
    (hn : n (ix2 r cc) = accS m c 2 (R t r) (C t cc) (gk t + 1)) :
    (n (ix2 r cc) + (insAt m c t).x15 (ix1 cc)) + (insAt m c t).x19 (ix1 cc)
      = Cert.Spec.pre (aLh m c) (aRh m c) (aWl m c) (aWr m c) (aBl m c) (aBr m c) 2 (R t r) (C t cc) := by
  have hk : gk t + 1 = 16 := by rw [gk_eq t, h15]
  rw [hn, hk, bl_at2, br_at2]; rfl
theorem pre_at3 (c : Dev nD) (t : Fin cfg0.N) (h15 : t.val % 16 = 15) (n : Vec Ideal S1024x512 .f32) (r : Fin 1024) (cc : Fin 512)
    (hn : n (ix2 r cc) = accS m c 3 (R t r) (C t cc) (gk t + 1)) :
    (n (ix2 r cc) + (insAt m c t).x16 (ix1 cc)) + (insAt m c t).x20 (ix1 cc)
      = Cert.Spec.pre (aLh m c) (aRh m c) (aWl m c) (aWr m c) (aBl m c) (aBr m c) 3 (R t r) (C t cc) := by
  have hk : gk t + 1 = 16 := by rw [gk_eq t, h15]
  rw [hn, hk, bl_at3, br_at3]; rfl

set_option maxHeartbeats 2000000 in
theorem out_last (c : Dev nD) (t : Fin cfg0.N) (h0 : ¬t.val % 16 = 0) (h15 : t.val % 16 = 15) (prev : Scr Ideal)
    (hprev : AccIs m c t prev (gk t)) (r : Fin 1024) (cc : Fin 512) :
    (stepOuts m c t prev).o0 (ix2 r cc) = Cert.Spec.cell (aLc m c) (aLh m c) (aRc m c) (aRh m c) (aWl m c) (aWr m c) (aBl m c) (aBr m c) (R t r) (C t cc)
    ∧ (stepOuts m c t prev).o1 (ix2 r cc) = Ideal.tanh (Cert.Spec.cell (aLc m c) (aLh m c) (aRc m c) (aRh m c) (aWl m c) (aWr m c) (aBl m c) (aBr m c) (R t r) (C t cc)) := by
  obtain ⟨p0, p1, p2, p3⟩ := hprev r cc
  have q0 := step0 m c t _ r cc p0
  have q1 := step1 m c t _ r cc p1
  have q2 := step2 m c t _ r cc p2
  have q3 := step3 m c t _ r cc p3
  have hcell : cellOf (insAt m c t) (nacc0 (insAt m c t) prev.s0) (nacc1 (insAt m c t) prev.s1) (nacc2 (insAt m c t) prev.s2) (nacc3 (insAt m c t) prev.s3) (ix2 r cc)
      = Cert.Spec.cell (aLc m c) (aLh m c) (aRc m c) (aRh m c) (aWl m c) (aWr m c) (aBl m c) (aBr m c) (R t r) (C t cc) := by
    unfold cellOf
    rw [pay4_apply, pay6_apply, pay7_apply, pay8_apply,
      pre_at0 m c t h15 _ r cc q0, pre_at1 m c t h15 _ r cc q1, pre_at2 m c t h15 _ r cc q2, pre_at3 m c t h15 _ r cc q3,
      lc_at, rc_at]
    rfl
  rw [stepOuts_last m c t prev h0 h15]
  dsimp only
  refine ⟨?_, ?_⟩
  · rw [pieceCcell]; exact hcell
  · rw [pieceChid]; unfold hidOf; rw [pay5_apply]
    exact congrArg Ideal.tanh hcell

/-! ## The output arrays after the run -/

theorem flushed_out (c : Dev nD) (t : Fin cfg0.N) (h15 : t.val % 16 = 15) (r : Fin 1024) (cc : Fin 512) :
    (dats m 0 c).flushed 20 t (ix2 r cc) = Cert.Spec.Gc (aLc m c) (aLh m c) (aRc m c) (aRh m c) (aWl m c) (aWr m c) (aBl m c) (aBr m c) (ix2 (R t r) (C t cc))
    ∧ (dats m 0 c).flushed 21 t (ix2 r cc) = Cert.Spec.Gh (aLc m c) (aLh m c) (aRc m c) (aRh m c) (aWl m c) (aWr m c) (aBl m c) (aBr m c) (ix2 (R t r) (C t cc)) := by
  have hx0 : (cfg0.win 20).xinj (grid0.coords t) (ix2 r cc) = ix2 r cc := funext fun a => Fin.ext rfl
  have hx1 : (cfg0.win 21).xinj (grid0.coords t) (ix2 r cc) = ix2 r cc := funext fun a => Fin.ext rfl
  have h0 : ¬t.val % 16 = 0 := by omega
  have hz : t.val ≠ 0 := fun e => h0 (by rw [e])
  have hlt : t.val - 1 < cfg0.N := Nat.lt_of_le_of_lt (Nat.sub_le _ _) t.isLt
  have hprev := AccIs_pred m c t h0 hlt _ (acc_inv m c (t.val - 1) hlt)
  have ho := out_last m c t h0 h15 _ hprev r cc
  rw [← outsAt_pos m c t hz] at ho
  refine ⟨?_, ?_⟩
  · show (dats m 0 c).after 20 t ((cfg0.win 20).xinj (grid0.coords t) (ix2 r cc)) = Cert.Spec.cell (aLc m c) (aLh m c) (aRc m c) (aRh m c) (aWl m c) (aWr m c) (aBl m c) (aBr m c) (R t r) (C t cc)
    rw [hx0, after_20]; exact ho.1
  · show (dats m 0 c).after 21 t ((cfg0.win 21).xinj (grid0.coords t) (ix2 r cc)) = Ideal.tanh (Cert.Spec.cell (aLc m c) (aLh m c) (aRc m c) (aRh m c) (aWl m c) (aWr m c) (aBl m c) (aBr m c) (R t r) (C t cc))
    rw [hx1, after_21]; exact ho.2

theorem final_c (c : Dev nD) : (dats m 0 c).arrAt 20 cfg0.N = Cert.Spec.Gc (aLc m c) (aLh m c) (aRc m c) (aRh m c) (aWl m c) (aWr m c) (aBl m c) (aBr m c) :=
  final_20 (dats m 0 c) _ fun t h15 r cc => (flushed_out m c t h15 r cc).1
theorem final_h (c : Dev nD) : (dats m 0 c).arrAt 21 cfg0.N = Cert.Spec.Gh (aLc m c) (aLh m c) (aRc m c) (aRh m c) (aWl m c) (aWr m c) (aBl m c) (aBr m c) :=
  final_21 (dats m 0 c) _ fun t h15 r cc => (flushed_out m c t h15 r cc).2

/-! ## The run, read -/

/-- Every weakly fair execution of the idealized kernel terminates with its two results at the specification's cell
    state and hidden state of the arguments' launch contents, and the arguments unchanged. -/
theorem run_G (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Cert.Spec.Gc (aLc m c) (aLh m c) (aRc m c) (aRh m c) (aWl m c) (aWr m c) (aBl m c) (aBr m c)
      ∧ r.2.mem ((c.tc : Thread nD τ).loc main_v0_1) = Cert.Spec.Gh (aLc m c) (aLh m c) (aRc m c) (aRh m c) (aWl m c) (aWr m c) (aBl m c) (aBr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c 20).trans (final_c m c), (h c 21).trans (final_h m c),
     (h c 18).trans (final_in_18 m c), (h c 0).trans (final_in_0 m c), (h c 19).trans (final_in_19 m c),
     (h c 1).trans (final_in_1 m c), (h c 2).trans (final_in_2 m c), (h c 10).trans (final_in_10 m c),
     (h c 6).trans (final_in_6 m c), (h c 14).trans (final_in_14 m c)⟩)
    (run_main m ρ fun c => (body_obligation m c).loose)

end Cert.KernelIdeal.Val

end
-- ==== Proof.SpecSums.lean ====
/-
  The accumulated contraction equals the plain contraction.

  A sum over the 2048 positions is the sum, over the sixteen chunks, of the 128 positions 128·n + j of chunk n:
  the pairs (n, j) with n < 16 and j < 128 are in bijection with the positions 128·n + j < 2048, and a finite sum
  in a commutative monoid may be reindexed along a bijection and split over a product. The accumulator started at
  zero is the sum of the chunks added so far; a sum of sums is split by commutativity and associativity; and the
  two biases are then moved into place by the same two laws. Nothing here uses subtraction or finiteness.
-/
import proofs.«122265_j12180527251605_1_alg».proof.Proof.Spec
import Mathlib.Algebra.BigOperators.Fin
import Mathlib.Algebra.BigOperators.Group.Finset.Basic
import Mathlib.Data.Fintype.BigOperators
import Mathlib.Logic.Equiv.Fin.Basic

noncomputable section

open Idealize.ShloMosaic Idealize.ShloMosaic.ValueIdx
open scoped BigOperators

namespace Cert.Spec

/-- The position paired with (n, j), n < 16, j < 128, by the standard bijection is 128·n + j. -/
private theorem pair_eq_kpos (n : Fin 16) (j : Fin 128) :
    (finProdFinEquiv (n, j) : Fin 2048) = kpos n.val j := by
  apply Fin.ext
  rw [kpos_val n.val n.isLt j]
  show j.val + 128 * n.val = 128 * n.val + j.val
  exact Nat.add_comm _ _

/-- A sum over 2048 positions is the sum of its sixteen chunks of 128, in any commutative monoid. -/
private theorem sum_chunks {M : Type*} [AddCommMonoid M] (f : Fin 2048 → M) :
    ∑ k : Fin 2048, f k = ∑ n ∈ Finset.range 16, ∑ j : Fin 128, f (kpos n j) := by
  have h1 : ∑ k : Fin 2048, f k = ∑ p : Fin 16 × Fin 128, f (finProdFinEquiv p : Fin 2048) :=
    (Equiv.sum_comp (finProdFinEquiv : Fin 16 × Fin 128 ≃ Fin 2048) f).symm
  have h2 : ∑ p : Fin 16 × Fin 128, f (finProdFinEquiv p : Fin 2048)
      = ∑ n : Fin 16, ∑ j : Fin 128, f (finProdFinEquiv (n, j) : Fin 2048) :=
    Fintype.sum_prod_type _
  have h3 : ∑ n : Fin 16, ∑ j : Fin 128, f (finProdFinEquiv (n, j) : Fin 2048)
      = ∑ n : Fin 16, ∑ j : Fin 128, f (kpos n.val j) :=
    Finset.sum_congr rfl fun n _ => Finset.sum_congr rfl fun j _ => by rw [pair_eq_kpos]
  have h4 : ∑ n : Fin 16, ∑ j : Fin 128, f (kpos n.val j)
      = ∑ n ∈ Finset.range 16, ∑ j : Fin 128, f (kpos n j) :=
    (Finset.sum_range fun n => ∑ j : Fin 128, f (kpos n j)).symm
  rw [h1, h2, h3, h4]

variable (lh rh : SAct.Idx → EReal) (Wl Wr : SWt.Idx → EReal) (bl br : SBias.Idx → EReal)

/-- The accumulator after n chunks, from zero, is the sum of the first n steps. -/
private theorem acc_eq_sum (g : Fin 4) (r : Fin 4096) (col : Fin 2048) (n : ℕ) :
    acc lh rh Wl Wr g r col n
      = ∑ m ∈ Finset.range n, (chunk lh Wl g r col m + chunk rh Wr g r col m) := by
  induction n with
  | zero => rw [Finset.sum_range_zero]; rfl
  | succ n ih =>
    rw [Finset.sum_range_succ, ← ih]
    rfl

/-- The sixteen chunks of one product add up to the whole contraction. -/
private theorem sum_chunk (x : SAct.Idx → EReal) (W : SWt.Idx → EReal) (g : Fin 4) (r : Fin 4096)
    (col : Fin 2048) :
    ∑ m ∈ Finset.range 16, chunk x W g r col m = ∑ k : Fin 2048, x (ix2 r k) * W (ix2 k (gcol g col)) :=
  (sum_chunks fun k : Fin 2048 => x (ix2 r k) * W (ix2 k (gcol g col))).symm

theorem acc_sixteen (lh rh : SAct.Idx → EReal) (Wl Wr : SWt.Idx → EReal) (g : Fin 4) (r : Fin 4096)
    (col : Fin 2048) :
    acc lh rh Wl Wr g r col 16
      = (∑ k : Fin 2048, lh (ix2 r k) * Wl (ix2 k (gcol g col)))
        + (∑ k : Fin 2048, rh (ix2 r k) * Wr (ix2 k (gcol g col))) := by
  rw [acc_eq_sum, Finset.sum_add_distrib, sum_chunk, sum_chunk]

theorem pre_eq_sums (lh rh : SAct.Idx → EReal) (Wl Wr : SWt.Idx → EReal) (bl br : SBias.Idx → EReal)
    (g : Fin 4) (r : Fin 4096) (col : Fin 2048) :
    pre lh rh Wl Wr bl br g r col
      = (((∑ k : Fin 2048, lh (ix2 r k) * Wl (ix2 k (gcol g col))) + bl (ix1 (gcol g col)))
          + (∑ k : Fin 2048, rh (ix2 r k) * Wr (ix2 k (gcol g col)))) + br (ix1 (gcol g col)) := by
  unfold pre
  rw [acc_sixteen, add_right_comm (∑ k : Fin 2048, lh (ix2 r k) * Wl (ix2 k (gcol g col)))]

end Cert.Spec

end
-- ==== Proof.RefSide.Pre.lean ====
/-
  The reference's fused pre-activation array, read at one index.

  The reference forms  lh·Wl + bl + rh·Wr + br  over [4096, 8192] as
  ((dot(lh, Wl) + bcast bl) + dot(rh, Wr)) + bcast br.  At row r and fused column c this is
  ((∑ k, lh[r,k]·Wl[k,c]) + bl[c]) + (∑ k, rh[r,k]·Wr[k,c])) + br[c]  on the extended reals: each contraction
  is a sum over the 2048 positions, and each broadcast of a bias along the rows reads the bias at the column.
  The four column blocks [2048·g, 2048·g + 2048) are then read at the fused column 2048·g + col.
-/
import proofs.«122265_j12180527251605_1_alg».proof.Proof.Gen.ReferenceIdeal.Read
import proofs.«122265_j12180527251605_1_alg».proof.Proof.Spec
import Idealize.ShloMosaic.PureOps.Ideal
import Idealize.ShloMosaic.Lib.ValueIdx

noncomputable section

open Idealize.ShloMosaic Idealize.ShloMosaic.ValueIdx
open Cert.ReferenceIdeal Cert.ReferenceIdeal.Read
open scoped BigOperators

namespace Cert.RefSide

set_option quotPrecheck false in
local notation "ActT" => (⟨Cert.ReferenceIdeal.S4096x2048, .f32⟩ : BufTy).Contents (Elt Ideal)
set_option quotPrecheck false in
local notation "WtT" => (⟨Cert.ReferenceIdeal.S2048x8192, .f32⟩ : BufTy).Contents (Elt Ideal)
set_option quotPrecheck false in
local notation "BiasT" => (⟨Cert.ReferenceIdeal.S8192, .f32⟩ : BufTy).Contents (Elt Ideal)

/-! ## The index functions of the stages, at an index given by its coordinates -/

/-- The left operand of the first contraction is read at row `r`, position `k`. -/
theorem lidx0_eq (r : Fin 4096) (c : Fin 8192) (k : Fin 2048) : lidx_main_v0 (ix2 r c) k = ix2 r k :=
  funext fun a => Fin.ext (by match a with | ⟨0, _⟩ => rfl | ⟨1, _⟩ => rfl)

/-- The right operand of the first contraction is read at position `k`, column `c`. -/
theorem ridx0_eq (r : Fin 4096) (c : Fin 8192) (k : Fin 2048) : ridx_main_v0 (ix2 r c) k = ix2 k c :=
  funext fun a => Fin.ext (by match a with | ⟨0, _⟩ => rfl | ⟨1, _⟩ => rfl)

theorem lidx4_eq (r : Fin 4096) (c : Fin 8192) (k : Fin 2048) : lidx_main_v4 (ix2 r c) k = ix2 r k :=
  funext fun a => Fin.ext (by match a with | ⟨0, _⟩ => rfl | ⟨1, _⟩ => rfl)

theorem ridx4_eq (r : Fin 4096) (c : Fin 8192) (k : Fin 2048) : ridx_main_v4 (ix2 r c) k = ix2 k c :=
  funext fun a => Fin.ext (by match a with | ⟨0, _⟩ => rfl | ⟨1, _⟩ => rfl)

/-- A bias broadcast along the rows is read at the column: first broadcast, of the left bias. -/
theorem idx12_eq (r : Fin 4096) (c : Fin 8192) : idx_main_v1 (idx_main_v2 (ix2 r c)) = ix1 c :=
  funext fun a => Fin.ext (by match a with | ⟨0, _⟩ => rfl)

/-- The same for the right bias. -/
theorem idx67_eq (r : Fin 4096) (c : Fin 8192) : idx_main_v6 (idx_main_v7 (ix2 r c)) = ix1 c :=
  funext fun a => Fin.ext (by match a with | ⟨0, _⟩ => rfl)

/-! ## The fused pre-activation at row `r`, fused column `c` -/

theorem fused_at (x1 x3 : ActT) (x4 : WtT) (x5 : BiasT) (x6 : WtT) (x7 : BiasT) (r : Fin 4096) (c : Fin 8192) :
    val_main_v8 (F := Ideal) x1 x3 x4 x5 x6 x7 (ix2 r c)
      = (((∑ k : Fin 2048, x1 (ix2 r k) * x4 (ix2 k c)) + x5 (ix1 c))
          + (∑ k : Fin 2048, x3 (ix2 r k) * x6 (ix2 k c))) + x7 (ix1 c) := by
  rw [val_main_v8_apply, val_main_v5_apply, val_main_v3_apply, val_main_v0_apply, val_main_v2_apply, val_main_v1_apply,
    val_main_v4_apply, val_main_v7_apply, val_main_v6_apply, idx12_eq, idx67_eq]
  simp only [Ideal.addf_def, lidx0_eq, ridx0_eq, lidx4_eq, ridx4_eq]

/-! ## The four column blocks -/

/-- Column `col` of block 0 is the fused column `2048·0 + col`. -/
theorem idx9_eq (r : Fin 4096) (col : Fin 2048) : idx_main_v9 (ix2 r col) = ix2 r (Cert.Spec.gcol 0 col) :=
  funext fun a => Fin.ext (by
    match a with
    | ⟨0, _⟩ => rfl
    | ⟨1, _⟩ =>
      show col.val = 2048 * 0 + col.val
      omega)

/-- Column `col` of block 1 is the fused column `2048·1 + col`. -/
theorem idx16_eq (r : Fin 4096) (col : Fin 2048) : idx_main_v16 (ix2 r col) = ix2 r (Cert.Spec.gcol 1 col) :=
  funext fun a => Fin.ext (by
    match a with
    | ⟨0, _⟩ => rfl
    | ⟨1, _⟩ =>
      show 2048 + col.val = 2048 * 1 + col.val
      omega)

/-- Column `col` of block 2 is the fused column `2048·2 + col`. -/
theorem idx23_eq (r : Fin 4096) (col : Fin 2048) : idx_main_v23 (ix2 r col) = ix2 r (Cert.Spec.gcol 2 col) :=
  funext fun a => Fin.ext (by
    match a with
    | ⟨0, _⟩ => rfl
    | ⟨1, _⟩ =>
      show 4096 + col.val = 2048 * 2 + col.val
      omega)

/-- Column `col` of block 3 is the fused column `2048·3 + col`. -/
theorem idx30_eq (r : Fin 4096) (col : Fin 2048) : idx_main_v30 (ix2 r col) = ix2 r (Cert.Spec.gcol 3 col) :=
  funext fun a => Fin.ext (by
    match a with
    | ⟨0, _⟩ => rfl
    | ⟨1, _⟩ =>
      show 6144 + col.val = 2048 * 3 + col.val
      omega)

end Cert.RefSide

end
-- ==== Proof.RefSide.lean ====
/-
  The reference program computes the specification's cell state and hidden state.

  At row r and column col, gate g's pre-activation is the fused array  lh·Wl + bl + rh·Wr + br  at the fused
  column 2048·g + col; with the contraction written as one sum over the 2048 positions this is the
  specification's `pre` (the sixteen chunks of 128 add up to the whole sum, and the biases are added in the
  reference's order).  The reference's  1 / (1 + exp(-x))  is the logistic function, so the first three blocks
  are the input gate and the two forget gates, the fourth goes through tanh, and
  c = (i·u + fl·lc) + fr·rc,  h = tanh c  are the specification's `Gc` and `Gh` index by index.
-/
import proofs.«122265_j12180527251605_1_alg».proof.Proof.Gen.ReferenceIdeal.Run
import proofs.«122265_j12180527251605_1_alg».proof.Proof.Gen.ReferenceIdeal.Read
import proofs.«122265_j12180527251605_1_alg».proof.Proof.Spec
import proofs.«122265_j12180527251605_1_alg».proof.Proof.SpecSums
import proofs.«122265_j12180527251605_1_alg».proof.Proof.RefSide.Pre

noncomputable section

open Idealize.ShloMosaic Idealize.ShloMosaic.ValueIdx Idealize.ShloMosaic.TcCoe Idealize.SL.Sem
open Cert.ReferenceIdeal Cert.ReferenceIdeal.Read
open scoped BigOperators

namespace Cert.RefSide

set_option quotPrecheck false in
local notation "ActT" => (⟨Cert.ReferenceIdeal.S4096x2048, .f32⟩ : BufTy).Contents (Elt Ideal)
set_option quotPrecheck false in
local notation "WtT" => (⟨Cert.ReferenceIdeal.S2048x8192, .f32⟩ : BufTy).Contents (Elt Ideal)
set_option quotPrecheck false in
local notation "BiasT" => (⟨Cert.ReferenceIdeal.S8192, .f32⟩ : BufTy).Contents (Elt Ideal)

/-! ## Gate `g`'s pre-activation is the fused array at column `2048·g + col` -/

theorem pre_at (x1 x3 : ActT) (x4 : WtT) (x5 : BiasT) (x6 : WtT) (x7 : BiasT) (g : Fin 4) (r : Fin 4096)
    (col : Fin 2048) :
    val_main_v8 (F := Ideal) x1 x3 x4 x5 x6 x7 (ix2 r (Cert.Spec.gcol g col))
      = Cert.Spec.pre x1 x3 x4 x6 x5 x7 g r col := by
  rw [fused_at, Cert.Spec.pre_eq_sums]

/-! ## The constant one, and the logistic function as the reference writes it -/

/-- The word `0x3F800000` denotes the real number one. -/
theorem one_f32 : Ideal.ofBits .f32 0x3F800000#32 = 1 := IdealRules.sign_bit.ideal_onePat .f32

/-- `1 / (1 + exp(-x))`, with the host's division, is the logistic function. -/
theorem logistic_form (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  simp only [Ideal.hostDivf_def, Ideal.addf_def, Ideal.hostUnary_exp_def, Ideal.hostNegf_def, Ideal.negf_def,
    Ideal.ofBits_def, one_f32]
  rfl

/-! ## The four gates at row `r`, column `col` -/

theorem gate_in (x1 x3 : ActT) (x4 : WtT) (x5 : BiasT) (x6 : WtT) (x7 : BiasT) (r : Fin 4096) (col : Fin 2048) :
    val_main_v15 (F := Ideal) x1 x3 x4 x5 x6 x7 (ix2 r col)
      = Ideal.logistic (Cert.Spec.pre x1 x3 x4 x6 x5 x7 0 r col) := by
  rw [val_main_v15_apply, val_main_v14_apply, val_main_cst_0_apply, val_main_v13_apply, val_main_v12_apply,
    val_main_cst_apply, val_main_v11_apply, val_main_v10_apply, val_main_v9_apply, idx9_eq, pre_at]
  exact logistic_form _

theorem gate_forget_left (x1 x3 : ActT) (x4 : WtT) (x5 : BiasT) (x6 : WtT) (x7 : BiasT) (r : Fin 4096)
    (col : Fin 2048) :
    val_main_v22 (F := Ideal) x1 x3 x4 x5 x6 x7 (ix2 r col)
      = Ideal.logistic (Cert.Spec.pre x1 x3 x4 x6 x5 x7 1 r col) := by
  rw [val_main_v22_apply, val_main_v21_apply, val_main_cst_2_apply, val_main_v20_apply, val_main_v19_apply,
    val_main_cst_1_apply, val_main_v18_apply, val_main_v17_apply, val_main_v16_apply, idx16_eq, pre_at]
  exact logistic_form _

theorem gate_forget_right (x1 x3 : ActT) (x4 : WtT) (x5 : BiasT) (x6 : WtT) (x7 : BiasT) (r : Fin 4096)
    (col : Fin 2048) :
    val_main_v29 (F := Ideal) x1 x3 x4 x5 x6 x7 (ix2 r col)
      = Ideal.logistic (Cert.Spec.pre x1 x3 x4 x6 x5 x7 2 r col) := by
  rw [val_main_v29_apply, val_main_v28_apply, val_main_cst_4_apply, val_main_v27_apply, val_main_v26_apply,
    val_main_cst_3_apply, val_main_v25_apply, val_main_v24_apply, val_main_v23_apply, idx23_eq, pre_at]
  exact logistic_form _

theorem gate_update (x1 x3 : ActT) (x4 : WtT) (x5 : BiasT) (x6 : WtT) (x7 : BiasT) (r : Fin 4096)
    (col : Fin 2048) :
    val_main_v31 (F := Ideal) x1 x3 x4 x5 x6 x7 (ix2 r col)
      = Ideal.tanh (Cert.Spec.pre x1 x3 x4 x6 x5 x7 3 r col) := by
  rw [val_main_v31_apply, val_main_v30_apply, idx30_eq, pre_at]
  rfl

/-! ## The cell state and the hidden state -/

/-- The reference's cell state at row `r`, column `col`. -/
theorem cell_at (x0 x1 x2 x3 : ActT) (x4 : WtT) (x5 : BiasT) (x6 : WtT) (x7 : BiasT) (r : Fin 4096)
    (col : Fin 2048) :
    val_main_v36 (F := Ideal) x0 x1 x2 x3 x4 x5 x6 x7 (ix2 r col)
      = Cert.Spec.cell x0 x1 x2 x3 x4 x6 x5 x7 r col := by
  rw [val_main_v36_apply, val_main_v34_apply, val_main_v32_apply, val_main_v33_apply, val_main_v35_apply,
    gate_in, gate_update, gate_forget_left, gate_forget_right]
  rfl

theorem val_c_eq (x0 x1 x2 x3 : (⟨Cert.ReferenceIdeal.S4096x2048, .f32⟩ : BufTy).Contents (Elt Ideal))
    (x4 : (⟨Cert.ReferenceIdeal.S2048x8192, .f32⟩ : BufTy).Contents (Elt Ideal))
    (x5 : (⟨Cert.ReferenceIdeal.S8192, .f32⟩ : BufTy).Contents (Elt Ideal))
    (x6 : (⟨Cert.ReferenceIdeal.S2048x8192, .f32⟩ : BufTy).Contents (Elt Ideal))
    (x7 : (⟨Cert.ReferenceIdeal.S8192, .f32⟩ : BufTy).Contents (Elt Ideal)) :
    Cert.ReferenceIdeal.Read.val_main_v36 (F := Ideal) x0 x1 x2 x3 x4 x5 x6 x7
      = Cert.Spec.Gc x0 x1 x2 x3 x4 x6 x5 x7 := by
  funext i
  obtain ⟨r, col, rfl⟩ : ∃ (r : Fin 4096) (col : Fin 2048), i = ix2 r col := ⟨i 0, i 1, eq_ix2 i⟩
  rw [cell_at, Cert.Spec.Gc_apply]

theorem val_h_eq (x0 x1 x2 x3 : (⟨Cert.ReferenceIdeal.S4096x2048, .f32⟩ : BufTy).Contents (Elt Ideal))
    (x4 : (⟨Cert.ReferenceIdeal.S2048x8192, .f32⟩ : BufTy).Contents (Elt Ideal))
    (x5 : (⟨Cert.ReferenceIdeal.S8192, .f32⟩ : BufTy).Contents (Elt Ideal))
    (x6 : (⟨Cert.ReferenceIdeal.S2048x8192, .f32⟩ : BufTy).Contents (Elt Ideal))
    (x7 : (⟨Cert.ReferenceIdeal.S8192, .f32⟩ : BufTy).Contents (Elt Ideal)) :
    Cert.ReferenceIdeal.Read.val_main_v37 (F := Ideal) x0 x1 x2 x3 x4 x5 x6 x7
      = Cert.Spec.Gh x0 x1 x2 x3 x4 x6 x5 x7 := by
  funext i
  obtain ⟨r, col, rfl⟩ : ∃ (r : Fin 4096) (col : Fin 2048), i = ix2 r col := ⟨i 0, i 1, eq_ix2 i⟩
  rw [val_main_v37_apply, cell_at, Cert.Spec.Gh_apply]
  rfl

/-! ## The reference's run ends at the specification -/

/-- Every weakly fair execution of the reference terminates with the cell state at `Gc` and the hidden state at
    `Gh` of the arguments' launch contents, and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩
      fun r => ∀ c : Dev Cert.ReferenceIdeal.nD,
        r.2.mem ((c.tc : Thread nD τ).loc main_v36)
          = Cert.Spec.Gc (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg6))
              (m ((c.tc : Thread nD τ).loc main_arg5)) (m ((c.tc : Thread nD τ).loc main_arg7))
        ∧ r.2.mem ((c.tc : Thread nD τ).loc main_v37)
          = Cert.Spec.Gh (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg6))
              (m ((c.tc : Thread nD τ).loc main_arg5)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run (Cert.ReferenceIdeal.defs (F := Ideal)) _ _).mono
    (fun _ h c =>
      ⟨(h c).1.trans ((val_main_v36_eq _ _ _ _ _ _ _ _).trans (val_c_eq _ _ _ _ _ _ _ _)),
        (h c).2.1.trans ((val_main_v37_eq _ _ _ _ _ _ _ _).trans (val_h_eq _ _ _ _ _ _ _ _)),
        (h c).2.2⟩)
    (Cert.ReferenceIdeal.Value.run (F := Ideal) m ρ)

end Cert.RefSide

end
-- ==== Proof.lean ====
/-
  The certificate: a binary-tree LSTM cell (the fused gate products of both children, the gate nonlinearities, the
  new cell state and hidden state) computed by one pallas_call that accumulates the two contractions over sixteen
  chunks into four on-chip accumulators, against the plain jnp computation.

  Both idealized programs end, on the extended reals, at ONE function of the arguments (Proof/Spec.lean): the
  kernel by induction over its grid (Proof/KI/Value.lean), the reference by reading its operations at an index and
  re-associating the sums (Proof/RefSide.lean). Each kernel program's frame is proved against the launch theorem for
  windows that share arrays (Proof/KI/, Proof/K/); the reference's is its run with the results dropped. The ideal
  pass rewrote nothing, so the idealization claim is trivial. No claim needs the inputs finite.
-/
import proofs.«122265_j12180527251605_1_alg».proof.Defs
import proofs.«122265_j12180527251605_1_alg».proof.Proof.Gen.Kernel
import proofs.«122265_j12180527251605_1_alg».proof.Proof.Gen.KernelIdeal
import proofs.«122265_j12180527251605_1_alg».proof.Proof.Gen.ReferenceIdeal
import proofs.«122265_j12180527251605_1_alg».proof.Proof.Gen.Pre_finite_inputs
import proofs.«122265_j12180527251605_1_alg».proof.Proof.K.Body
import proofs.«122265_j12180527251605_1_alg».proof.Proof.K.Launch
import proofs.«122265_j12180527251605_1_alg».proof.Proof.KI.Value
import proofs.«122265_j12180527251605_1_alg».proof.Proof.RefSide
import Idealize.ShloMosaic.Adequacy
import Idealize.ShloMosaic.Init

noncomputable section

namespace Cert.Proof

open Idealize.ShloMosaic Idealize.SL.Sem

/-- The word-level kernel runs, faults nowhere, and leaves its eight arguments as they were. -/
theorem frame_k : Cert.frame_Kernel := fun m ρ _ =>
  Cert.Kernel.Fr.frame_of_run m ρ (Cert.Kernel.Fr.run_main m ρ fun c => (Cert.Kernel.Fr.body_obligation m c).loose)

/-- So does the idealized kernel. -/
theorem frame_ki : Cert.frame_KernelIdeal := fun m ρ _ =>
  Cert.KernelIdeal.Fr.frame_of_run m ρ (Cert.KernelIdeal.Fr.run_main m ρ fun c => (Cert.KernelIdeal.Fr.body_obligation m c).loose)

/-- And the reference: its run, the two results dropped. -/
theorem frame_ri : Cert.frame_ReferenceIdeal := fun m ρ _ =>
  (θ_run Cert.ReferenceIdeal.defs _ _).mono (fun _ h c => (h c).2.2) (Cert.RefSide.run_G m ρ)

/-- From memories that agree on the arguments both idealized programs end with the specification's cell state and
    hidden state of those arguments. -/
theorem algebraic : Cert.algebraic_KernelIdeal_ReferenceIdeal := by
  intro m ρ m' ρ' _ hagree
  refine ⟨_, _, Cert.KernelIdeal.Val.run_G m ρ, ?_⟩
  refine (θ_run Cert.ReferenceIdeal.defs _ _).mono (fun _ h c => ?_) (Cert.RefSide.run_G m' ρ')
  obtain ⟨h36, h37, hargs⟩ := h c
  obtain ⟨a0, a1, a2, a3, a4, a5, a6, a7⟩ := hagree c
  refine ⟨h36.trans ?_, h37.trans ?_, hargs⟩
  · rw [a0, a1, a2, a3, a4, a5, a6, a7]
  · rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
